-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000x4 : Shape := ⟨2, ![3200000, 4]⟩
abbrev S20x16 : Shape := ⟨2, ![20, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S20x16 : S_.BroadcastsInDim S20x16 (![] : Fin 0 → Fin S20x16.rank)
  reducesTo_S20x16_S_d0_1 : S20x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part3 {F : FTy → Type} [FloatOps F] (main_arg1 : IVec S2x3200000 32) (main_arg12 : FVec F S4 .f32) (main_v48 : IVec S_ 1) (main_v49 : FVec F S16x4 .f32) (main_v50 : FVec F S16x4 .f32) : IVec S_ 1 :=
  let main_v51 : IVec S16x4 1 := cmpf .olt main_v49 main_v50
  let main_c_19 : IVec S_ 1 := constantI S_ 1 1#1
  let main_v52 : IVec S_ 1 := (fun x v => Host.reduce IntOp.andi x v reducesTo_S16x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_c_22 : IVec S_ 32 := constantI S_ 32 0#32
  let main_v59 : IVec S2x3200000 32 := broadcastInDim S2x3200000 ![] bcast_S_S2x3200000 main_c_22
  let main_v60 : IVec S2x3200000 1 := cmpi .sge main_arg1 main_v59
  let main_c_23 : IVec S_ 1 := constantI S_ 1 1#1
  let main_v61 : IVec S_ 1 := (fun x v => Host.reduce IntOp.andi x v reducesTo_S2x3200000_S_d0_1 h_S_) main_v60 main_c_23
  let main_v62 : IVec S_ 1 := andi main_v58 main_v61
  let main_c_24 : IVec S_ 32 := constantI S_ 32 100000#32
  let main_v63 : IVec S2x3200000 32 := broadcastInDim S2x3200000 ![] bcast_S_S2x3200000 main_c_24
  let main_v64 : IVec S2x3200000 1 := cmpi .slt main_arg1 main_v63
  let main_c_25 : IVec S_ 1 := constantI S_ 1 1#1
  let main_v65 : IVec S_ 1 := (fun x v => Host.reduce IntOp.andi x v reducesTo_S2x3200000_S_d0_1 h_S_) main_v64 main_c_25
  let main_v66 : IVec S_ 1 := andi main_v62 main_v65
  main_v66

def fn_part2 {F : FTy → Type} [FloatOps F] (main_arg1 : IVec S2x3200000 32) (main_arg8 : FVec F S16 .f32) (main_arg9 : FVec F S16 .f32) (main_arg10 : FVec F S16 .f32) (main_arg11 : FVec F S16x4 .f32) (main_arg12 : FVec F S4 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x4 .f32 := Host.absf main_arg11
  let main_cst_18 : FVec F S_ .f32 := constant S_ .f32 0x7F800000#32
  let main_v50 : FVec F S16x4 .f32 := broadcastInDim S16x4 ![] bcast_S_S16x4 main_cst_18
  fn_part3 (F := F) main_arg1 main_arg12 main_v48 main_v49 main_v50

def fn_part1 {F : FTy → Type} [FloatOps F] (main_arg1 : IVec S2x3200000 32) (main_arg5 : FVec F S16 .f32) (main_arg6 : FVec F S16 .f32) (main_arg7 : FVec F S16x16 .f32) (main_arg8 : FVec F S16 .f32) (main_arg9 : FVec F S16 .f32) (main_arg10 : FVec F S16 .f32) (main_arg11 : FVec F S16x4 .f32) (main_arg12 : FVec F S4 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S100000x8 .f32) (main_arg1 : IVec S2x3200000 32) (main_arg2 : FVec F S3200000x4 .f32) (main_arg3 : FVec F S20x16 .f32) (main_arg4 : FVec F S16 .f32) (main_arg5 : FVec F S16 .f32) (main_arg6 : FVec F S16 .f32) (main_arg7 : FVec F S16x16 .f32) (main_arg8 : FVec F S16 .f32) (main_arg9 : FVec F S16 .f32) (main_arg10 : FVec F S16 .f32) (main_arg11 : FVec F S16x4 .f32) (main_arg12 : FVec F S4 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000x4 .f32 := Host.absf main_arg2
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S20x16 .f32 := Host.absf main_arg3
  let main_cst_2 : FVec F S_ .f32 := constant S_ .f32 0x7F800000#32
  let main_v10 : FVec F S20x16 .f32 := broadcastInDim S20x16 ![] bcast_S_S20x16 main_cst_2
  let main_v11 : IVec S20x16 1 := cmpf .olt main_v9 main_v10
  let main_c_3 : IVec S_ 1 := constantI S_ 1 1#1
  let main_v12 : IVec S_ 1 := (fun x v => Host.reduce IntOp.andi x v reducesTo_S20x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_v13 main_v16
-- ==== Kernel.lean ====
abbrev S100000x8 : Shape := ⟨2, ![100000, 8]⟩
abbrev S2x3200000 : Shape := ⟨2, ![2, 3200000]⟩
abbrev S3200000x4 : Shape := ⟨2, ![3200000, 4]⟩
abbrev S20x16 : Shape := ⟨2, ![20, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S8x100000 : Shape := ⟨2, ![8, 100000]⟩
abbrev S3200000x1 : Shape := ⟨2, ![3200000, 1]⟩
abbrev S1 : Shape := ⟨1, ![1]⟩
abbrev S1x1 : Shape := ⟨2, ![1, 1]⟩
abbrev S8x3200000 : Shape := ⟨2, ![8, 3200000]⟩
abbrev S4x3200000 : Shape := ⟨2, ![4, 3200000]⟩
abbrev S8x3211264 : Shape := ⟨2, ![8, 3211264]⟩
abbrev S4x3211264 : Shape := ⟨2, ![4, 3211264]⟩
abbrev S16x20 : Shape := ⟨2, ![16, 20]⟩
abbrev S4x16 : Shape := ⟨2, ![4, 16]⟩
abbrev S8x32768 : Shape := ⟨2, ![8, 32768]⟩
abbrev S4x32768 : Shape := ⟨2, ![4, 32768]⟩
abbrev S20x32768 : Shape := ⟨2, ![20, 32768]⟩
abbrev S16x1 : Shape := ⟨2, ![16, 1]⟩
abbrev S16x32768 : Shape := ⟨2, ![16, 32768]⟩
abbrev S32768 : Shape := ⟨1, ![32768]⟩
abbrev S1x32768 : Shape := ⟨2, ![1, 32768]⟩
abbrev S4x1 : Shape := ⟨2, ![4, 1]⟩
abbrev S3211264x4 : Shape := ⟨2, ![3211264, 4]⟩

abbrev nBuf : Space → Nat
  | .hbm => 99
  | .vmem => 18
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x4, .f32⟩
  | .hbm, ⟨3, _⟩ => ⟨S20x16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16x4, .f32⟩
  | .hbm, ⟨12, _⟩ => ⟨S4, .f32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S1x3200000, .i32⟩
  | .hbm, ⟨24, _⟩ => ⟨S3200000, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S8x100000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S1, .i32⟩
  | .hbm, ⟨43, _⟩ => ⟨S_, .i32⟩
  | .hbm, ⟨44, _⟩ => ⟨S3200000x1, .i32⟩
  | .hbm, ⟨45, _⟩ => ⟨S3200000x1, .i1⟩
  | .hbm, ⟨46, _⟩ => ⟨S1x1, .i32⟩
  | .hbm, ⟨47, _⟩ => ⟨S3200000x1, .i32⟩
  | .hbm, ⟨48, _⟩ => ⟨S3200000x1, .i1⟩
  | .hbm, ⟨49, _⟩ => ⟨S3200000x1, .i1⟩
  | .hbm, ⟨50, _⟩ => ⟨S_, .i1⟩
  | .hbm, ⟨51, _⟩ => ⟨S3200000, .i1⟩
  | .hbm, ⟨52, _⟩ => ⟨S8x3200000, .f32⟩
  | .hbm, ⟨53, _⟩ => ⟨S8x3200000, .i1⟩
  | .hbm, ⟨54, _⟩ => ⟨S_, .f32⟩
  | .hbm, ⟨55, _⟩ => ⟨S8x3200000, .f32⟩
  | .hbm, ⟨56, _⟩ => ⟨S8x3200000, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S1, .i32⟩
  | .hbm, ⟨66, _⟩ => ⟨S_, .i32⟩
  | .hbm, ⟨67, _⟩ => ⟨S3200000x1, .i32⟩
  | .hbm, ⟨68, _⟩ => ⟨S3200000x1, .i1⟩
  | .hbm, ⟨69, _⟩ => ⟨S1x1, .i32⟩
  | .hbm, ⟨70, _⟩ => ⟨S3200000x1, .i32⟩
  | .hbm, ⟨71, _⟩ => ⟨S3200000x1, .i1⟩
  | .hbm, ⟨72, _⟩ => ⟨S3200000x1, .i1⟩
  | .hbm, ⟨73, _⟩ => ⟨S_, .i1⟩
  | .hbm, ⟨74, _⟩ => ⟨S3200000, .i1⟩
  | .hbm, ⟨75, _⟩ => ⟨S8x3200000, .f32⟩
  | .hbm, ⟨76, _⟩ => ⟨S8x3200000, .i1⟩
  | .hbm, ⟨77, _⟩ => ⟨S_, .f32⟩
  | .hbm, ⟨78, _⟩ => ⟨S8x3200000, .f32⟩
  | .hbm, ⟨79, _⟩ => ⟨S8x3200000, .f32⟩
  | .hbm, ⟨80, _⟩ => ⟨S4x3200000, .f32⟩
  | .hbm, ⟨81, _⟩ => ⟨S_, .i32⟩
  | .hbm, ⟨82, _⟩ => ⟨S_, .f32⟩
  | .hbm, ⟨83, _⟩ => ⟨S8x3211264, .f32⟩
  | .hbm, ⟨84, _⟩ => ⟨S_, .i32⟩
  | .hbm, ⟨85, _⟩ => ⟨S_, .f32⟩
  | .hbm, ⟨86, _⟩ => ⟨S8x3211264, .f32⟩
  | .hbm, ⟨87, _⟩ => ⟨S_, .i32⟩
  | .hbm, ⟨88, _⟩ => ⟨S_, .f32⟩
  | .hbm, ⟨89, _⟩ => ⟨S4x3211264, .f32⟩
  | .hbm, ⟨90, _⟩ => ⟨S16x20, .f32⟩
  | .hbm, ⟨91, _⟩ => ⟨S16x20, .bf16⟩
  | .hbm, ⟨92, _⟩ => ⟨S16x16, .f32⟩
  | .hbm, ⟨93, _⟩ => ⟨S16x16, .bf16⟩
  | .hbm, ⟨94, _⟩ => ⟨S4x16, .f32⟩
  | .hbm, ⟨95, _⟩ => ⟨S4x16, .bf16⟩
  | .hbm, ⟨96, _⟩ => ⟨S4x3211264, .f32⟩
  | .hbm, ⟨97, _⟩ => ⟨S3211264x4, .f32⟩
  | .hbm, ⟨98, _⟩ => ⟨S3200000x4, .f32⟩
  | .local _ .vmem, ⟨0, _⟩ => ⟨S8x32768, .f32⟩
  | .local _ .vmem, ⟨1, _⟩ => ⟨S8x32768, .f32⟩
  | .local _ .vmem, ⟨2, _⟩ => ⟨S8x32768, .f32⟩
  | .local _ .vmem, ⟨3, _⟩ => ⟨S8x32768, .f32⟩
  | .local _ .vmem, ⟨4, _⟩ => ⟨S4x32768, .f32⟩
  | .local _ .vmem, ⟨5, _⟩ => ⟨S4x32768, .f32⟩
  | .local _ .vmem, ⟨6, _⟩ => ⟨S16x20, .bf16⟩
  | .local _ .vmem, ⟨7, _⟩ => ⟨S16, .f32⟩
  | .local _ .vmem, ⟨8, _⟩ => ⟨S16, .f32⟩
  | .local _ .vmem, ⟨9, _⟩ => ⟨S16, .f32⟩
  | .local _ .vmem, ⟨10, _⟩ => ⟨S16x16, .bf16⟩
  | .local _ .vmem, ⟨11, _⟩ => ⟨S16, .f32⟩
  | .local _ .vmem, ⟨12, _⟩ => ⟨S16, .f32⟩
  | .local _ .vmem, ⟨13, _⟩ => ⟨S16, .f32⟩
  | .local _ .vmem, ⟨14, _⟩ => ⟨S4x16, .bf16⟩
  | .local _ .vmem, ⟨15, _⟩ => ⟨S4, .f32⟩
  | .local _ .vmem, ⟨16, _⟩ => ⟨S4x32768, .f32⟩
  | .local _ .vmem, ⟨17, _⟩ => ⟨S4x32768, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v5 : Ref sig .tc := ⟨.hbm, 32, rfl⟩
abbrev main_v6 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v7 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_call3_cst : Ref sig .tc := ⟨.hbm, 77, rfl⟩
abbrev main_call3_v15 : Ref sig .tc := ⟨.hbm, 78, rfl⟩
abbrev main_v8 : Ref sig .tc := ⟨.hbm, 79, rfl⟩
abbrev main_v9 : Ref sig .tc := ⟨.hbm, 80, rfl⟩
abbrev main_c_3 : Ref sig .tc := ⟨.hbm, 81, rfl⟩
abbrev main_call4_v0 : Ref sig .tc := ⟨.hbm, 82, rfl⟩
abbrev main_v10 : Ref sig .tc := ⟨.hbm, 83, rfl⟩
abbrev main_c_4 : Ref sig .tc := ⟨.hbm, 84, rfl⟩
abbrev main_call5_v0 : Ref sig .tc := ⟨.hbm, 85, rfl⟩
abbrev main_v11 : Ref sig .tc := ⟨.hbm, 86, rfl⟩
abbrev main_c_5 : Ref sig .tc := ⟨.hbm, 87, rfl⟩
abbrev main_call6_v0 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x32768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  slices_S2x3200000_S1x3200000_1_0 : S2x3200000.Slices ![1, 0] S1x3200000
  transposes_S100000x8_S8x100000_1_0 : S100000x8.Transposes [1, 0] S8x100000
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S8x3200000_1 : S3200000.BroadcastsInDim S8x3200000 (![1] : Fin 1 → Fin S8x3200000.rank)
  bcast_S_S8x3200000 : S_.BroadcastsInDim S8x3200000 (![] : Fin 0 → Fin S8x3200000.rank)
  transposes_S3200000x4_S4x3200000_1_0 : S3200000x4.Transposes [1, 0] S4x3200000
  pads_S8x3200000_S8x3211264_000_0112640 : S8x3200000.Pads (![0, 0] : Fin 2 → Nat) ![0, 11264] ![0, 0] S8x3211264
  pads_S4x3200000_S4x3211264_000_0112640 : S4x3200000.Pads (![0, 0] : Fin 2 → Nat) ![0, 11264] ![0, 0] S4x3211264
  transposes_S20x16_S16x20_1_0 : S20x16.Transposes [1, 0] S16x20
  bitsLt_bf16_f32 : FTy.bits .bf16 < FTy.bits .f32
  transposes_S16x16_S16x16_1_0 : S16x16.Transposes [1, 0] S16x16
  transposes_S16x4_S4x16_1_0 : S16x4.Transposes [1, 0] S4x16
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  concatenates_S8x32768_S8x32768_S4x32768_S20x32768_d0 : Shape.Concatenates [S8x32768, S8x32768, S4x32768] S20x32768 0
  inb_S16x20_S16x20_0_0 : ∀ a, (![0, 0] : Fin 2 → Nat) a + S16x20.size a ≤ S16x20.size a
  h_S16x20 : 0 < S16x20.numel
  shapeCasts_S16x20_S16x20 : S16x20.ShapeCasts S16x20
  inb_S16_S16_0 : ∀ a, (![0] : Fin 1 → Nat) a + S16.size a ≤ S16.size a
  h_S16 : 0 < S16.numel
  shapeCasts_S16_S16x1 : S16.ShapeCasts S16x1
  broadcasts_S16x1_S16x32768 : S16x1.Broadcasts S16x32768
  reduces_S16x32768_S32768 : S16x32768.Reduces [0] S32768
  shapeCasts_S32768_S1x32768 : S32768.ShapeCasts S1x32768
  broadcasts_S1x32768_S16x32768 : S1x32768.Broadcasts S16x32768
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S4_S4_0 : ∀ a, (![0] : Fin 1 → Nat) a + S4.size a ≤ S4.size a
  h_S4 : 0 < S4.numel
  shapeCasts_S4_S4x1 : S4.ShapeCasts S4x1
  broadcasts_S4x1_S4x32768 : S4x1.Broadcasts S4x32768
  transposes_S4x3211264_S3211264x4_1_0 : S4x3211264.Transposes [1, 0] S3211264x4
  slices_S3211264x4_S3200000x4_0_0 : S3211264x4.Slices ![0, 0] S3200000x4
  gather_S8x100000_S3200000x1_S8x3200000_0_1_n_n_1_1_81_wf : GatherDims.WF S8x100000 S3200000x1 S8x3200000 [0] [1] [] [1] [] 1 ![8, 1]
  dot_S16x20_S20x32768_S16x32768_1_0_0_1_n_n_wf : DotDims.WF S16x20 S20x32768 S16x32768 [1] [0] [0] [1] [] []
  dot_S16x16_S16x32768_S16x32768_1_0_0_1_n_n_wf : DotDims.WF S16x16 S16x32768 S16x32768 [1] [0] [0] [1] [] []
  dot_S4x16_S16x32768_S4x32768_1_0_0_1_n_n_wf : DotDims.WF S4x16 S16x32768 S4x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32768.size a ≤ S8x3211264.size a
  hwx0_0 : ∀ i : grid0.Coords, EltTy.bits .f32 = 32 ∨ (Rect.block (s := S8x3211264) S8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x3211264.size a
  hwx0_1 : ∀ i : grid0.Coords, EltTy.bits .f32 = 32 ∨ (Rect.block (s := S8x3211264) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32768.size a ≤ S4x3211264.size a
  hwx0_2 : ∀ i : grid0.Coords, EltTy.bits .f32 = 32 ∨ (Rect.block (s := S4x3211264) S4x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x20.size a ≤ S16x20.size a
  hwx0_3 : ∀ i : grid0.Coords, EltTy.bits .bf16 = 32 ∨ (Rect.block (s := S16x20) S16x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .bf16 = 32 ∨ (Rect.block (s := S16x16) S16x16.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x16.size a ≤ S4x16.size a
  hwx0_11 : ∀ i : grid0.Coords, EltTy.bits .bf16 = 32 ∨ (Rect.block (s := S4x16) S4x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x32768.size a ≤ S4x3211264.size a
  hwx0_13 : ∀ i : grid0.Coords, EltTy.bits .f32 = 32 ∨ (Rect.block (s := S4x3211264) S4x32768.size (cc0_transform_13 i) (hinb0_13 i)).WholeWords (EltTy.packing .f32)

variable [Facts₀]

def gather_S8x100000_S3200000x1_S8x3200000_0_1_n_n_1_1_81 : GatherDims S8x100000 S3200000x1 S8x3200000 where
  offsetDims := [0]
  collapsedSliceDims := [1]
  operandBatchingDims := []
  startIndicesBatchingDims := []
  startIndexMap := [1]
  indexVectorDim := 1
  sliceSizes := ![8, 1]
  wf := gather_S8x100000_S3200000x1_S8x3200000_0_1_n_n_1_1_81_wf
def dot_S16x20_S20x32768_S16x32768_1_0_0_1_n_n : DotDims S16x20 S20x32768 S16x32768 where
  lhsContracting := [1]
  rhsContracting := [0]
  lhsNonContracting := [0]
  rhsNonContracting := [1]
  lhsBatch := []
  rhsBatch := []
  wf := dot_S16x20_S20x32768_S16x32768_1_0_0_1_n_n_wf
def dot_S16x16_S16x32768_S16x32768_1_0_0_1_n_n : DotDims S16x16 S16x32768 S16x32768 where
  lhsContracting := [1]
  rhsContracting := [0]
  lhsNonContracting := [0]
  rhsNonContracting := [1]
  lhsBatch := []
  rhsBatch := []
  wf := dot_S16x16_S16x32768_S16x32768_1_0_0_1_n_n_wf
def dot_S4x16_S16x32768_S4x32768_1_0_0_1_n_n : DotDims S4x16 S16x32768 S4x32768 where
  lhsContracting := [1]
  rhsContracting := [0]
  lhsNonContracting := [0]
  rhsNonContracting := [1]
  lhsBatch := []
  rhsBatch := []
  wf := dot_S4x16_S16x32768_S4x32768_1_0_0_1_n_n_wf

abbrev win0_0 : Pipeline.Window sig grid0 :=
  Pipeline.Window.ofSpec (Memref.whole main_v10) S8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S16x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S4x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S4x32768.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000x4 : Shape := ⟨2, ![3200000, 4]⟩
abbrev S20x16 : Shape := ⟨2, ![20, 16]⟩
abbrev S16 : Shape := ⟨1, ![16]⟩
abbrev S16x16 : Shape := ⟨2, ![16, 16]⟩
abbrev S16x4 : Shape := ⟨2, ![16, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S3200000x20 : Shape := ⟨2, ![3200000, 20]⟩
abbrev S3200000x16 : Shape := ⟨2, ![3200000, 16]⟩
abbrev S1x16 : Shape := ⟨2, ![1, 16]⟩
abbrev S1x4 : Shape := ⟨2, ![1, 4]⟩

abbrev nBuf : Space → Nat
  | .hbm => 112
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000x4, .f32⟩
  | .hbm, ⟨3, _⟩ => ⟨S20x16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S16x4, .f32⟩
  | .hbm, ⟨12, _⟩ => ⟨S4, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x8, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x8, .f32⟩
  | .hbm, ⟨35, _⟩ => ⟨S3200000x20, .f32⟩
  | .hbm, ⟨36, _⟩ => ⟨S3200000x16, .f32⟩
  | .hbm, ⟨37, _⟩ => ⟨S1x16, .f32⟩
  | .hbm, ⟨38, _⟩ => ⟨S3200000x16, .f32⟩
  | .hbm, ⟨39, _⟩ => ⟨S3200000x16, .f32⟩
  | .hbm, ⟨40, _⟩ => ⟨S_, .f32⟩
  | .hbm, ⟨41, _⟩ => ⟨S3200000x16, .f32⟩
  | .hbm, ⟨42, _⟩ => ⟨S3200000x16, .f32⟩
  | .hbm, ⟨43, _⟩ => ⟨S_, .f32⟩
  | .hbm, ⟨44, _⟩ => ⟨S3200000, .f32⟩
  | .hbm, ⟨45, _⟩ => ⟨S3200000x1, .f32⟩
  | .hbm, ⟨46, _⟩ => ⟨S_, .f32⟩
  | .hbm, ⟨47, _⟩ => ⟨S3200000x1, .f32⟩
  | .hbm, ⟨48, _⟩ => ⟨S3200000x1, .f32⟩
  | .hbm, ⟨49, _⟩ => ⟨S3200000x16, .f32⟩
  | .hbm, ⟨50, _⟩ => ⟨S3200000x16, .f32⟩
  | .hbm, ⟨51, _⟩ => ⟨S3200000x16, .f32⟩
  | .hbm, ⟨52, _⟩ => ⟨S_, .f32⟩
  | .hbm, ⟨53, _⟩ => ⟨S3200000, .f32⟩
  | .hbm, ⟨54, _⟩ => ⟨S3200000x1, .f32⟩
  | .hbm, ⟨55, _⟩ => ⟨S_, .f32⟩
  | .hbm, ⟨56, _⟩ => ⟨S3200000x1, .f32⟩
  | .hbm, ⟨57, _⟩ => ⟨S3200000x1, .f32⟩
  | .hbm, ⟨58, _⟩ => ⟨S3200000x16, .f32⟩
  | .hbm, ⟨59, _⟩ => ⟨S3200000x16, .f32⟩
  | .hbm, ⟨60, _⟩ => ⟨S_, .f32⟩
  | .hbm, ⟨61, _⟩ => ⟨S3200000x1, .f32⟩
  | .hbm, ⟨62, _⟩ => ⟨S3200000x1, .f32⟩
  | .hbm, ⟨63, _⟩ => ⟨S3200000x1, .f32⟩
  | .hbm, ⟨64, _⟩ => ⟨S3200000x16, .f32⟩
  | .hbm, ⟨65, _⟩ => ⟨S3200000x16, .f32⟩
  | .hbm, ⟨66, _⟩ => ⟨S1x16, .f32⟩
  | .hbm, ⟨67, _⟩ => ⟨S3200000x16, .f32⟩
  | .hbm, ⟨68, _⟩ => ⟨S3200000x16, .f32⟩
  | .hbm, ⟨69, _⟩ => ⟨S1x16, .f32⟩
  | .hbm, ⟨70, _⟩ => ⟨S3200000x16, .f32⟩
  | .hbm, ⟨71, _⟩ => ⟨S3200000x16, .f32⟩
  | .hbm, ⟨72, _⟩ => ⟨S3200000x16, .f32⟩
  | .hbm, ⟨73, _⟩ => ⟨S1x16, .f32⟩
  | .hbm, ⟨74, _⟩ => ⟨S3200000x16, .f32⟩
  | .hbm, ⟨75, _⟩ => ⟨S3200000x16, .f32⟩
  | .hbm, ⟨76, _⟩ => ⟨S_, .f32⟩
  | .hbm, ⟨77, _⟩ => ⟨S3200000x16, .f32⟩
  | .hbm, ⟨78, _⟩ => ⟨S3200000x16, .f32⟩
  | .hbm, ⟨79, _⟩ => ⟨S_, .f32⟩
  | .hbm, ⟨80, _⟩ => ⟨S3200000, .f32⟩
  | .hbm, ⟨81, _⟩ => ⟨S3200000x1, .f32⟩
  | .hbm, ⟨82, _⟩ => ⟨S_, .f32⟩
  | .hbm, ⟨83, _⟩ => ⟨S3200000x1, .f32⟩
  | .hbm, ⟨84, _⟩ => ⟨S3200000x1, .f32⟩
  | .hbm, ⟨85, _⟩ => ⟨S3200000x16, .f32⟩
  | .hbm, ⟨86, _⟩ => ⟨S3200000x16, .f32⟩
  | .hbm, ⟨87, _⟩ => ⟨S3200000x16, .f32⟩
  | .hbm, ⟨88, _⟩ => ⟨S_, .f32⟩
  | .hbm, ⟨89, _⟩ => ⟨S3200000, .f32⟩
  | .hbm, ⟨90, _⟩ => ⟨S3200000x1, .f32⟩
  | .hbm, ⟨91, _⟩ => ⟨S_, .f32⟩
  | .hbm, ⟨92, _⟩ => ⟨S3200000x1, .f32⟩
  | .hbm, ⟨93, _⟩ => ⟨S3200000x1, .f32⟩
  | .hbm, ⟨94, _⟩ => ⟨S3200000x16, .f32⟩
  | .hbm, ⟨95, _⟩ => ⟨S3200000x16, .f32⟩
  | .hbm, ⟨96, _⟩ => ⟨S_, .f32⟩
  | .hbm, ⟨97, _⟩ => ⟨S3200000x1, .f32⟩
  | .hbm, ⟨98, _⟩ => ⟨S3200000x1, .f32⟩
  | .hbm, ⟨99, _⟩ => ⟨S3200000x1, .f32⟩
  | .hbm, ⟨100, _⟩ => ⟨S3200000x16, .f32⟩
  | .hbm, ⟨101, _⟩ => ⟨S3200000x16, .f32⟩
  | .hbm, ⟨102, _⟩ => ⟨S1x16, .f32⟩
  | .hbm, ⟨103, _⟩ => ⟨S3200000x16, .f32⟩
  | .hbm, ⟨104, _⟩ => ⟨S3200000x16, .f32⟩
  | .hbm, ⟨105, _⟩ => ⟨S1x16, .f32⟩
  | .hbm, ⟨106, _⟩ => ⟨S3200000x16, .f32⟩
  | .hbm, ⟨107, _⟩ => ⟨S3200000x16, .f32⟩
  | .hbm, ⟨108, _⟩ => ⟨S3200000x4, .f32⟩
  | .hbm, ⟨109, _⟩ => ⟨S1x4, .f32⟩
  | .hbm, ⟨110, _⟩ => ⟨S3200000x4, .f32⟩
  | .hbm, ⟨111, _⟩ => ⟨S3200000x4, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_cst_7 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x8_S3200000x8_S3200000x4_S3200000x20_d1 : Shape.Concatenates [S3200000x8, S3200000x8, S3200000x4] S3200000x20 1
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  reducesTo_S3200000x16_S3200000_d1 : S3200000x16.ReducesTo [1] S3200000
  h_S_ : 0 < S_.numel
  bcast_S_S3200000x1 : S_.BroadcastsInDim S3200000x1 (![] : Fin 0 → Fin S3200000x1.rank)
  bcast_S3200000x1_S3200000x16_0_1 : S3200000x1.BroadcastsInDim S3200000x16 (![0, 1] : Fin 2 → Fin S3200000x16.rank)
  bcast_S4_S1x4_1 : S4.BroadcastsInDim S1x4 (![1] : Fin 1 → Fin S1x4.rank)
  bcast_S1x4_S3200000x4_0_1 : S1x4.BroadcastsInDim S3200000x4 (![0, 1] : Fin 2 → Fin S3200000x4.rank)
  gather_S100000x8_S3200000x1_S3200000x8_1_0_n_n_0_1_18_wf : GatherDims.WF S100000x8 S3200000x1 S3200000x8 [1] [0] [] [0] [] 1 ![1, 8]
  dot_S3200000x20_S20x16_S3200000x16_1_0_0_1_n_n_wf : DotDims.WF S3200000x20 S20x16 S3200000x16 [1] [0] [0] [1] [] []
  dot_S3200000x16_S16x16_S3200000x16_1_0_0_1_n_n_wf : DotDims.WF S3200000x16 S16x16 S3200000x16 [1] [0] [0] [1] [] []
  dot_S3200000x16_S16x4_S3200000x4_1_0_0_1_n_n_wf : DotDims.WF S3200000x16 S16x4 S3200000x4 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x20_S20x16_S3200000x16_1_0_0_1_n_n : DotDims S3200000x20 S20x16 S3200000x16 where
  lhsContracting := [1]
  rhsContracting := [0]
  lhsNonContracting := [0]
  rhsNonContracting := [1]
  lhsBatch := []
  rhsBatch := []
  wf := dot_S3200000x20_S20x16_S3200000x16_1_0_0_1_n_n_wf
def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf
def dot_S3200000x16_S16x4_S3200000x4_1_0_0_1_n_n : DotDims S3200000x16 S16x4 S3200000x4 where
  lhsContracting := [1]
  rhsContracting := [0]
  lhsNonContracting := [0]
  rhsNonContracting := [1]
  lhsBatch := []
  rhsBatch := []
  wf := dot_S3200000x16_S16x4_S3200000x4_1_0_0_1_n_n_wf

class Facts : Prop extends Facts₀ where

variable [Facts]
-- ==== Proof.Spec.lean ====
/-
  The edge network as a function of ONE edge's input row.

  Both programs compute, for every edge, the same three-layer perceptron of the row
  (features of the source node, features of the target node, the edge's own features):
  a dense layer, a rectifier and a layer normalisation, twice, and a last dense layer.
  A layer normalisation of a row `v` of sixteen entries subtracts the row's mean, multiplies by the
  reciprocal square root of the mean of the squared deviations plus `eps`, scales by `g` and shifts by `be`.
  The mean is the sum divided by the word both programs print for sixteen; `eps` is the word both print for 1e-5.
  Everything is over the extended reals, with the operations the two programs' own are at that reading.
-/
import Idealize.ShloMosaic.PureOps.Ideal

noncomputable section

open scoped BigOperators

namespace Cert.EdgeNet

open Idealize.ShloMosaic

/-- The divisor of a mean over sixteen entries: the f32 word for 16. -/
def c16 : EReal := Ideal.ofBits .f32 0x41800000#32

/-- The layer normalisation's epsilon: the f32 word nearest 1e-5. -/
def eps : EReal := Ideal.ofBits .f32 0x3727C5AC#32

/-- A dense layer: entry `j` is the row times column `j` of the weights, plus the bias. -/
def dense {K J : Nat} (W : Fin K → Fin J → EReal) (b : Fin J → EReal) (v : Fin K → EReal) : Fin J → EReal :=
  fun j => (∑ k : Fin K, v k * W k j) + b j

/-- The rectifier, entry by entry. -/
def relu {J : Nat} (v : Fin J → EReal) : Fin J → EReal := fun j => max (v j) 0

/-- The mean of sixteen entries. -/
def mean16 (v : Fin 16 → EReal) : EReal := Ideal.div (∑ j : Fin 16, v j) c16

/-- Layer normalisation of a row of sixteen entries with scale `g` and shift `be`. -/
def layerNorm (g be v : Fin 16 → EReal) : Fin 16 → EReal := fun j =>
  (v j - mean16 v) * Ideal.rsqrt (mean16 (fun i => (v i - mean16 v) * (v i - mean16 v)) + eps) * g j + be j

/-- The network's parameters, each weight matrix as (input entry, output entry). -/
structure Params where
  W1 : Fin 20 → Fin 16 → EReal
  b1 : Fin 16 → EReal
  g1 : Fin 16 → EReal
  be1 : Fin 16 → EReal
  W2 : Fin 16 → Fin 16 → EReal
  b2 : Fin 16 → EReal
  g2 : Fin 16 → EReal
  be2 : Fin 16 → EReal
  W3 : Fin 16 → Fin 4 → EReal
  b3 : Fin 4 → EReal

/-- The hidden row after the first layer, rectifier and normalisation. -/
def hidden1 (p : Params) (v : Fin 20 → EReal) : Fin 16 → EReal :=
  layerNorm p.g1 p.be1 (relu (dense p.W1 p.b1 v))

/-- The hidden row after the second layer, rectifier and normalisation. -/
def hidden2 (p : Params) (v : Fin 20 → EReal) : Fin 16 → EReal :=
  layerNorm p.g2 p.be2 (relu (dense p.W2 p.b2 (hidden1 p v)))

/-- The network: one edge's input row to its four output features. -/
def net (p : Params) (v : Fin 20 → EReal) : Fin 4 → EReal :=
  dense p.W3 p.b3 (hidden2 p v)

/-- One edge's input row: the source node's eight features, the target node's eight, the edge's four. -/
def edgeRow (xa xb : Fin 8 → EReal) (a : Fin 4 → EReal) : Fin 20 → EReal := fun k =>
  if h : k.val < 8 then xa ⟨k.val, h⟩
  else if h2 : k.val < 16 then xb ⟨k.val - 8, by omega⟩
  else a ⟨k.val - 16, by omega⟩

end Cert.EdgeNet

end
-- ==== Proof.KSpec.lean ====
/-
  The edge network over whole arrays, in the two layouts the programs use.

  The reference keeps one edge per ROW: its result's entry `(e, o)` is the network's output `o` on edge `e`'s input
  row, the weights as (input entry, output entry). The kernel keeps one edge per COLUMN (feature-major): its
  operands are the gathered node features and the edge features transposed, the weights transposed, and entry
  `(o, e)` of its output is the network's output `o` on column `e`. `colNet` is that column-wise function of
  feature-major arrays of any number `L` of columns: a block of the grid and the whole padded array are both instances.
  A node's row in the table of `N = 100000` nodes is named by an index word read as a signed integer and clamped
  into the table (`nodeRow`): for a word in range that is the word's own value.
-/
import proofs.«424817_j3289944949007_3_alg».proof.Proof.Spec
import Idealize.ShloMosaic.Lib.ValueIdx

noncomputable section

namespace Cert.EdgeNet

open Idealize.ShloMosaic Idealize.ShloMosaic.ValueIdx

/-- The parameters from row-major arrays: weights as (input entry, output entry), as the reference takes them. -/
def paramsRM (W1 : (⟨2, ![20, 16]⟩ : Shape).Idx → EReal) (b1 g1 be1 : (⟨1, ![16]⟩ : Shape).Idx → EReal)
    (W2 : (⟨2, ![16, 16]⟩ : Shape).Idx → EReal) (b2 g2 be2 : (⟨1, ![16]⟩ : Shape).Idx → EReal)
    (W3 : (⟨2, ![16, 4]⟩ : Shape).Idx → EReal) (b3 : (⟨1, ![4]⟩ : Shape).Idx → EReal) : Params where
  W1 := fun k j => W1 (ix2 k j)
  b1 := fun j => b1 (ix1 j)
  g1 := fun j => g1 (ix1 j)
  be1 := fun j => be1 (ix1 j)
  W2 := fun k j => W2 (ix2 k j)
  b2 := fun j => b2 (ix1 j)
  g2 := fun j => g2 (ix1 j)
  be2 := fun j => be2 (ix1 j)
  W3 := fun k j => W3 (ix2 k j)
  b3 := fun j => b3 (ix1 j)

/-- The parameters from feature-major operands: weights as (output entry, input entry), as the kernel takes them. -/
def paramsFM (w1 : (⟨2, ![16, 20]⟩ : Shape).Idx → EReal) (b1 g1 be1 : (⟨1, ![16]⟩ : Shape).Idx → EReal)
    (w2 : (⟨2, ![16, 16]⟩ : Shape).Idx → EReal) (b2 g2 be2 : (⟨1, ![16]⟩ : Shape).Idx → EReal)
    (w3 : (⟨2, ![4, 16]⟩ : Shape).Idx → EReal) (b3 : (⟨1, ![4]⟩ : Shape).Idx → EReal) : Params where
  W1 := fun k j => w1 (ix2 j k)
  b1 := fun j => b1 (ix1 j)
  g1 := fun j => g1 (ix1 j)
  be1 := fun j => be1 (ix1 j)
  W2 := fun k j => w2 (ix2 j k)
  b2 := fun j => b2 (ix1 j)
  g2 := fun j => g2 (ix1 j)
  be2 := fun j => be2 (ix1 j)
  W3 := fun k j => w3 (ix2 j k)
  b3 := fun j => b3 (ix1 j)

/-- Column `q` of three feature-major arrays as one edge's input row. -/
def colRow {L : Nat} (a0 a1 : (⟨2, ![8, L]⟩ : Shape).Idx → EReal) (a2 : (⟨2, ![4, L]⟩ : Shape).Idx → EReal)
    (q : Fin L) : Fin 20 → EReal :=
  edgeRow (fun k => a0 (ix2 k q)) (fun k => a1 (ix2 k q)) (fun k => a2 (ix2 k q))

/-- The network down every column of feature-major arrays of `L` columns: entry `(o, q)` is output `o` on column `q`. -/
def colNet {L : Nat} (p : Params) (a0 a1 : (⟨2, ![8, L]⟩ : Shape).Idx → EReal)
    (a2 : (⟨2, ![4, L]⟩ : Shape).Idx → EReal) : (⟨2, ![4, L]⟩ : Shape).Idx → EReal :=
  fun i => net p (colRow a0 a1 a2 (i 1)) (i 0)

theorem colNet_apply {L : Nat} (p : Params) (a0 a1 : (⟨2, ![8, L]⟩ : Shape).Idx → EReal)
    (a2 : (⟨2, ![4, L]⟩ : Shape).Idx → EReal) (o : Fin 4) (q : Fin L) :
    colNet p a0 a1 a2 (ix2 o q) = net p (colRow a0 a1 a2 q) o := rfl

/-- The row of the node table (100000 rows) an index word names: the word read signed, clamped into the table. -/
def nodeRow (v : BitVec 32) : Fin 100000 := ⟨min v.toInt.toNat (100000 - 1), by omega⟩

/-- One edge's input row from the row-major arguments: the two end nodes' feature rows and the edge's own. -/
def argRow (x : (⟨2, ![100000, 8]⟩ : Shape).Idx → EReal) (ei : (⟨2, ![2, 3200000]⟩ : Shape).Idx → BitVec 32)
    (ea : (⟨2, ![3200000, 4]⟩ : Shape).Idx → EReal) (e : Fin 3200000) : Fin 20 → EReal :=
  edgeRow (fun k => x (ix2 (nodeRow (ei (ix2 (0 : Fin 2) e))) k)) (fun k => x (ix2 (nodeRow (ei (ix2 (1 : Fin 2) e))) k))
    (fun k => ea (ix2 e k))

/-- Every entry of the edge list is a node: in range of the node table, as a signed word. -/
def InRange (ei : (⟨2, ![2, 3200000]⟩ : Shape).Idx → BitVec 32) : Prop :=
  ∀ i, 0 ≤ (ei i).toInt ∧ (ei i).toInt < 100000

end Cert.EdgeNet

end
-- ==== Proof.PreRange.lean ====
import proofs.«424817_j3289944949007_3_alg».proof.Proof.KSpec
import proofs.«424817_j3289944949007_3_alg».proof.Pre_finite_inputs
import Idealize.ShloMosaic.Lib.ReduceAll

noncomputable section

namespace Cert.EdgeNet

open Idealize.ShloMosaic Idealize.ShloMosaic.ValueIdx Cert.Pre_finite_inputs

/-- The result of a reduction over every axis has one index. -/
local instance subsingleton_scalarIdx : Subsingleton S_.Idx := ⟨fun a b => funext fun d => d.elim0⟩

/-- A word that tests nonnegative and below 100000, both signed, is an integer of `[0, 100000)`. -/
theorem word_inRange (w : BitVec 32) (h0 : IntOp.cmpi .sge w 0#32 = 1#1) (h1 : IntOp.cmpi .slt w 100000#32 = 1#1) :
    0 ≤ w.toInt ∧ w.toInt < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  exact ⟨h0, h1⟩

/-- The precondition's two integer conjuncts, decoded: every entry of the edge list is in range of the node table. -/
theorem inRange_of_pre [Cert.Pre_finite_inputs.Facts] (a0 : FVec Ideal S100000x8 .f32) (a1 : IVec S2x3200000 32)
    (a2 : FVec Ideal S3200000x4 .f32) (a3 : FVec Ideal S20x16 .f32) (a4 a5 a6 : FVec Ideal S16 .f32)
    (a7 : FVec Ideal S16x16 .f32) (a8 a9 a10 : FVec Ideal S16 .f32) (a11 : FVec Ideal S16x4 .f32) (a12 : FVec Ideal S4 .f32)
    (h : Cert.Pre_finite_inputs.fn (F := Ideal) a0 a1 a2 a3 a4 a5 a6 a7 a8 a9 a10 a11 a12 = fun _ => 1#1) :
    InRange a1 := by
  have e := congrFun h ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  obtain ⟨e1, e2⟩ := IntOp.andi_eq_one.1 e
  obtain ⟨-, e3⟩ := IntOp.andi_eq_one.1 e1
  intro i
  have g0 := Host.reduce_andi_all _ _ _ _ _ e3 i
  have g1 := Host.reduce_andi_all _ _ _ _ _ e2 i
  exact word_inRange (a1 i) g0 g1

end Cert.EdgeNet

end
-- ==== Proof.Result.lean ====
/-
  The function both programs compute, from the row-major arguments: entry `(e, o)` of the result is the network's
  output `o` on edge `e`'s input row (the feature rows of the edge's two end nodes, then the edge's own features).
-/
import proofs.«424817_j3289944949007_3_alg».proof.Proof.KSpec

noncomputable section

namespace Cert.EdgeNet

open Idealize.ShloMosaic Idealize.ShloMosaic.ValueIdx

/-- The result array `[3200000, 4]` as a function of the thirteen arguments. -/
def resultOf (x : (⟨2, ![100000, 8]⟩ : Shape).Idx → EReal) (ei : (⟨2, ![2, 3200000]⟩ : Shape).Idx → BitVec 32)
    (ea : (⟨2, ![3200000, 4]⟩ : Shape).Idx → EReal)
    (W1 : (⟨2, ![20, 16]⟩ : Shape).Idx → EReal) (b1 g1 be1 : (⟨1, ![16]⟩ : Shape).Idx → EReal)
    (W2 : (⟨2, ![16, 16]⟩ : Shape).Idx → EReal) (b2 g2 be2 : (⟨1, ![16]⟩ : Shape).Idx → EReal)
    (W3 : (⟨2, ![16, 4]⟩ : Shape).Idx → EReal) (b3 : (⟨1, ![4]⟩ : Shape).Idx → EReal) :
    (⟨2, ![3200000, 4]⟩ : Shape).Idx → EReal :=
  fun i => net (paramsRM W1 b1 g1 be1 W2 b2 g2 be2 W3 b3) (argRow x ei ea (i 0)) (i 1)

theorem resultOf_apply (x : (⟨2, ![100000, 8]⟩ : Shape).Idx → EReal) (ei : (⟨2, ![2, 3200000]⟩ : Shape).Idx → BitVec 32)
    (ea : (⟨2, ![3200000, 4]⟩ : Shape).Idx → EReal)
    (W1 : (⟨2, ![20, 16]⟩ : Shape).Idx → EReal) (b1 g1 be1 : (⟨1, ![16]⟩ : Shape).Idx → EReal)
    (W2 : (⟨2, ![16, 16]⟩ : Shape).Idx → EReal) (b2 g2 be2 : (⟨1, ![16]⟩ : Shape).Idx → EReal)
    (W3 : (⟨2, ![16, 4]⟩ : Shape).Idx → EReal) (b3 : (⟨1, ![4]⟩ : Shape).Idx → EReal) (e : Fin 3200000) (o : Fin 4) :
    resultOf x ei ea W1 b1 g1 be1 W2 b2 g2 be2 W3 b3 (ix2 e o)
      = net (paramsRM W1 b1 g1 be1 W2 b2 g2 be2 W3 b3) (argRow x ei ea e) o := rfl

/-- Two input rows whose three parts agree entry by entry are one row. -/
theorem edgeRow_congr {xa xa' xb xb' : Fin 8 → EReal} {a a' : Fin 4 → EReal}
    (h1 : ∀ k, xa k = xa' k) (h2 : ∀ k, xb k = xb' k) (h3 : ∀ k, a k = a' k) :
    edgeRow xa xb a = edgeRow xa' xb' a' := by
  obtain rfl : xa = xa' := funext h1
  obtain rfl : xb = xb' := funext h2
  obtain rfl : a = a' := funext h3
  rfl

end Cert.EdgeNet

end
-- ==== Proof.Body.lean ====
import proofs.«424817_j3289944949007_3_alg».proof.Proof.KSpec
import proofs.«424817_j3289944949007_3_alg».proof.Proof.Gen.KernelIdeal.Frame
import Idealize.ShloMosaic.Lib.ValueLayout
import Idealize.ShloMosaic.PureOps.Ideal.Laws

noncomputable section

namespace Cert.EdgeNet

open Idealize.ShloMosaic Idealize.ShloMosaic.ValueIdx Cert.KernelIdeal Cert.KernelIdeal.Gen

/-! ## Columns: a vector turned into a one-column matrix and repeated along the rows' length -/

section Layout
variable {α : Type}

/-- A vector of `a` entries cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated to `a × b` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A vector of sixteen entries laid along every column of a block: entry `(j, q)` is the vector's entry `j`. -/
def colOf (b : Vec Ideal S16 .f32) : FVec Ideal S16x32768 .f32 :=
  broadcastTo S16x32768 (shapeCast S16x1 b shapeCasts_S16_S16x1) broadcasts_S16x1_S16x32768

theorem colOf_apply (b : Vec Ideal S16 .f32) (j : Fin 16) (q : Fin 32768) : colOf b (ix2 j q) = b (ix1 j) := by
  unfold colOf
  rw [broadcastTo_a1_ab_apply, shapeCast_a_a1_apply]

/-- The same for the four output entries. -/
def colOf4 (b : Vec Ideal S4 .f32) : FVec Ideal S4x32768 .f32 :=
  broadcastTo S4x32768 (shapeCast S4x1 b shapeCasts_S4_S4x1) broadcasts_S4x1_S4x32768

theorem colOf4_apply (b : Vec Ideal S4 .f32) (o : Fin 4) (q : Fin 32768) : colOf4 b (ix2 o q) = b (ix1 o) := by
  unfold colOf4
  rw [broadcastTo_a1_ab_apply, shapeCast_a_a1_apply]

/-! ## The sum and the mean down a column -/

/-- The sum of each column's sixteen entries. -/
def colSum (r : FVec Ideal S16x32768 .f32) : FVec Ideal S32768 .f32 :=
  multiReduction (F := Ideal) .add [0] S32768 r 0x00000000#32 reduces_S16x32768_S32768 (.inl rfl) rfl

theorem colSum_apply (r : FVec Ideal S16x32768 .f32) (q : Fin 32768) :
    colSum r (ix1 q) = ∑ k : Fin 16, r (ix2 k q) := by
  unfold colSum
  refine (Ideal.multiReduction_add_single r _ reduces_S16x32768_S32768 _ _ (ix1 q)).trans ?_
  refine Finset.sum_congr rfl fun k _ => congrArg r ?_
  funext a
  match a with
  | ⟨0, _⟩ => rfl
  | ⟨1, _⟩ => rfl

/-- The mean of each column, kept as a one-row matrix: the sum divided by the word for sixteen. -/
def colMean (r : FVec Ideal S16x32768 .f32) : FVec Ideal S1x32768 .f32 :=
  divf (shapeCast S1x32768 (colSum r) shapeCasts_S32768_S1x32768)
    (broadcast S1x32768 (Scalar.ofBits (F := Ideal) .f32 0x41800000#32))

theorem colMean_apply (r : FVec Ideal S16x32768 .f32) (u : Fin 1) (q : Fin 32768) :
    colMean r (ix2 u q) = mean16 (fun k => r (ix2 k q)) := by
  unfold colMean mean16 c16
  rw [divf_apply, shapeCast_a_1a_apply, colSum_apply, broadcast_apply]
  rfl

/-- Each entry less its column's mean. -/
def centred (r : FVec Ideal S16x32768 .f32) : FVec Ideal S16x32768 .f32 :=
  subf r (broadcastTo S16x32768 (colMean r) broadcasts_S1x32768_S16x32768)

theorem centred_apply (r : FVec Ideal S16x32768 .f32) (j : Fin 16) (q : Fin 32768) :
    centred r (ix2 j q) = r (ix2 j q) - mean16 (fun k => r (ix2 k q)) := by
  unfold centred
  rw [subf_apply, broadcastTo_1b_ab_apply, colMean_apply]

/-- The reciprocal square root of each column's mean squared deviation plus the epsilon word, as a one-row matrix. -/
def invDev (r : FVec Ideal S16x32768 .f32) : FVec Ideal S1x32768 .f32 :=
  rsqrt (addf (colMean (mulf (centred r) (centred r)))
    (broadcast S1x32768 (Scalar.ofBits (F := Ideal) .f32 0x3727C5AC#32)))

theorem invDev_apply (r : FVec Ideal S16x32768 .f32) (u : Fin 1) (q : Fin 32768) :
    invDev r (ix2 u q)
      = Ideal.rsqrt (mean16 (fun i => (r (ix2 i q) - mean16 (fun k => r (ix2 k q)))
          * (r (ix2 i q) - mean16 (fun k => r (ix2 k q)))) + eps) := by
  unfold invDev eps
  show Ideal.rsqrt (colMean (mulf (centred r) (centred r)) (ix2 u q) + Ideal.ofBits .f32 0x3727C5AC#32) = _
  rw [colMean_apply]
  simp only [mulf_apply, centred_apply]

/-- The normalisation of every column up to its scale: centred, times the reciprocal deviation, times the scale. -/
def lnScaled (r : FVec Ideal S16x32768 .f32) (g : Vec Ideal S16 .f32) : FVec Ideal S16x32768 .f32 :=
  mulf (mulf (centred r) (broadcastTo S16x32768 (invDev r) broadcasts_S1x32768_S16x32768)) (colOf g)

/-- With the shift added, entry `(j, q)` is the layer normalisation of column `q` at `j`. -/
theorem layerNorm_apply (r : FVec Ideal S16x32768 .f32) (g be : Vec Ideal S16 .f32) (j : Fin 16) (q : Fin 32768) :
    addf (lnScaled r g) (colOf be) (ix2 j q)
      = layerNorm (fun i => g (ix1 i)) (fun i => be (ix1 i)) (fun k => r (ix2 k q)) j := by
  unfold lnScaled layerNorm
  rw [addf_apply, mulf_apply, mulf_apply, centred_apply, broadcastTo_1b_ab_apply, invDev_apply, colOf_apply, colOf_apply]

/-! ## The input block: the three operand blocks stacked, column `q` being edge `q`'s input row -/

/-- The twenty-row input block. -/
def inputBlock (x0 x1 : Vec Ideal S8x32768 .f32) (x2 : Vec Ideal S4x32768 .f32) : FVec Ideal S20x32768 .bf16 :=
  truncf .bf16 (concatenate S20x32768 0 [⟨S8x32768, shapeCast S8x32768 x0 shapeCasts_S8x32768_S8x32768⟩,
    ⟨S8x32768, shapeCast S8x32768 x1 shapeCasts_S8x32768_S8x32768⟩,
    ⟨S4x32768, shapeCast S4x32768 x2 shapeCasts_S4x32768_S4x32768⟩]
    concatenates_S8x32768_S8x32768_S4x32768_S20x32768_d0) bitsLt_bf16_f32

/-- The stack read at `(k, q)`: rows 0–7 from the first block, 8–15 from the second, 16–19 from the third. -/
theorem stack_apply (x0 x1 : FVec Ideal S8x32768 .f32) (x2 : FVec Ideal S4x32768 .f32) (k : Fin 20) (q : Fin 32768) :
    concatenate S20x32768 0 [⟨S8x32768, x0⟩, ⟨S8x32768, x1⟩, ⟨S4x32768, x2⟩]
      concatenates_S8x32768_S8x32768_S4x32768_S20x32768_d0 (ix2 k q) = colRow x0 x1 x2 q k := by
  unfold colRow edgeRow
  by_cases h8 : k.val < 8
  · rw [dif_pos h8]
    exact concatenate_apply_piece (0 : Fin S20x32768.rank) _ _ (ix2 k q) 0 (by show (0 : Nat) < 3; omega) S8x32768 x0 rfl rfl 0 rfl
      (ix2 ⟨k.val, h8⟩ q)
      (fun b hb => by
        match b with
        | ⟨0, _⟩ => exact absurd rfl hb
        | ⟨1, _⟩ => rfl)
      (by show 0 + k.val = k.val; omega)
  · rw [dif_neg h8]
    by_cases h16 : k.val < 16
    · rw [dif_pos h16]
      exact concatenate_apply_piece (0 : Fin S20x32768.rank) _ _ (ix2 k q) 1 (by show (1 : Nat) < 3; omega) S8x32768 x1 rfl rfl 8 rfl
        (ix2 ⟨k.val - 8, by omega⟩ q)
        (fun b hb => by
          match b with
          | ⟨0, _⟩ => exact absurd rfl hb
          | ⟨1, _⟩ => rfl)
        (by show 8 + (k.val - 8) = k.val; omega)
    · rw [dif_neg h16]
      exact concatenate_apply_piece (0 : Fin S20x32768.rank) _ _ (ix2 k q) 2 (by show (2 : Nat) < 3; omega) S4x32768 x2 rfl rfl 16 rfl
        (ix2 ⟨k.val - 16, by omega⟩ q)
        (fun b hb => by
          match b with
          | ⟨0, _⟩ => exact absurd rfl hb
          | ⟨1, _⟩ => rfl)
        (by show 16 + (k.val - 16) = k.val; omega)

theorem inputBlock_apply (x0 x1 : Vec Ideal S8x32768 .f32) (x2 : Vec Ideal S4x32768 .f32) (k : Fin 20) (q : Fin 32768) :
    inputBlock x0 x1 x2 (ix2 k q) = colRow x0 x1 x2 q k := by
  unfold inputBlock
  rw [truncf_apply, shapeCast_self, shapeCast_self, shapeCast_self]
  exact stack_apply x0 x1 x2 k q

/-! ## The three matrix products: entry `(j, q)` is row `j` of the weights against column `q` of the operand -/

theorem lhs_first_0 (i : S16x32768.Idx) (c : dot_S16x20_S20x32768_S16x32768_1_0_0_1_n_n.contr.Idx) :
    (dot_S16x20_S20x32768_S16x32768_1_0_0_1_n_n.lhsIdx i c 0).val = (i 0).val := by
  unfold DotDims.lhsIdx
  rw [dif_neg (show ¬(0 : Fin S16x20.rank) ∈ dot_S16x20_S20x32768_S16x32768_1_0_0_1_n_n.lhsBatch by decide),
    dif_pos (show (0 : Fin S16x20.rank) ∈ dot_S16x20_S20x32768_S16x32768_1_0_0_1_n_n.lhsNonContracting by decide)]
  rfl
theorem lhs_first_1 (i : S16x32768.Idx) (c : dot_S16x20_S20x32768_S16x32768_1_0_0_1_n_n.contr.Idx) :
    (dot_S16x20_S20x32768_S16x32768_1_0_0_1_n_n.lhsIdx i c 1).val = (c ⟨0, by decide⟩).val :=
  dot_S16x20_S20x32768_S16x32768_1_0_0_1_n_n.lhsIdx_val_of_single rfl i c
theorem rhs_first_0 (i : S16x32768.Idx) (c : dot_S16x20_S20x32768_S16x32768_1_0_0_1_n_n.contr.Idx) :
    (dot_S16x20_S20x32768_S16x32768_1_0_0_1_n_n.rhsIdx i c 0).val = (c ⟨0, by decide⟩).val :=
  dot_S16x20_S20x32768_S16x32768_1_0_0_1_n_n.rhsIdx_val_of_single rfl i c
theorem rhs_first_1 (i : S16x32768.Idx) (c : dot_S16x20_S20x32768_S16x32768_1_0_0_1_n_n.contr.Idx) :
    (dot_S16x20_S20x32768_S16x32768_1_0_0_1_n_n.rhsIdx i c 1).val = (i 1).val := by
  unfold DotDims.rhsIdx
  rw [dif_neg (show ¬(1 : Fin S20x32768.rank) ∈ dot_S16x20_S20x32768_S16x32768_1_0_0_1_n_n.rhsBatch by decide),
    dif_pos (show (1 : Fin S20x32768.rank) ∈ dot_S16x20_S20x32768_S16x32768_1_0_0_1_n_n.rhsNonContracting by decide)]
  rfl

/-- The first product, sixteen rows of twenty weights against the twenty-row input block. -/
theorem product_first_apply (W : FVec Ideal S16x20 .bf16) (v : FVec Ideal S20x32768 .bf16) (j : Fin 16) (q : Fin 32768) :
    matmul dot_S16x20_S20x32768_S16x32768_1_0_0_1_n_n none W v (constant (F := Ideal) S16x32768 .f32 0x00000000#32) (ix2 j q)
      = ∑ k : Fin 20, W (ix2 j k) * v (ix2 k q) := by
  simp only [matmul]
  rw [Ideal.matmul_constant_zero_apply,
    ← Equiv.sum_comp (contrEquiv1 dot_S16x20_S20x32768_S16x32768_1_0_0_1_n_n 20 rfl rfl).symm]
  refine Finset.sum_congr rfl fun k _ => ?_
  have hk := contrEquiv1_symm_val dot_S16x20_S20x32768_S16x32768_1_0_0_1_n_n 20 rfl rfl k
  have el : dot_S16x20_S20x32768_S16x32768_1_0_0_1_n_n.lhsIdx (ix2 j q)
      ((contrEquiv1 dot_S16x20_S20x32768_S16x32768_1_0_0_1_n_n 20 rfl rfl).symm k) = ix2 j k :=
    funext fun a => Fin.ext (by
      match a with
      | ⟨0, _⟩ => exact lhs_first_0 _ _
      | ⟨1, _⟩ => exact (lhs_first_1 _ _).trans hk)
  have er : dot_S16x20_S20x32768_S16x32768_1_0_0_1_n_n.rhsIdx (ix2 j q)
      ((contrEquiv1 dot_S16x20_S20x32768_S16x32768_1_0_0_1_n_n 20 rfl rfl).symm k) = ix2 k q :=
    funext fun a => Fin.ext (by
      match a with
      | ⟨0, _⟩ => exact (rhs_first_0 _ _).trans hk
      | ⟨1, _⟩ => exact rhs_first_1 _ _)
  rw [el, er]

theorem lhs_second_0 (i : S16x32768.Idx) (c : dot_S16x16_S16x32768_S16x32768_1_0_0_1_n_n.contr.Idx) :
    (dot_S16x16_S16x32768_S16x32768_1_0_0_1_n_n.lhsIdx i c 0).val = (i 0).val := by
  unfold DotDims.lhsIdx
  rw [dif_neg (show ¬(0 : Fin S16x16.rank) ∈ dot_S16x16_S16x32768_S16x32768_1_0_0_1_n_n.lhsBatch by decide),
    dif_pos (show (0 : Fin S16x16.rank) ∈ dot_S16x16_S16x32768_S16x32768_1_0_0_1_n_n.lhsNonContracting by decide)]
  rfl
theorem lhs_second_1 (i : S16x32768.Idx) (c : dot_S16x16_S16x32768_S16x32768_1_0_0_1_n_n.contr.Idx) :
    (dot_S16x16_S16x32768_S16x32768_1_0_0_1_n_n.lhsIdx i c 1).val = (c ⟨0, by decide⟩).val :=
  dot_S16x16_S16x32768_S16x32768_1_0_0_1_n_n.lhsIdx_val_of_single rfl i c
theorem rhs_second_0 (i : S16x32768.Idx) (c : dot_S16x16_S16x32768_S16x32768_1_0_0_1_n_n.contr.Idx) :
    (dot_S16x16_S16x32768_S16x32768_1_0_0_1_n_n.rhsIdx i c 0).val = (c ⟨0, by decide⟩).val :=
  dot_S16x16_S16x32768_S16x32768_1_0_0_1_n_n.rhsIdx_val_of_single rfl i c
theorem rhs_second_1 (i : S16x32768.Idx) (c : dot_S16x16_S16x32768_S16x32768_1_0_0_1_n_n.contr.Idx) :
    (dot_S16x16_S16x32768_S16x32768_1_0_0_1_n_n.rhsIdx i c 1).val = (i 1).val := by
  unfold DotDims.rhsIdx
  rw [dif_neg (show ¬(1 : Fin S16x32768.rank) ∈ dot_S16x16_S16x32768_S16x32768_1_0_0_1_n_n.rhsBatch by decide),
    dif_pos (show (1 : Fin S16x32768.rank) ∈ dot_S16x16_S16x32768_S16x32768_1_0_0_1_n_n.rhsNonContracting by decide)]
  rfl

/-- The second product, sixteen rows of sixteen weights against a sixteen-row hidden block. -/
theorem product_second_apply (W : FVec Ideal S16x16 .bf16) (v : FVec Ideal S16x32768 .bf16) (j : Fin 16) (q : Fin 32768) :
    matmul dot_S16x16_S16x32768_S16x32768_1_0_0_1_n_n none W v (constant (F := Ideal) S16x32768 .f32 0x00000000#32) (ix2 j q)
      = ∑ k : Fin 16, W (ix2 j k) * v (ix2 k q) := by
  simp only [matmul]
  rw [Ideal.matmul_constant_zero_apply,
    ← Equiv.sum_comp (contrEquiv1 dot_S16x16_S16x32768_S16x32768_1_0_0_1_n_n 16 rfl rfl).symm]
  refine Finset.sum_congr rfl fun k _ => ?_
  have hk := contrEquiv1_symm_val dot_S16x16_S16x32768_S16x32768_1_0_0_1_n_n 16 rfl rfl k
  have el : dot_S16x16_S16x32768_S16x32768_1_0_0_1_n_n.lhsIdx (ix2 j q)
      ((contrEquiv1 dot_S16x16_S16x32768_S16x32768_1_0_0_1_n_n 16 rfl rfl).symm k) = ix2 j k :=
    funext fun a => Fin.ext (by
      match a with
      | ⟨0, _⟩ => exact lhs_second_0 _ _
      | ⟨1, _⟩ => exact (lhs_second_1 _ _).trans hk)
  have er : dot_S16x16_S16x32768_S16x32768_1_0_0_1_n_n.rhsIdx (ix2 j q)
      ((contrEquiv1 dot_S16x16_S16x32768_S16x32768_1_0_0_1_n_n 16 rfl rfl).symm k) = ix2 k q :=
    funext fun a => Fin.ext (by
      match a with
      | ⟨0, _⟩ => exact (rhs_second_0 _ _).trans hk
      | ⟨1, _⟩ => exact rhs_second_1 _ _)
  rw [el, er]

theorem lhs_last_0 (i : S4x32768.Idx) (c : dot_S4x16_S16x32768_S4x32768_1_0_0_1_n_n.contr.Idx) :
    (dot_S4x16_S16x32768_S4x32768_1_0_0_1_n_n.lhsIdx i c 0).val = (i 0).val := by
  unfold DotDims.lhsIdx
  rw [dif_neg (show ¬(0 : Fin S4x16.rank) ∈ dot_S4x16_S16x32768_S4x32768_1_0_0_1_n_n.lhsBatch by decide),
    dif_pos (show (0 : Fin S4x16.rank) ∈ dot_S4x16_S16x32768_S4x32768_1_0_0_1_n_n.lhsNonContracting by decide)]
  rfl
theorem lhs_last_1 (i : S4x32768.Idx) (c : dot_S4x16_S16x32768_S4x32768_1_0_0_1_n_n.contr.Idx) :
    (dot_S4x16_S16x32768_S4x32768_1_0_0_1_n_n.lhsIdx i c 1).val = (c ⟨0, by decide⟩).val :=
  dot_S4x16_S16x32768_S4x32768_1_0_0_1_n_n.lhsIdx_val_of_single rfl i c
theorem rhs_last_0 (i : S4x32768.Idx) (c : dot_S4x16_S16x32768_S4x32768_1_0_0_1_n_n.contr.Idx) :
    (dot_S4x16_S16x32768_S4x32768_1_0_0_1_n_n.rhsIdx i c 0).val = (c ⟨0, by decide⟩).val :=
  dot_S4x16_S16x32768_S4x32768_1_0_0_1_n_n.rhsIdx_val_of_single rfl i c
theorem rhs_last_1 (i : S4x32768.Idx) (c : dot_S4x16_S16x32768_S4x32768_1_0_0_1_n_n.contr.Idx) :
    (dot_S4x16_S16x32768_S4x32768_1_0_0_1_n_n.rhsIdx i c 1).val = (i 1).val := by
  unfold DotDims.rhsIdx
  rw [dif_neg (show ¬(1 : Fin S16x32768.rank) ∈ dot_S4x16_S16x32768_S4x32768_1_0_0_1_n_n.rhsBatch by decide),
    dif_pos (show (1 : Fin S16x32768.rank) ∈ dot_S4x16_S16x32768_S4x32768_1_0_0_1_n_n.rhsNonContracting by decide)]
  rfl

/-- The last product, four rows of sixteen weights against a sixteen-row hidden block. -/
theorem product_last_apply (W : FVec Ideal S4x16 .bf16) (v : FVec Ideal S16x32768 .bf16) (o : Fin 4) (q : Fin 32768) :
    matmul dot_S4x16_S16x32768_S4x32768_1_0_0_1_n_n none W v (constant (F := Ideal) S4x32768 .f32 0x00000000#32) (ix2 o q)
      = ∑ k : Fin 16, W (ix2 o k) * v (ix2 k q) := by
  simp only [matmul]
  rw [Ideal.matmul_constant_zero_apply,
    ← Equiv.sum_comp (contrEquiv1 dot_S4x16_S16x32768_S4x32768_1_0_0_1_n_n 16 rfl rfl).symm]
  refine Finset.sum_congr rfl fun k _ => ?_
  have hk := contrEquiv1_symm_val dot_S4x16_S16x32768_S4x32768_1_0_0_1_n_n 16 rfl rfl k
  have el : dot_S4x16_S16x32768_S4x32768_1_0_0_1_n_n.lhsIdx (ix2 o q)
      ((contrEquiv1 dot_S4x16_S16x32768_S4x32768_1_0_0_1_n_n 16 rfl rfl).symm k) = ix2 o k :=
    funext fun a => Fin.ext (by
      match a with
      | ⟨0, _⟩ => exact lhs_last_0 _ _
      | ⟨1, _⟩ => exact (lhs_last_1 _ _).trans hk)
  have er : dot_S4x16_S16x32768_S4x32768_1_0_0_1_n_n.rhsIdx (ix2 o q)
      ((contrEquiv1 dot_S4x16_S16x32768_S4x32768_1_0_0_1_n_n 16 rfl rfl).symm k) = ix2 k q :=
    funext fun a => Fin.ext (by
      match a with
      | ⟨0, _⟩ => exact (rhs_last_0 _ _).trans hk
      | ⟨1, _⟩ => exact rhs_last_1 _ _)
  rw [el, er]

/-! ## The layers over a block -/

/-- A layer's products plus its bias down every column, rectified. -/
def biasRelu (m : FVec Ideal S16x32768 .f32) (b : Vec Ideal S16 .f32) : FVec Ideal S16x32768 .f32 :=
  maximumf (addf m (colOf b)) (broadcast S16x32768 (Scalar.ofBits (F := Ideal) .f32 0x00000000#32))

theorem biasRelu_apply (m : FVec Ideal S16x32768 .f32) (b : Vec Ideal S16 .f32) (j : Fin 16) (q : Fin 32768) :
    biasRelu m b (ix2 j q) = max (m (ix2 j q) + b (ix1 j)) 0 := by
  unfold biasRelu
  rw [maximumf_apply, addf_apply, colOf_apply, broadcast_apply]
  exact congrArg (max _) Ideal.ofBits_zero_f32

/-- The first layer before its normalisation: the weights against the input block, plus the bias, rectified. -/
def layer1 (x0 x1 : Vec Ideal S8x32768 .f32) (x2 : Vec Ideal S4x32768 .f32) (x3 : FVec Ideal S16x20 .bf16)
    (x4 : Vec Ideal S16 .f32) : FVec Ideal S16x32768 .f32 :=
  biasRelu (matmul dot_S16x20_S20x32768_S16x32768_1_0_0_1_n_n none (shapeCast S16x20 x3 shapeCasts_S16x20_S16x20)
    (inputBlock x0 x1 x2) (constant (F := Ideal) S16x32768 .f32 0x00000000#32)) x4

/-- Column `q` of it is the rectified dense layer of edge `q`'s input row. -/
theorem layer1_apply (x0 x1 : Vec Ideal S8x32768 .f32) (x2 : Vec Ideal S4x32768 .f32) (x3 : FVec Ideal S16x20 .bf16)
    (x4 : Vec Ideal S16 .f32) (j : Fin 16) (q : Fin 32768) :
    layer1 x0 x1 x2 x3 x4 (ix2 j q)
      = relu (dense (fun k i => x3 (ix2 i k)) (fun i => x4 (ix1 i)) (colRow x0 x1 x2 q)) j := by
  unfold layer1 relu dense
  rw [biasRelu_apply, product_first_apply, shapeCast_self]
  simp only [inputBlock_apply]
  exact congrArg (fun s => max (s + x4 (ix1 j)) 0) (Finset.sum_congr rfl fun k _ => mul_comm _ _)

/-- The second layer before its normalisation, of a hidden block `h`. -/
def layer2 (h : FVec Ideal S16x32768 .f32) (x7 : FVec Ideal S16x16 .bf16) (x8 : Vec Ideal S16 .f32) :
    FVec Ideal S16x32768 .f32 :=
  biasRelu (matmul dot_S16x16_S16x32768_S16x32768_1_0_0_1_n_n none (shapeCast S16x16 x7 shapeCasts_S16x16_S16x16)
    (truncf .bf16 h bitsLt_bf16_f32) (constant (F := Ideal) S16x32768 .f32 0x00000000#32)) x8

/-- Column `q` of it is the rectified dense layer of column `q` of `h`. -/
theorem layer2_apply (h : FVec Ideal S16x32768 .f32) (x7 : FVec Ideal S16x16 .bf16) (x8 : Vec Ideal S16 .f32)
    (j : Fin 16) (q : Fin 32768) :
    layer2 h x7 x8 (ix2 j q)
      = relu (dense (fun k i => x7 (ix2 i k)) (fun i => x8 (ix1 i)) (fun k => h (ix2 k q))) j := by
  unfold layer2 relu dense
  rw [biasRelu_apply, product_second_apply, shapeCast_self]
  simp only [truncf_apply]
  exact congrArg (fun s => max (s + x8 (ix1 j)) 0) (Finset.sum_congr rfl fun k _ => mul_comm _ _)

/-- The last layer, of a hidden block `h`: the weights against it, plus the bias. -/
def lastLayer (h : FVec Ideal S16x32768 .f32) (x11 : FVec Ideal S4x16 .bf16) (x12 : Vec Ideal S4 .f32) :
    FVec Ideal S4x32768 .f32 :=
  addf (matmul dot_S4x16_S16x32768_S4x32768_1_0_0_1_n_n none (shapeCast S4x16 x11 shapeCasts_S4x16_S4x16)
    (truncf .bf16 h bitsLt_bf16_f32) (constant (F := Ideal) S4x32768 .f32 0x00000000#32)) (colOf4 x12)

/-- Column `q` of it is the dense layer of column `q` of `h`. -/
theorem lastLayer_apply (h : FVec Ideal S16x32768 .f32) (x11 : FVec Ideal S4x16 .bf16) (x12 : Vec Ideal S4 .f32)
    (o : Fin 4) (q : Fin 32768) :
    lastLayer h x11 x12 (ix2 o q)
      = dense (fun k i => x11 (ix2 i k)) (fun i => x12 (ix1 i)) (fun k => h (ix2 k q)) o := by
  unfold lastLayer dense
  rw [addf_apply, product_last_apply, shapeCast_self, colOf4_apply]
  simp only [truncf_apply]
  exact congrArg (fun s => s + x12 (ix1 o)) (Finset.sum_congr rfl fun k _ => mul_comm _ _)

/-! ## The body's payloads are these layers, and the block is the network down every column -/

/-- The first payload: the first layer normalised up to its scale. -/
theorem first_payload (x0 x1 : Vec Ideal S8x32768 .f32) (x2 : Vec Ideal S4x32768 .f32) (x3 : Vec Ideal S16x20 .bf16)
    (x4 x5 : Vec Ideal S16 .f32) :
    k0_pay3 (F := Ideal) x0 x1 x2 x3 x4 x5 = lnScaled (layer1 x0 x1 x2 x3 x4) x5 := rfl

/-- The second payload: the shift, the second layer with its whole normalisation, and the last products. -/
theorem second_payload (x6 : Vec Ideal S16 .f32) (v : FVec Ideal S16x32768 .f32) (x7 : Vec Ideal S16x16 .bf16)
    (x8 x9 x10 : Vec Ideal S16 .f32) (x11 : Vec Ideal S4x16 .bf16) (x12 : Vec Ideal S4 .f32) :
    k0_pay1 (F := Ideal) (k0_pay4 x12) (k0_pay5 (k0_pay2 x6) v x7 x8 x9 x10 x11)
      = lastLayer (addf (lnScaled (layer2 (addf v (colOf x6)) x7 x8) x9) (colOf x10)) x11 x12 := rfl

/-- The stored block at `(o, q)` is the network's output `o` on column `q`. -/
theorem payload_apply (x0 x1 : Vec Ideal S8x32768 .f32) (x2 : Vec Ideal S4x32768 .f32) (x3 : Vec Ideal S16x20 .bf16)
    (x4 x5 x6 : Vec Ideal S16 .f32) (x7 : Vec Ideal S16x16 .bf16) (x8 x9 x10 : Vec Ideal S16 .f32)
    (x11 : Vec Ideal S4x16 .bf16) (x12 : Vec Ideal S4 .f32) (o : Fin 4) (q : Fin 32768) :
    k0_pay1 (F := Ideal) (k0_pay4 x12) (k0_pay5 (k0_pay2 x6) (k0_pay3 x0 x1 x2 x3 x4 x5) x7 x8 x9 x10 x11) (ix2 o q)
      = net (paramsFM x3 x4 x5 x6 x7 x8 x9 x10 x11 x12) (colRow x0 x1 x2 q) o := by
  rw [second_payload, first_payload, lastLayer_apply]
  simp only [layerNorm_apply, layer2_apply, layer1_apply]
  rfl

/-- What the kernel's body leaves in the output block, from the operand blocks: the network down every column. -/
theorem body_value (x0 x1 : Vec Ideal S8x32768 .f32) (x2 : Vec Ideal S4x32768 .f32) (x3 : Vec Ideal S16x20 .bf16)
    (x4 x5 x6 : Vec Ideal S16 .f32) (x7 : Vec Ideal S16x16 .bf16) (x8 x9 x10 : Vec Ideal S16 .f32)
    (x11 : Vec Ideal S4x16 .bf16) (x12 : Vec Ideal S4 .f32) :
    out0_13 (F := Ideal) x0 x1 x2 x3 x4 x5 x6 x7 x8 x9 x10 x11 x12
      = colNet (paramsFM x3 x4 x5 x6 x7 x8 x9 x10 x11 x12) x0 x1 x2 := by
  have hz2 : (![0, 0] : Fin 2 → Nat) = fun _ => 0 := funext fun a => by
    match a with
    | ⟨0, _⟩ => rfl
    | ⟨1, _⟩ => rfl
  have hz1 : (![0] : Fin 1 → Nat) = fun _ => 0 := funext fun a => by
    match a with
    | ⟨0, _⟩ => rfl
  unfold out0_13
  rw [View.canon_unit_zero hz2]
  simp only [View.ld_unit_zero (S := S8x32768) hz2, View.ld_unit_zero (S := S4x32768) hz2,
    View.ld_unit_zero (S := S16x20) hz2, View.ld_unit_zero (S := S16x16) hz2, View.ld_unit_zero (S := S4x16) hz2,
    View.ld_unit_zero (S := S16) hz1, View.ld_unit_zero (S := S4) hz1]
  funext i
  obtain ⟨o, q, rfl⟩ : ∃ (o : Fin 4) (q : Fin 32768), i = ix2 o q := ⟨i 0, i 1, eq_ix2 i⟩
  rw [colNet_apply]
  exact payload_apply x0 x1 x2 x3 x4 x5 x6 x7 x8 x9 x10 x11 x12 o q

end Cert.EdgeNet

end
-- ==== Proof.Blocks.lean ====
import proofs.«424817_j3289944949007_3_alg».proof.Proof.KSpec
import proofs.«424817_j3289944949007_3_alg».proof.Proof.Body
import proofs.«424817_j3289944949007_3_alg».proof.Proof.Gen.KernelIdeal.Frame
import Idealize.ShloMosaic.Lib.Pipeline.Value

noncomputable section

namespace Cert.EdgeNet

open Idealize.ShloMosaic Idealize.ShloMosaic.ValueIdx Cert.KernelIdeal Cert.KernelIdeal.Gen

variable (m : (ℓ : Loc nD τ sig) → Buf (Elt Ideal) ℓ)

/-- The network's parameters as the launch finds them: the transposed weights and the bias, scale and shift vectors. -/
def launchParams (c : Dev nD) : Params :=
  paramsFM (V m c main_v14) (V m c main_arg4) (V m c main_arg5) (V m c main_arg6) (V m c main_v16) (V m c main_arg8)
    (V m c main_arg9) (V m c main_arg10) (V m c main_v18) (V m c main_arg12)

/-- The printed index maps, decided over the 98 grid points: the three streamed operands and the output move one
    block of 32768 columns per point; every parameter operand stays at its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_13.index t (0 : Fin 2) = 0 ∧ win0_13.index t (1 : Fin 2) = t.val
    ∧ win0_3.index t (0 : Fin 2) = 0 ∧ win0_3.index t (1 : Fin 2) = 0
    ∧ win0_7.index t (0 : Fin 2) = 0 ∧ win0_7.index t (1 : Fin 2) = 0
    ∧ win0_11.index t (0 : Fin 2) = 0 ∧ win0_11.index t (1 : Fin 2) = 0
    ∧ win0_4.index t (0 : Fin 1) = 0 ∧ win0_5.index t (0 : Fin 1) = 0 ∧ win0_6.index t (0 : Fin 1) = 0
    ∧ win0_8.index t (0 : Fin 1) = 0 ∧ win0_9.index t (0 : Fin 1) = 0 ∧ win0_10.index t (0 : Fin 1) = 0
    ∧ win0_12.index t (0 : Fin 1) = 0 :=
  (by decide +kernel : ∀ t : Fin grid0.N, _)

/-! ## Each operand's block at a point, read off its array -/

/-- Column `q` of point `t`'s block of a streamed operand is column `t * 32768 + q` of the array. -/
abbrev colAt (t : Fin cfg0.N) (q : Fin 32768) : Fin 3211264 :=
  ⟨t.val * 32768 + q.val, by have ht : t.val < 98 := t.isLt; have hq := q.isLt; omega⟩

theorem blk0 (c : Dev nD) (t : Fin cfg0.N) (k : Fin 8) (q : Fin 32768) :
    iblk m c 0 t (ix2 k q) = V m c main_v10 (ix2 k (colAt t q)) := by
  obtain ⟨e0, e1, -⟩ := idx_facts t
  show V m c main_v10 (((cfg0.win 0).blk t).view.emb (ix2 k q)) = _
  refine congrArg _ (funext fun a => Fin.ext ?_)
  match a with
  | ⟨0, _⟩ => show win0_0.index t (0 : Fin 2) * 8 + 1 * k.val = k.val; omega
  | ⟨1, _⟩ => show win0_0.index t (1 : Fin 2) * 32768 + 1 * q.val = t.val * 32768 + q.val; omega

theorem blk1 (c : Dev nD) (t : Fin cfg0.N) (k : Fin 8) (q : Fin 32768) :
    iblk m c 1 t (ix2 k q) = V m c main_v11 (ix2 k (colAt t q)) := by
  obtain ⟨-, -, e0, e1, -⟩ := idx_facts t
  show V m c main_v11 (((cfg0.win 1).blk t).view.emb (ix2 k q)) = _
  refine congrArg _ (funext fun a => Fin.ext ?_)
  match a with
  | ⟨0, _⟩ => show win0_1.index t (0 : Fin 2) * 8 + 1 * k.val = k.val; omega
  | ⟨1, _⟩ => show win0_1.index t (1 : Fin 2) * 32768 + 1 * q.val = t.val * 32768 + q.val; omega

theorem blk2 (c : Dev nD) (t : Fin cfg0.N) (k : Fin 4) (q : Fin 32768) :
    iblk m c 2 t (ix2 k q) = V m c main_v12 (ix2 k (colAt t q)) := by
  obtain ⟨-, -, -, -, e0, e1, -⟩ := idx_facts t
  show V m c main_v12 (((cfg0.win 2).blk t).view.emb (ix2 k q)) = _
  refine congrArg _ (funext fun a => Fin.ext ?_)
  match a with
  | ⟨0, _⟩ => show win0_2.index t (0 : Fin 2) * 4 + 1 * k.val = k.val; omega
  | ⟨1, _⟩ => show win0_2.index t (1 : Fin 2) * 32768 + 1 * q.val = t.val * 32768 + q.val; omega

theorem blk3 (c : Dev nD) (t : Fin cfg0.N) (j : Fin 16) (k : Fin 20) :
    iblk m c 3 t (ix2 j k) = V m c main_v14 (ix2 j k) := by
  obtain ⟨-, -, -, -, -, -, -, -, e0, e1, -⟩ := idx_facts t
  show V m c main_v14 (((cfg0.win 3).blk t).view.emb (ix2 j k)) = _
  refine congrArg _ (funext fun a => Fin.ext ?_)
  match a with
  | ⟨0, _⟩ => show win0_3.index t (0 : Fin 2) * 16 + 1 * j.val = j.val; omega
  | ⟨1, _⟩ => show win0_3.index t (1 : Fin 2) * 20 + 1 * k.val = k.val; omega

theorem blk7 (c : Dev nD) (t : Fin cfg0.N) (j : Fin 16) (k : Fin 16) :
    iblk m c 7 t (ix2 j k) = V m c main_v16 (ix2 j k) := by
  obtain ⟨-, -, -, -, -, -, -, -, -, -, e0, e1, -⟩ := idx_facts t
  show V m c main_v16 (((cfg0.win 7).blk t).view.emb (ix2 j k)) = _
  refine congrArg _ (funext fun a => Fin.ext ?_)
  match a with
  | ⟨0, _⟩ => show win0_7.index t (0 : Fin 2) * 16 + 1 * j.val = j.val; omega
  | ⟨1, _⟩ => show win0_7.index t (1 : Fin 2) * 16 + 1 * k.val = k.val; omega

theorem blk11 (c : Dev nD) (t : Fin cfg0.N) (o : Fin 4) (j : Fin 16) :
    iblk m c 11 t (ix2 o j) = V m c main_v18 (ix2 o j) := by
  obtain ⟨-, -, -, -, -, -, -, -, -, -, -, -, e0, e1, -⟩ := idx_facts t
  show V m c main_v18 (((cfg0.win 11).blk t).view.emb (ix2 o j)) = _
  refine congrArg _ (funext fun a => Fin.ext ?_)
  match a with
  | ⟨0, _⟩ => show win0_11.index t (0 : Fin 2) * 4 + 1 * o.val = o.val; omega
  | ⟨1, _⟩ => show win0_11.index t (1 : Fin 2) * 16 + 1 * j.val = j.val; omega

theorem blk4 (c : Dev nD) (t : Fin cfg0.N) (j : Fin 16) : iblk m c 4 t (ix1 j) = V m c main_arg4 (ix1 j) := by
  obtain ⟨-, -, -, -, -, -, -, -, -, -, -, -, -, -, e, -⟩ := idx_facts t
  show V m c main_arg4 (((cfg0.win 4).blk t).view.emb (ix1 j)) = _
  refine congrArg _ (funext fun a => Fin.ext ?_)
  match a with
  | ⟨0, _⟩ => show win0_4.index t (0 : Fin 1) * 16 + 1 * j.val = j.val; omega

theorem blk5 (c : Dev nD) (t : Fin cfg0.N) (j : Fin 16) : iblk m c 5 t (ix1 j) = V m c main_arg5 (ix1 j) := by
  obtain ⟨-, -, -, -, -, -, -, -, -, -, -, -, -, -, -, e, -⟩ := idx_facts t
  show V m c main_arg5 (((cfg0.win 5).blk t).view.emb (ix1 j)) = _
  refine congrArg _ (funext fun a => Fin.ext ?_)
  match a with
  | ⟨0, _⟩ => show win0_5.index t (0 : Fin 1) * 16 + 1 * j.val = j.val; omega

theorem blk6 (c : Dev nD) (t : Fin cfg0.N) (j : Fin 16) : iblk m c 6 t (ix1 j) = V m c main_arg6 (ix1 j) := by
  obtain ⟨-, -, -, -, -, -, -, -, -, -, -, -, -, -, -, -, e, -⟩ := idx_facts t
  show V m c main_arg6 (((cfg0.win 6).blk t).view.emb (ix1 j)) = _
  refine congrArg _ (funext fun a => Fin.ext ?_)
  match a with
  | ⟨0, _⟩ => show win0_6.index t (0 : Fin 1) * 16 + 1 * j.val = j.val; omega

theorem blk8 (c : Dev nD) (t : Fin cfg0.N) (j : Fin 16) : iblk m c 8 t (ix1 j) = V m c main_arg8 (ix1 j) := by
  obtain ⟨-, -, -, -, -, -, -, -, -, -, -, -, -, -, -, -, -, e, -⟩ := idx_facts t
  show V m c main_arg8 (((cfg0.win 8).blk t).view.emb (ix1 j)) = _
  refine congrArg _ (funext fun a => Fin.ext ?_)
  match a with
  | ⟨0, _⟩ => show win0_8.index t (0 : Fin 1) * 16 + 1 * j.val = j.val; omega

theorem blk9 (c : Dev nD) (t : Fin cfg0.N) (j : Fin 16) : iblk m c 9 t (ix1 j) = V m c main_arg9 (ix1 j) := by
  obtain ⟨-, -, -, -, -, -, -, -, -, -, -, -, -, -, -, -, -, -, e, -⟩ := idx_facts t
  show V m c main_arg9 (((cfg0.win 9).blk t).view.emb (ix1 j)) = _
  refine congrArg _ (funext fun a => Fin.ext ?_)
  match a with
  | ⟨0, _⟩ => show win0_9.index t (0 : Fin 1) * 16 + 1 * j.val = j.val; omega

theorem blk10 (c : Dev nD) (t : Fin cfg0.N) (j : Fin 16) : iblk m c 10 t (ix1 j) = V m c main_arg10 (ix1 j) := by
  obtain ⟨-, -, -, -, -, -, -, -, -, -, -, -, -, -, -, -, -, -, -, e, -⟩ := idx_facts t
  show V m c main_arg10 (((cfg0.win 10).blk t).view.emb (ix1 j)) = _
  refine congrArg _ (funext fun a => Fin.ext ?_)
  match a with
  | ⟨0, _⟩ => show win0_10.index t (0 : Fin 1) * 16 + 1 * j.val = j.val; omega

theorem blk12 (c : Dev nD) (t : Fin cfg0.N) (o : Fin 4) : iblk m c 12 t (ix1 o) = V m c main_arg12 (ix1 o) := by
  obtain ⟨-, -, -, -, -, -, -, -, -, -, -, -, -, -, -, -, -, -, -, -, e⟩ := idx_facts t
  show V m c main_arg12 (((cfg0.win 12).blk t).view.emb (ix1 o)) = _
  refine congrArg _ (funext fun a => Fin.ext ?_)
  match a with
  | ⟨0, _⟩ => show win0_12.index t (0 : Fin 1) * 4 + 1 * o.val = o.val; omega

/-- At every point the parameter operands' blocks are the launch's parameters. -/
theorem params_eq (c : Dev nD) (t : Fin cfg0.N) :
    paramsFM (iblk m c 3 t) (iblk m c 4 t) (iblk m c 5 t) (iblk m c 6 t) (iblk m c 7 t) (iblk m c 8 t)
      (iblk m c 9 t) (iblk m c 10 t) (iblk m c 11 t) (iblk m c 12 t) = launchParams m c := by
  unfold launchParams paramsFM
  rw [Params.mk.injEq]
  refine ⟨?_, ?_, ?_, ?_, ?_, ?_, ?_, ?_, ?_, ?_⟩
  · funext k j; exact blk3 m c t j k
  · funext j; exact blk4 m c t j
  · funext j; exact blk5 m c t j
  · funext j; exact blk6 m c t j
  · funext k j; exact blk7 m c t j k
  · funext j; exact blk8 m c t j
  · funext j; exact blk9 m c t j
  · funext j; exact blk10 m c t j
  · funext k j; exact blk11 m c t j k
  · funext j; exact blk12 m c t j

/-! ## What a point writes back, the cover, the array -/

/-- Point `t` writes back block `t` of the network down the columns of the whole operands. -/
theorem flushed_eq (c : Dev nD) (t : Fin cfg0.N) :
    (dats m 0 c).flushed 13 t = ((cfg0.win 13).blk t).view.read (Elt Ideal)
      (colNet (launchParams m c) (V m c main_v10) (V m c main_v11) (V m c main_v12)) := by
  show (cfg0.win 13).cut (grid0.coords t) ((dats m 0 c).after 13 t) = _
  rw [after0_13, body_value]
  funext i
  obtain ⟨o, q, rfl⟩ : ∃ (o : Fin 4) (q : Fin 32768), i = ix2 o q := ⟨i 0, i 1, eq_ix2 i⟩
  obtain ⟨-, -, -, -, -, -, e0, e1, -⟩ := idx_facts t
  have hemb : ((cfg0.win 13).blk t).view.emb (ix2 o q) = ix2 o (colAt t q) := by
    funext a; apply Fin.ext
    match a with
    | ⟨0, _⟩ => show win0_13.index t (0 : Fin 2) * 4 + 1 * o.val = o.val; omega
    | ⟨1, _⟩ => show win0_13.index t (1 : Fin 2) * 32768 + 1 * q.val = t.val * 32768 + q.val; omega
  show colNet _ (iblk m c 0 t) (iblk m c 1 t) (iblk m c 2 t) (ix2 o q)
    = colNet (launchParams m c) (V m c main_v10) (V m c main_v11) (V m c main_v12) (((cfg0.win 13).blk t).view.emb (ix2 o q))
  rw [hemb, colNet_apply, colNet_apply, params_eq]
  refine congrArg (fun v => net (launchParams m c) v o) ?_
  unfold colRow
  congr 1
  · funext k; exact blk0 m c t k q
  · funext k; exact blk1 m c t k q
  · funext k; exact blk2 m c t k q

/-- An index of the output array is in point `t`'s block iff each coordinate is in the block's range on its axis. -/
theorem mem_blk (t : Fin cfg0.N) (i : S4x3211264.Idx) :
    i ∈ ((cfg0.win 13).blk t).view.set ↔ ∀ a : Fin 2, win0_13.index t a * S4x32768.size a ≤ (i a).val
      ∧ (i a).val < win0_13.index t a * S4x32768.size a + S4x32768.size a := by
  show i ∈ ((View.whole main_v19).slice (win0_13.rect t)).set ↔ _
  rw [View.set_slice_whole, Rect.mem_set_unit]
  exact Iff.rfl

/-- The 98 blocks of 32768 columns tile the padded array: column `e` is in block `e / 32768`. -/
theorem cover (i : S4x3211264.Idx) :
    ∃ t : Fin cfg0.N, (cfg0.win 13).flush t = true ∧ i ∈ ((cfg0.win 13).blk t).view.set := by
  have h0 : (i 0).val < 4 := (i 0).isLt
  have h1 : (i 1).val < 3211264 := (i 1).isLt
  let t : Fin cfg0.N := ⟨(i 1).val / 32768, by show (i 1).val / 32768 < 98; omega⟩
  obtain ⟨-, -, -, -, -, -, e0, e1, -⟩ := idx_facts t
  refine ⟨t, flush0_13 t, ?_⟩
  rw [mem_blk]
  have ht : t.val = (i 1).val / 32768 := rfl
  intro a
  match a with
  | ⟨0, _⟩ => show win0_13.index t (0 : Fin 2) * 4 ≤ (i 0).val ∧ (i 0).val < win0_13.index t (0 : Fin 2) * 4 + 4; omega
  | ⟨1, _⟩ =>
    show win0_13.index t (1 : Fin 2) * 32768 ≤ (i 1).val ∧ (i 1).val < win0_13.index t (1 : Fin 2) * 32768 + 32768
    omega

/-- The kernel's output array after the run: the network down every column of the three feature-major operands. -/
theorem out_array (c : Dev nD) :
    (dats m 0 c).arrAt 13 cfg0.N = colNet (launchParams m c) (V m c main_v10) (V m c main_v11) (V m c main_v12) :=
  (dats m 0 c).arrAt_eq_of_cover 13 _ (fun t _ => flushed_eq m c t) cover

end Cert.EdgeNet

end
-- ==== Proof.Tail.lean ====
import proofs.«424817_j3289944949007_3_alg».proof.Proof.KSpec
import proofs.«424817_j3289944949007_3_alg».proof.Proof.Gen.KernelIdeal.Frame
import Idealize.ShloMosaic.Lib.ValueLayout
import Idealize.ShloMosaic.Lib.Pipeline.Value
import Idealize.ShloMosaic.Lib.StableHlo.Run

noncomputable section

namespace Cert.EdgeNet

open Idealize.ShloMosaic Idealize.ShloMosaic.ValueIdx Cert.KernelIdeal Cert.KernelIdeal.Gen Idealize.ShloMosaic.StableHlo

variable (m : (ℓ : Loc nD τ sig) → Buf (Elt Ideal) ℓ)

/-- The program's result as the two operations after the region leave it: the kernel's output array transposed,
    then cut to its first 3200000 rows. -/
theorem tail_term (c : Dev nD) :
    Pipeline.afterTail₀ cfgs (dats m) 0 (V0 m) [hostOps1] c main_v21
      = extractStridedSlice S3200000x4 ![0, 0]
          (transpose S3211264x4 [1, 0] ((dats m 0 c).arrAt 13 cfg0.N) transposes_S4x3211264_S3211264x4_1_0)
          slices_S3211264x4_S3200000x4_0_0 := by
  unfold Pipeline.afterTail₀
  show StableHlo.after hostOps1 _ (Proc.devRef .tc main_v21) = _
  after_results
  have e : Pipeline.withArrays (cfgs 0).spec c (V0 m c) (fun w => (dats m 0 c).arrAt w (cfgs 0).N)
      (Proc.tc.devRef main_v19) = (dats m 0 c).arrAt 13 cfg0.N :=
    Pipeline.withArrays_arr (cfgs 0).spec launch0.win.arr_inj c _ _ 13
  rw [e]

/-- After the region the program transposes the kernel's output and keeps the first 3200000 rows: entry `(e, o)` of
    the result is entry `(o, e)` of the kernel's output array. -/
theorem tail_value (c : Dev nD) (e : Fin 3200000) (o : Fin 4) :
    Pipeline.afterTail₀ cfgs (dats m) 0 (V0 m) [hostOps1] c main_v21 (ix2 e o)
      = (dats m 0 c).arrAt 13 cfg0.N (ix2 o (⟨e.val, by omega⟩ : Fin 3211264)) := by
  rw [tail_term]
  rw [extractStridedSlice_apply ![0, 0] _ slices_S3211264x4_S3200000x4_0_0 (ix2 e o)
    (ix2 (⟨e.val, by omega⟩ : Fin 3211264) o) (fun a => match a with
      | ⟨0, _⟩ => by show e.val = 0 + e.val; omega
      | ⟨1, _⟩ => by show o.val = 0 + o.val; omega)]
  exact transpose_ix2_apply _ transposes_S4x3211264_S3211264x4_1_0 _ _

end Cert.EdgeNet

end
-- ==== Proof.LibGatherCol.lean ====
/-
  A column gather read at an index.

  `x[:, idx]` of a feature-major table `x : [C, N]` (one node per COLUMN) at an integer vector `idx` of length `E`
  lowers to `stablehlo.gather` with the indices reshaped to `[E, 1]` (the index vector on axis 1), the table's second
  axis collapsed and named by the start index map, the result's first axis the offset axis, and slices of one whole
  column (`[C, 1]`). Entry `(c, e)` of the result `[C, E]` is the table's entry `(c, col)`, where `col` is the start
  index `idx[e, 0]` read as a signed integer and clamped into `[0, N − 1]`, as StableHLO clamps every start index so
  that the slice fits.
-/
import Idealize.ShloMosaic.PureOps.ShapeOps
import Idealize.ShloMosaic.Lib.ValueIdx

noncomputable section

namespace Idealize.ShloMosaic.ColGather

open Idealize.ShloMosaic Idealize.ShloMosaic.ValueIdx

variable {α : Type}

/-- The column a start index word names in a table of `N` columns: the word read signed, clamped into `[0, N − 1]`. -/
def clampCol (N : Nat) (hN : 0 < N) {w : Nat} (v : BitVec w) : Fin N := ⟨min v.toInt.toNat (N - 1), by omega⟩

/-- The clamped column's value. -/
theorem clampCol_val (N : Nat) (hN : 0 < N) {w : Nat} (v : BitVec w) :
    (clampCol N hN v).val = min v.toInt.toNat (N - 1) := rfl

/-- The dimension numbers of `x[:, idx]` for `x : [C, N]`, the indices as `[E, 1]`, the result `[C, E]`: whole columns. -/
abbrev colDims (C N E : Nat) (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The start-indices index at which result index `j` reads its one start index component: `[e, 0]` for `j = (c, e)`. -/
theorem colDims_siIdx {C N E : Nat}
    (wf : GatherDims.WF ⟨2, ![C, N]⟩ ⟨2, ![E, 1]⟩ ⟨2, ![C, E]⟩ [0] [1] [] [1] [] 1 ![C, 1])
    (j : (⟨2, ![C, E]⟩ : Shape).Idx) (hc : List.idxOf (1 : Fin 2) (colDims C N E wf).startIndexMap < (colDims C N E wf).startIndexMap.length) :
    (colDims C N E wf).siIdx j ⟨List.idxOf (1 : Fin 2) (colDims C N E wf).startIndexMap, hc⟩ = ix2 (j 1) (0 : Fin 1) := by
  funext b
  refine Fin.ext ?_
  match b with
  | ⟨0, _⟩ => rfl
  | ⟨1, _⟩ => rfl

/-- On the table's feature axis (the slice's whole extent) the operand index is the result's first coordinate. -/
theorem colDims_operandIdx_zero {C N E w : Nat}
    (wf : GatherDims.WF ⟨2, ![C, N]⟩ ⟨2, ![E, 1]⟩ ⟨2, ![C, E]⟩ [0] [1] [] [1] [] 1 ![C, 1])
    (idx : IVec ⟨2, ![E, 1]⟩ w) (j : (⟨2, ![C, E]⟩ : Shape).Idx) :
    ((colDims C N E wf).operandIdx j idx (0 : Fin 2)).val = (j 0).val := by
  show (colDims C N E wf).start j idx (0 : Fin 2) + (colDims C N E wf).batchCoord j (0 : Fin 2)
    + (colDims C N E wf).offCoord j (0 : Fin 2) = _
  have hmap : ¬ (0 : Fin 2) ∈ (colDims C N E wf).startIndexMap := by
    show ¬ (0 : Fin 2) ∈ ([1] : List (Fin 2)); decide
  have hkept : (0 : Fin 2) ∈ (colDims C N E wf).sKept :=
    (GatherDims.mem_sKept _ _).mpr ⟨by show ¬ (0 : Fin 2) ∈ ([1] : List (Fin 2)); decide, List.not_mem_nil⟩
  have hstart : (colDims C N E wf).start j idx (0 : Fin 2) = 0 := by
    unfold GatherDims.start; rw [dif_neg hmap]
  rw [hstart, GatherDims.batchCoord_eq_zero _ _ _ List.not_mem_nil]
  simp only [Nat.zero_add]
  unfold GatherDims.offCoord
  rw [dif_pos hkept]
  rfl

/-- On the table's node axis (collapsed) the operand index is the clamped start index `idx[e, 0]`. -/
theorem colDims_operandIdx_one {C N E w : Nat} (hN : 0 < N)
    (wf : GatherDims.WF ⟨2, ![C, N]⟩ ⟨2, ![E, 1]⟩ ⟨2, ![C, E]⟩ [0] [1] [] [1] [] 1 ![C, 1])
    (idx : IVec ⟨2, ![E, 1]⟩ w) (j : (⟨2, ![C, E]⟩ : Shape).Idx) :
    ((colDims C N E wf).operandIdx j idx (1 : Fin 2)).val = (clampCol N hN (idx (ix2 (j 1) (0 : Fin 1)))).val := by
  show (colDims C N E wf).start j idx (1 : Fin 2) + (colDims C N E wf).batchCoord j (1 : Fin 2)
    + (colDims C N E wf).offCoord j (1 : Fin 2) = _
  have hmap : (1 : Fin 2) ∈ (colDims C N E wf).startIndexMap := List.mem_singleton.mpr rfl
  have hnot : ¬ (1 : Fin 2) ∈ (colDims C N E wf).sKept :=
    fun h => ((GatherDims.mem_sKept _ _).mp h).1 (List.mem_singleton.mpr rfl)
  rw [GatherDims.batchCoord_eq_zero _ _ _ List.not_mem_nil, GatherDims.offCoord_eq_zero _ _ _ hnot]
  simp only [Nat.add_zero]
  unfold GatherDims.start
  rw [dif_pos hmap, colDims_siIdx wf j]
  rfl

/-- Entry `(c, e)` of the gather is the table's entry `c` of the column at the clamped start index `idx[e, 0]`. -/
theorem gather_col_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (j : (⟨2, ![C, E]⟩ : Shape).Idx) :
    Host.gather (colDims C N E wf) x idx j = x (ix2 (j 0) (clampCol N hN (idx (ix2 (j 1) (0 : Fin 1))))) := by
  unfold Host.gather
  refine congrArg x (funext fun a => Fin.ext ?_)
  match a with
  | ⟨0, _⟩ => exact colDims_operandIdx_zero wf idx j
  | ⟨1, _⟩ => exact colDims_operandIdx_one hN wf idx j

end Idealize.ShloMosaic.ColGather

end
-- ==== Proof.HostIn.lean ====
import proofs.«424817_j3289944949007_3_alg».proof.Proof.KSpec
import proofs.«424817_j3289944949007_3_alg».proof.Proof.Gen.KernelIdeal.Frame
import proofs.«424817_j3289944949007_3_alg».proof.Proof.LibGatherCol
import Idealize.ShloMosaic.Lib.Pipeline.Value
import Idealize.ShloMosaic.Lib.KernelVsHost
import Idealize.ShloMosaic.Lib.ValueLayout

noncomputable section

namespace Cert.EdgeNet

open Idealize.ShloMosaic Idealize.ShloMosaic.ValueIdx Cert.KernelIdeal Cert.KernelIdeal.Gen

variable (m : (ℓ : Loc nD τ sig) → Buf (Elt Ideal) ℓ)

/-! ## Words: an index in range passes the clip, the wrap and the range test unchanged -/

/-- A word in `[0, 100000)` (read signed) is left alone by the clip into `[0, 99999]`: the signed maximum with 0, then
    the signed minimum with 99999. -/
theorem clip_word (x : BitVec 32) (h0 : 0 ≤ x.toInt) (h1 : x.toInt < 100000) :
    IntOp.minsi 99999#32 (IntOp.maxsi 0#32 x) = x := by
  have z0 : (0#32 : BitVec 32).toInt = 0 := by decide
  have z1 : (99999#32 : BitVec 32).toInt = 99999 := by decide
  have hmax : IntOp.maxsi 0#32 x = x := by
    unfold IntOp.maxsi
    exact if_neg (fun hs => by rw [BitVec.slt_iff_toInt_lt, z0] at hs; omega)
  rw [hmax]
  unfold IntOp.minsi
  exact if_neg (fun hs => by rw [BitVec.slt_iff_toInt_lt, z1] at hs; omega)

/-- A word that is not negative (read signed) is left alone by the wrap `x < 0 ? x + 100000 : x`. -/
theorem wrap_word (x : BitVec 32) (h0 : 0 ≤ x.toInt) :
    Scalar.select (IntOp.cmpi .slt x 0#32) (IntOp.addi x 100000#32) x = x := by
  have z0 : (0#32 : BitVec 32).toInt = 0 := by decide
  have hs : x.slt 0#32 = false := by
    cases hb : x.slt 0#32
    · rfl
    · rw [BitVec.slt_iff_toInt_lt, z0] at hb; omega
  have hc : IntOp.cmpi .slt x 0#32 = 0#1 := by
    show BitVec.ofBool (x.slt 0#32) = 0#1
    rw [hs]; rfl
  rw [hc]
  exact select_zero _ _

/-- A word in `[0, 100000)` passes the range test `0 ≤ x ∧ x ≤ 99999`. -/
theorem mask_word (x : BitVec 32) (h0 : 0 ≤ x.toInt) (h1 : x.toInt < 100000) :
    IntOp.andi (IntOp.cmpi .sge x 0#32) (IntOp.cmpi .sle x 99999#32) = 1#1 := by
  have z0 : (0#32 : BitVec 32).toInt = 0 := by decide
  have z1 : (99999#32 : BitVec 32).toInt = 99999 := by decide
  have a : (0#32 : BitVec 32).sle x = true := BitVec.sle_iff_toInt_le.mpr (by rw [z0]; exact h0)
  have b : x.sle 99999#32 = true := BitVec.sle_iff_toInt_le.mpr (by rw [z1]; omega)
  show IntOp.andi (BitVec.ofBool ((0#32 : BitVec 32).sle x)) (BitVec.ofBool (x.sle 99999#32)) = 1#1
  rw [a, b]
  decide

/-! ## A reduction by `and` of an operand that is 1 everywhere -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_andi_one f hf l

/-- A reduce by `and` from the initial value 1 over an operand that is 1 everywhere is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) (fun n => hx _) _

/-- A cast along an equation between a type and itself is the identity. -/
theorem cast_self' {α : Sort _} (h : α = α) (a : α) : cast h a = a := (cast_eq h a).trans rfl

/-! ## The host operations before the launch, as functions of the arguments -/

/-- One row of the edge list as a vector of words: the row sliced out at offset `off`, its unit axis dropped. -/
def eiRow (off : Fin 2 → Nat) (hs : S2x3200000.Slices off S1x3200000) (ei : IVec S2x3200000 32) : IVec S3200000 32 :=
  shapeCast S3200000 (extractStridedSlice S1x3200000 off ei hs) Facts₀.shapeCasts_S1x3200000_S3200000

/-- Entry `e` of row `r` of the edge list. -/
theorem eiRow_apply (off : Fin 2 → Nat) (hs : S2x3200000.Slices off S1x3200000) (ei : IVec S2x3200000 32)
    (r : Fin 2) (h0 : off 0 = r.val) (h1 : off 1 = 0) (e : Fin 3200000) :
    eiRow off hs ei (ix1 e) = ei (ix2 r e) := by
  unfold eiRow
  refine (shapeCast_apply _ Facts₀.shapeCasts_S1x3200000_S3200000 (ix1 e) (ix2 (0 : Fin 1) e) ?_).trans ?_
  · rw [Shape.rowMajor_val_two, Shape.rowMajor_val_one]
    show 0 * 3200000 + e.val = e.val
    omega
  · exact extractStridedSlice_apply off ei hs (ix2 (0 : Fin 1) e) (ix2 r e) (fun a => match a with
      | ⟨0, _⟩ => by show r.val = off 0 + 0; omega
      | ⟨1, _⟩ => by show e.val = off 1 + e.val; omega)

/-- The clip of an index vector into `[0, 99999]`, as the host computes it: the maximum with 0, then the minimum with 99999. -/
def clipV (v : IVec S3200000 32) : IVec S3200000 32 :=
  minsi (broadcastInDim S3200000 ![] Facts₀.bcast_S_S3200000 (id (constantI S_ 32 99999#32)))
    (maxsi (broadcastInDim S3200000 ![] Facts₀.bcast_S_S3200000 (id (constantI S_ 32 0#32))) v)

/-- The clip at an entry. -/
theorem clipV_apply (v : IVec S3200000 32) (i : S3200000.Idx) :
    clipV v i = IntOp.minsi 99999#32 (IntOp.maxsi 0#32 (v i)) := rfl

/-- The index column of the gather: each index, a negative one moved up by the table's 100000 columns, as `[E, 1]`. -/
def takeCol (v : IVec S3200000 32) : IVec S3200000x1 32 :=
  broadcastInDim S3200000x1 ![0] Facts₀.bcast_S3200000_S3200000x1_0
    (select (cmpi .slt v (broadcastInDim S3200000 ![] Facts₀.bcast_S_S3200000 (constantI S_ 32 0#32)))
      (addi v (broadcastInDim S3200000 ![] Facts₀.bcast_S_S3200000 (constantI S_ 32 100000#32))) v)

/-- The index column at `(e, 0)`. -/
theorem takeCol_apply (v : IVec S3200000 32) (e : Fin 3200000) :
    takeCol v (ix2 e (0 : Fin 1))
      = Scalar.select (IntOp.cmpi .slt (v (ix1 e)) 0#32) (IntOp.addi (v (ix1 e)) 100000#32) (v (ix1 e)) := by
  have hne : ¬ ((3200000 : ℕ) = 1) := by decide
  unfold takeCol
  exact broadcastInDim_apply _ Facts₀.bcast_S3200000_S3200000x1_0 _ (ix2 e (0 : Fin 1)) (ix1 e)
    (fun a => match a with | ⟨0, _⟩ => (if_neg hne).symm)

/-- The range test of the gather on the index column: `0 ≤ idx ∧ idx ≤ 99999`, reduced with `and` over the unit axis. -/
def takeMask (i : IVec S3200000x1 32) : IVec S3200000 1 :=
  Host.reduce IntOp.andi
    (andi (cmpi .sge i (broadcastInDim S3200000x1 ![] Facts₀.bcast_S_S3200000x1 (constantI S_ 32 0#32)))
      (cmpi .sle i (broadcastInDim S3200000x1 ![0, 1] Facts₀.bcast_S1x1_S3200000x1_0_1
        (broadcastInDim S1x1 ![1] Facts₀.bcast_S1_S1x1_1 (constantI S1 32 99999#32)))))
    (constantI S_ 1 1#1) Facts₀.reducesTo_S3200000x1_S3200000_d1 Facts₀.h_S_

/-- On an index column in range the test passes everywhere. -/
theorem takeMask_eq_one (i : IVec S3200000x1 32) (hi : ∀ q, 0 ≤ (i q).toInt ∧ (i q).toInt < 100000) (p : S3200000.Idx) :
    takeMask i p = 1#1 := by
  unfold takeMask
  refine reduce_andi_of_all _ _ _ _ ?_ ?_ p
  · intro q
    exact mask_word (i q) (hi q).1 (hi q).2
  · rfl

/-- The gather of the feature-major node table at an index vector, out-of-range entries filled with NaN. -/
def takeV (xt : FVec Ideal S8x100000 .f32) (v : IVec S3200000 32) : FVec Ideal S8x3200000 .f32 :=
  select (broadcastInDim S8x3200000 ![1] Facts₀.bcast_S3200000_S8x3200000_1 (takeMask (takeCol v)))
    (Host.gather gather_S8x100000_S3200000x1_S8x3200000_0_1_n_n_1_1_81 xt (takeCol v))
    (broadcastInDim S8x3200000 ![] Facts₀.bcast_S_S8x3200000 (constant (F := Ideal) S_ .f32 0x7FC00000#32))

/-- With every index in range, entry `(k, e)` of the gather is the table's entry `k` of the column index `e` names. -/
theorem takeV_apply (xt : FVec Ideal S8x100000 .f32) (v : IVec S3200000 32)
    (hv : ∀ i, 0 ≤ (v i).toInt ∧ (v i).toInt < 100000) (k : Fin 8) (e : Fin 3200000) :
    takeV xt v (ix2 k e) = xt (ix2 k (nodeRow (v (ix1 e)))) := by
  have hne : ¬ ((3200000 : ℕ) = 1) := by decide
  have hcol : ∀ p : Fin 3200000, takeCol v (ix2 p (0 : Fin 1)) = v (ix1 p) := fun p =>
    (takeCol_apply v p).trans (wrap_word _ (hv (ix1 p)).1)
  have hcolq : ∀ q : S3200000x1.Idx, 0 ≤ (takeCol v q).toInt ∧ (takeCol v q).toInt < 100000 := by
    intro q
    obtain ⟨p, z, rfl⟩ : ∃ (p : Fin 3200000) (z : Fin 1), q = ix2 p z := ⟨q 0, q 1, eq_ix2 q⟩
    obtain rfl : z = 0 := Subsingleton.elim _ _
    rw [hcol p]
    exact hv _
  have hm : broadcastInDim S8x3200000 ![1] Facts₀.bcast_S3200000_S8x3200000_1 (takeMask (takeCol v)) (ix2 k e) = 1#1 :=
    (broadcastInDim_apply _ Facts₀.bcast_S3200000_S8x3200000_1 _ (ix2 k e) (ix1 e)
      (fun a => match a with | ⟨0, _⟩ => (if_neg hne).symm)).trans (takeMask_eq_one _ hcolq _)
  have hg : Host.gather gather_S8x100000_S3200000x1_S8x3200000_0_1_n_n_1_1_81 xt (takeCol v) (ix2 k e)
      = xt (ix2 k (nodeRow (v (ix1 e)))) := by
    refine (ColGather.gather_col_apply (by decide : 0 < 100000)
      Facts₀.gather_S8x100000_S3200000x1_S8x3200000_0_1_n_n_1_1_81_wf xt (takeCol v) (ix2 k e)).trans ?_
    show xt (ix2 k (ColGather.clampCol 100000 _ (takeCol v (ix2 e (0 : Fin 1))))) = _
    rw [hcol e]
    rfl
  unfold takeV
  refine (select_apply _ _ _ _).trans ?_
  rw [hm, hg]
  exact select_one _ _

/-- The padding of the gathered features to the grid's 3211264 columns, with the value 0 converted to a float. -/
def padV (y : FVec Ideal S8x3200000 .f32) : FVec Ideal S8x3211264 .f32 :=
  pad S8x3211264 ![0, 0] ![0, 11264] ![0, 0] y (sitofp (F := Ideal) .f32 (constantI S_ 32 0#32))
    Facts₀.pads_S8x3200000_S8x3211264_000_0112640 Facts₀.h_S_

/-- A column of a real edge is not padding. -/
theorem padV_apply (y : FVec Ideal S8x3200000 .f32) (k : Fin 8) (e : Fin 3200000) :
    padV y (ix2 k (⟨e.val, by omega⟩ : Fin 3211264)) = y (ix2 k e) := by
  unfold padV
  exact pad_apply_of_inside _ _ _ y _ _ _ (ix2 k (⟨e.val, by omega⟩ : Fin 3211264)) (ix2 k e) (fun a => match a with
    | ⟨0, _⟩ => by show k.val = 0 + k.val * (0 + 1); omega
    | ⟨1, _⟩ => by show e.val = 0 + e.val * (0 + 1); omega)

/-- The node table feature-major: the transpose. -/
def xT (x : FVec Ideal S100000x8 .f32) : FVec Ideal S8x100000 .f32 :=
  transpose S8x100000 [1, 0] x Facts₀.transposes_S100000x8_S8x100000_1_0

/-- A launch operand read at a real edge's column: under the range hypothesis on the edge list, entry `(k, e)` is
    feature `k` of the node that row `r` of the edge list names at `e`. -/
theorem operand_apply (off : Fin 2 → Nat) (hs : S2x3200000.Slices off S1x3200000) (r : Fin 2) (h0 : off 0 = r.val)
    (h1 : off 1 = 0) (x : FVec Ideal S100000x8 .f32) (ei : IVec S2x3200000 32) (h : InRange ei) (k : Fin 8)
    (e : Fin 3200000) :
    padV (takeV (xT x) (clipV (eiRow off hs ei))) (ix2 k (⟨e.val, by omega⟩ : Fin 3211264))
      = x (ix2 (nodeRow (ei (ix2 r e))) k) := by
  have hrow : ∀ p : Fin 3200000, clipV (eiRow off hs ei) (ix1 p) = ei (ix2 r p) := fun p => by
    rw [clipV_apply, eiRow_apply off hs ei r h0 h1 p]
    exact clip_word _ (h _).1 (h _).2
  have hv : ∀ i : S3200000.Idx,
      0 ≤ (clipV (eiRow off hs ei) i).toInt ∧ (clipV (eiRow off hs ei) i).toInt < 100000 := fun i => by
    obtain ⟨p, rfl⟩ : ∃ p : Fin 3200000, i = ix1 p := ⟨i 0, eq_ix1 i⟩
    rw [hrow p]
    exact h _
  rw [padV_apply, takeV_apply _ _ hv, hrow]
  exact transpose_ix2_apply x _ k _

/-- The first operand's array when the launch starts, as a function of the arguments. -/
theorem V_main_v10_eq (c : Dev nD) :
    (V m c main_v10 : S8x3211264.Idx → EReal)
      = padV (takeV (xT (m ((c.tc : Thread nD τ).loc main_arg0)))
          (clipV (eiRow ![0, 0] Facts₀.slices_S2x3200000_S1x3200000_0_0 (m ((c.tc : Thread nD τ).loc main_arg1))))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp <;> (try simp only [StableHlo.TRef.toBuf, StableHlo.TRef.ofBuf, cast_cast, cast_self']) <;> rfl

/-- The second operand's array when the launch starts. -/
theorem V_main_v11_eq (c : Dev nD) :
    (V m c main_v11 : S8x3211264.Idx → EReal)
      = padV (takeV (xT (m ((c.tc : Thread nD τ).loc main_arg0)))
          (clipV (eiRow ![1, 0] Facts₀.slices_S2x3200000_S1x3200000_1_0 (m ((c.tc : Thread nD τ).loc main_arg1))))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp <;> (try simp only [StableHlo.TRef.toBuf, StableHlo.TRef.ofBuf, cast_cast, cast_self']) <;> rfl

/-- The first operand of the launch (source-node features, feature-major, padded): column `e` of a real edge is
    the feature row of the node the edge list's row 0 names at `e`. -/
theorem win0_value (c : Dev nD) (h : InRange (m ((c.tc : Thread nD τ).loc main_arg1))) (k : Fin 8) (e : Fin 3200000) :
    V m c main_v10 (ix2 k (⟨e.val, by omega⟩ : Fin 3211264))
      = m ((c.tc : Thread nD τ).loc main_arg0) (ix2 (nodeRow (m ((c.tc : Thread nD τ).loc main_arg1) (ix2 (0 : Fin 2) e))) k) := by
  refine (congrFun (V_main_v10_eq m c) _).trans ?_
  exact operand_apply ![0, 0] Facts₀.slices_S2x3200000_S1x3200000_0_0 0 rfl rfl _ _ h k e

/-- The second operand (target-node features): the same with the edge list's row 1. -/
theorem win1_value (c : Dev nD) (h : InRange (m ((c.tc : Thread nD τ).loc main_arg1))) (k : Fin 8) (e : Fin 3200000) :
    V m c main_v11 (ix2 k (⟨e.val, by omega⟩ : Fin 3211264))
      = m ((c.tc : Thread nD τ).loc main_arg0) (ix2 (nodeRow (m ((c.tc : Thread nD τ).loc main_arg1) (ix2 (1 : Fin 2) e))) k) := by
  refine (congrFun (V_main_v11_eq m c) _).trans ?_
  exact operand_apply ![1, 0] Facts₀.slices_S2x3200000_S1x3200000_1_0 1 rfl rfl _ _ h k e

end Cert.EdgeNet

end
-- ==== Proof.HostW.lean ====
import proofs.«424817_j3289944949007_3_alg».proof.Proof.KSpec
import proofs.«424817_j3289944949007_3_alg».proof.Proof.Gen.KernelIdeal.Frame
import Idealize.ShloMosaic.Lib.ValueLayout
import Idealize.ShloMosaic.Lib.KernelVsHost

noncomputable section

namespace Cert.EdgeNet

open Idealize.ShloMosaic Idealize.ShloMosaic.ValueIdx Cert.KernelIdeal Cert.KernelIdeal.Gen

variable (m : (ℓ : Loc nD τ sig) → Buf (Elt Ideal) ℓ)

/-! ## The host operations before the launch, cut in two

The four arrays are written late: the three weight arrays by the last stretch of host operations, the edge features by
the last seven stretches; and all of them from arguments that no host operation writes. So the buffers' contents at
the launch are read off the last stretches alone, over whatever the earlier ones left. -/

/-- The contents after the host operations before the edge features are transposed. -/
def pre7 (c : Dev nD) : Valuation τ sig (Elt Ideal) :=
  StableHlo.after (List.flatten [hostOps0, hostOps0_1, hostOps0_2, hostOps0_3, hostOps0_4, hostOps0_5, hostOps0_6]) (fun b => m (c, b))

/-- The contents after the host operations before the last stretch. -/
def pre13 (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))

/-- The stretches from the edge features' transpose on. -/
abbrev tailOps : List (HloOp τ sig (Elt Ideal)) := List.flatten [hostOps0_7, hostOps0_8, hostOps0_9, hostOps0_10, hostOps0_11, hostOps0_12, hostOps0_13]

/-- The contents at the launch are the last seven stretches run over `pre7`. -/
theorem V0_split7 (c : Dev nD) : V0 m c = StableHlo.after tailOps (pre7 m c) := by
  dsimp only [Gen.V0, tailOps]
  unfold pre7
  rw [← StableHlo.after_append]
  simp only [List.flatten_cons, List.flatten_nil, List.append_nil, List.append_assoc]

/-- The contents at the launch are the last stretch run over `pre13`. -/
theorem V0_split13 (c : Dev nD) : V0 m c = StableHlo.after (hostOps0_13 (F := Ideal)) (pre13 m c) := by
  dsimp only [Gen.V0]
  unfold pre13
  rw [← StableHlo.after_append]
  simp only [List.flatten_cons, List.flatten_nil, List.append_nil, List.append_assoc]

/-! ## The last stretch, over any contents -/

/-- The first layer's weights: the argument's contents transposed, then narrowed (the identity at this reading). -/
theorem last_v14 (W : Valuation τ sig (Elt Ideal)) :
    @Eq (S16x20.Idx → EReal) (StableHlo.after (hostOps0_13 (F := Ideal)) W (Proc.devRef .tc main_v14))
      (truncf (F := Ideal) .bf16 (transpose S16x20 [1, 0] (W (Proc.devRef .tc main_arg3) : S20x16.Idx → EReal)
        transposes_S20x16_S16x20_1_0) bitsLt_bf16_f32) := by
  after_results

/-- The second layer's weights: the argument's contents transposed, then narrowed. -/
theorem last_v16 (W : Valuation τ sig (Elt Ideal)) :
    @Eq (S16x16.Idx → EReal) (StableHlo.after (hostOps0_13 (F := Ideal)) W (Proc.devRef .tc main_v16))
      (truncf (F := Ideal) .bf16 (transpose S16x16 [1, 0] (W (Proc.devRef .tc main_arg7) : S16x16.Idx → EReal)
        transposes_S16x16_S16x16_1_0) bitsLt_bf16_f32) := by
  after_results

/-- The last layer's weights: the argument's contents transposed, then narrowed. -/
theorem last_v18 (W : Valuation τ sig (Elt Ideal)) :
    @Eq (S4x16.Idx → EReal) (StableHlo.after (hostOps0_13 (F := Ideal)) W (Proc.devRef .tc main_v18))
      (truncf (F := Ideal) .bf16 (transpose S4x16 [1, 0] (W (Proc.devRef .tc main_arg11) : S16x4.Idx → EReal)
        transposes_S16x4_S4x16_1_0) bitsLt_bf16_f32) := by
  after_results

/-- The last stretch leaves the first layer's weight argument as it was. -/
theorem last_arg3 (W : Valuation τ sig (Elt Ideal)) :
    StableHlo.after (hostOps0_13 (F := Ideal)) W (Proc.devRef .tc main_arg3) = W (Proc.devRef .tc main_arg3) := by
  after_results

/-- The last stretch leaves the second layer's weight argument as it was. -/
theorem last_arg7 (W : Valuation τ sig (Elt Ideal)) :
    StableHlo.after (hostOps0_13 (F := Ideal)) W (Proc.devRef .tc main_arg7) = W (Proc.devRef .tc main_arg7) := by
  after_results

/-- The last stretch leaves the last layer's weight argument as it was. -/
theorem last_arg11 (W : Valuation τ sig (Elt Ideal)) :
    StableHlo.after (hostOps0_13 (F := Ideal)) W (Proc.devRef .tc main_arg11) = W (Proc.devRef .tc main_arg11) := by
  after_results

/-! ## The last seven stretches, over any contents -/

/-- The edge features: the argument's contents transposed, then 11264 columns of the word for zero appended. -/
theorem tail_v12 (W : Valuation τ sig (Elt Ideal)) :
    @Eq (S4x3211264.Idx → EReal) (StableHlo.after tailOps W (Proc.devRef .tc main_v12))
      (pad S4x3211264 ![0, 0] ![0, 11264] ![0, 0]
        (transpose S4x3200000 [1, 0] (W (Proc.devRef .tc main_arg2) : S3200000x4.Idx → EReal)
          transposes_S3200000x4_S4x3200000_1_0)
        (sitofp (F := Ideal) .f32 (constantI S_ 32 0#32))
        pads_S4x3200000_S4x3211264_000_0112640 h_S_) := by
  simp only [tailOps, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results
  rfl

/-- The last seven stretches leave the edge feature argument as it was. -/
theorem tail_arg2 (W : Valuation τ sig (Elt Ideal)) :
    StableHlo.after tailOps W (Proc.devRef .tc main_arg2) = W (Proc.devRef .tc main_arg2) := by
  simp only [tailOps, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results

/-! ## The arguments before the cuts: as launched -/

theorem pre7_arg2 (c : Dev nD) : pre7 m c (Proc.devRef .tc main_arg2) = m ((c.tc : Thread nD τ).loc main_arg2) := by
  have h1 := tail_arg2 (pre7 m c)
  have h2 : V0 m c (Proc.devRef .tc main_arg2) = StableHlo.after tailOps (pre7 m c) (Proc.devRef .tc main_arg2) :=
    congrFun (V0_split7 m c) _
  exact (h1.symm.trans h2.symm).trans (Gen.V_main_arg2 m c)

theorem pre13_arg3 (c : Dev nD) : pre13 m c (Proc.devRef .tc main_arg3) = m ((c.tc : Thread nD τ).loc main_arg3) := by
  have h1 := last_arg3 (pre13 m c)
  have h2 : V0 m c (Proc.devRef .tc main_arg3)
      = StableHlo.after (hostOps0_13 (F := Ideal)) (pre13 m c) (Proc.devRef .tc main_arg3) := congrFun (V0_split13 m c) _
  exact (h1.symm.trans h2.symm).trans (Gen.V_main_arg3 m c)

theorem pre13_arg7 (c : Dev nD) : pre13 m c (Proc.devRef .tc main_arg7) = m ((c.tc : Thread nD τ).loc main_arg7) := by
  have h1 := last_arg7 (pre13 m c)
  have h2 : V0 m c (Proc.devRef .tc main_arg7)
      = StableHlo.after (hostOps0_13 (F := Ideal)) (pre13 m c) (Proc.devRef .tc main_arg7) := congrFun (V0_split13 m c) _
  exact (h1.symm.trans h2.symm).trans (Gen.V_main_arg7 m c)

theorem pre13_arg11 (c : Dev nD) : pre13 m c (Proc.devRef .tc main_arg11) = m ((c.tc : Thread nD τ).loc main_arg11) := by
  have h1 := last_arg11 (pre13 m c)
  have h2 : V0 m c (Proc.devRef .tc main_arg11)
      = StableHlo.after (hostOps0_13 (F := Ideal)) (pre13 m c) (Proc.devRef .tc main_arg11) := congrFun (V0_split13 m c) _
  exact (h1.symm.trans h2.symm).trans (Gen.V_main_arg11 m c)

/-! ## The launched arrays as terms of the arguments -/

/-- The first layer's weights as launched: the argument transposed, then narrowed. -/
theorem w1_term (c : Dev nD) : @Eq (S16x20.Idx → EReal) (V m c main_v14)
    (truncf (F := Ideal) .bf16 (transpose S16x20 [1, 0] (m ((c.tc : Thread nD τ).loc main_arg3) : S20x16.Idx → EReal)
      transposes_S20x16_S16x20_1_0) bitsLt_bf16_f32) := by
  have h := last_v14 (pre13 m c)
  rw [pre13_arg3 m c] at h
  exact (congrFun (V0_split13 m c) (Proc.devRef .tc main_v14)).trans h

/-- The second layer's weights as launched: the argument transposed, then narrowed. -/
theorem w2_term (c : Dev nD) : @Eq (S16x16.Idx → EReal) (V m c main_v16)
    (truncf (F := Ideal) .bf16 (transpose S16x16 [1, 0] (m ((c.tc : Thread nD τ).loc main_arg7) : S16x16.Idx → EReal)
      transposes_S16x16_S16x16_1_0) bitsLt_bf16_f32) := by
  have h := last_v16 (pre13 m c)
  rw [pre13_arg7 m c] at h
  exact (congrFun (V0_split13 m c) (Proc.devRef .tc main_v16)).trans h

/-- The last layer's weights as launched: the argument transposed, then narrowed. -/
theorem w3_term (c : Dev nD) : @Eq (S4x16.Idx → EReal) (V m c main_v18)
    (truncf (F := Ideal) .bf16 (transpose S4x16 [1, 0] (m ((c.tc : Thread nD τ).loc main_arg11) : S16x4.Idx → EReal)
      transposes_S16x4_S4x16_1_0) bitsLt_bf16_f32) := by
  have h := last_v18 (pre13 m c)
  rw [pre13_arg11 m c] at h
  exact (congrFun (V0_split13 m c) (Proc.devRef .tc main_v18)).trans h

/-- The edge features as launched: the argument transposed, then 11264 columns of the word for zero appended. -/
theorem win2_term (c : Dev nD) : @Eq (S4x3211264.Idx → EReal) (V m c main_v12)
    (pad S4x3211264 ![0, 0] ![0, 11264] ![0, 0]
      (transpose S4x3200000 [1, 0] (m ((c.tc : Thread nD τ).loc main_arg2) : S3200000x4.Idx → EReal)
        transposes_S3200000x4_S4x3200000_1_0)
      (sitofp (F := Ideal) .f32 (constantI S_ 32 0#32))
      pads_S4x3200000_S4x3211264_000_0112640 h_S_) := by
  have h := tail_v12 (pre7 m c)
  rw [pre7_arg2 m c] at h
  exact (congrFun (V0_split7 m c) (Proc.devRef .tc main_v12)).trans h

/-- The third operand (edge features, feature-major, padded): column `e` of a real edge is the edge's feature row. -/
theorem win2_value (c : Dev nD) (k : Fin 4) (e : Fin 3200000) :
    V m c main_v12 (ix2 k (⟨e.val, by omega⟩ : Fin 3211264)) = m ((c.tc : Thread nD τ).loc main_arg2) (ix2 e k) := by
  refine (congrFun (win2_term m c) (ix2 k (⟨e.val, by omega⟩ : Fin 3211264))).trans ?_
  refine (pad_apply_of_inside _ _ _ _ _ pads_S4x3200000_S4x3211264_000_0112640 h_S_ _ (ix2 k e) (by
    intro a
    match a with
    | ⟨0, _⟩ => show k.val = 0 + k.val * (0 + 1); omega
    | ⟨1, _⟩ => show e.val = 0 + e.val * (0 + 1); omega)).trans ?_
  exact transpose_ix2_apply _ _ k e

/-- The first layer's weights as launched: transposed. -/
theorem w1_value (c : Dev nD) (j : Fin 16) (k : Fin 20) :
    V m c main_v14 (ix2 j k) = m ((c.tc : Thread nD τ).loc main_arg3) (ix2 k j) := by
  refine (congrFun (w1_term m c) (ix2 j k)).trans ?_
  rw [truncf_apply]
  exact transpose_ix2_apply _ _ j k

/-- The second layer's weights as launched: transposed. -/
theorem w2_value (c : Dev nD) (j : Fin 16) (k : Fin 16) :
    V m c main_v16 (ix2 j k) = m ((c.tc : Thread nD τ).loc main_arg7) (ix2 k j) := by
  refine (congrFun (w2_term m c) (ix2 j k)).trans ?_
  rw [truncf_apply]
  exact transpose_ix2_apply _ _ j k

/-- The last layer's weights as launched: transposed. -/
theorem w3_value (c : Dev nD) (o : Fin 4) (j : Fin 16) :
    V m c main_v18 (ix2 o j) = m ((c.tc : Thread nD τ).loc main_arg11) (ix2 j o) := by
  refine (congrFun (w3_term m c) (ix2 o j)).trans ?_
  rw [truncf_apply]
  exact transpose_ix2_apply _ _ o j

end Cert.EdgeNet

end
-- ==== Proof.KernelValue.lean ====
import proofs.«424817_j3289944949007_3_alg».proof.Proof.Result
import proofs.«424817_j3289944949007_3_alg».proof.Proof.Blocks
import proofs.«424817_j3289944949007_3_alg».proof.Proof.Tail
import proofs.«424817_j3289944949007_3_alg».proof.Proof.HostIn
import proofs.«424817_j3289944949007_3_alg».proof.Proof.HostW
import proofs.«424817_j3289944949007_3_alg».proof.Proof.Gen.KernelIdeal.Frame

noncomputable section

namespace Cert.EdgeNet

open Idealize.ShloMosaic Idealize.ShloMosaic.ValueIdx Cert.KernelIdeal Cert.KernelIdeal.Gen Idealize.SL.Sem

variable (m : (ℓ : Loc nD τ sig) → Buf (Elt Ideal) ℓ) (ρ : Dev nD → PrngReg)

/-- The launch's parameters are the arguments': the weight matrices reach the kernel transposed, the vectors as they are. -/
theorem launchParams_eq (c : Dev nD) :
    launchParams m c = paramsRM (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12)) := by
  unfold launchParams paramsFM paramsRM
  rw [Params.mk.injEq]
  refine ⟨?_, ?_, ?_, ?_, ?_, ?_, ?_, ?_, ?_, ?_⟩
  · funext k j; exact w1_value m c j k
  · funext j; exact congrFun (V_main_arg4 m c) (ix1 j)
  · funext j; exact congrFun (V_main_arg5 m c) (ix1 j)
  · funext j; exact congrFun (V_main_arg6 m c) (ix1 j)
  · funext k j; exact w2_value m c j k
  · funext j; exact congrFun (V_main_arg8 m c) (ix1 j)
  · funext j; exact congrFun (V_main_arg9 m c) (ix1 j)
  · funext j; exact congrFun (V_main_arg10 m c) (ix1 j)
  · funext k j; exact w3_value m c j k
  · funext j; exact congrFun (V_main_arg12 m c) (ix1 j)

/-- The program's result buffer after the run, where every entry of the edge list is a node: the function of the
    arguments that the reference computes. -/
theorem kernel_result (c : Dev nD) (h : InRange (m ((c.tc : Thread nD τ).loc main_arg1))) :
    Pipeline.afterTail₀ cfgs (dats m) 0 (V0 m) [hostOps1] c main_v21 = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  obtain ⟨e, o, rfl⟩ : ∃ (e : Fin 3200000) (o : Fin 4), i = ix2 e o := ⟨i 0, i 1, eq_ix2 i⟩
  rw [tail_value, out_array, colNet_apply, launchParams_eq, resultOf_apply]
  refine congrArg (fun v => net _ v o) ?_
  exact edgeRow_congr (fun k => win0_value m c h k e) (fun k => win1_value m c h k e) (fun k => win2_value m c k e)

/-- The kernel program's run, where every entry of the edge list is a node: every weakly fair execution terminates
    with the result at that function of the arguments, and the arguments unchanged. -/
theorem kernel_run (h : ∀ c : Dev nD, InRange (m ((c.tc : Thread nD τ).loc main_arg1))) :
    θ_run defs (onTc (τ := τ) (main (F := Ideal))) ⟨m, fun _ => 0, ρ⟩ fun r => ∀ c : Dev nD,
      r.2.mem ((c.tc : Thread nD τ).loc main_v21) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ hr c => ⟨((hr c).2 main_v21 (Pipeline.mem_restRefs_of main_v21 (by decide) (by decide))).trans (kernel_result m c (h c)),
      (((hr c).2 main_arg0 (Pipeline.mem_restRefs_of main_arg0 (by decide) (by decide))).trans (W_main_arg0 m (dats m) c)),
      (((hr c).2 main_arg1 (Pipeline.mem_restRefs_of main_arg1 (by decide) (by decide))).trans (W_main_arg1 m (dats m) c)),
      (((hr c).2 main_arg2 (Pipeline.mem_restRefs_of main_arg2 (by decide) (by decide))).trans (W_main_arg2 m (dats m) c)),
      (((hr c).2 main_arg3 (Pipeline.mem_restRefs_of main_arg3 (by decide) (by decide))).trans (W_main_arg3 m (dats m) c)),
      ((hr c).1 4).trans (((dats m 0 c).arrAt_in 4 rfl _).trans ((A_eq m c 4).trans (V_main_arg4 m c))),
      ((hr c).1 5).trans (((dats m 0 c).arrAt_in 5 rfl _).trans ((A_eq m c 5).trans (V_main_arg5 m c))),
      ((hr c).1 6).trans (((dats m 0 c).arrAt_in 6 rfl _).trans ((A_eq m c 6).trans (V_main_arg6 m c))),
      (((hr c).2 main_arg7 (Pipeline.mem_restRefs_of main_arg7 (by decide) (by decide))).trans (W_main_arg7 m (dats m) c)),
      ((hr c).1 8).trans (((dats m 0 c).arrAt_in 8 rfl _).trans ((A_eq m c 8).trans (V_main_arg8 m c))),
      ((hr c).1 9).trans (((dats m 0 c).arrAt_in 9 rfl _).trans ((A_eq m c 9).trans (V_main_arg9 m c))),
      ((hr c).1 10).trans (((dats m 0 c).arrAt_in 10 rfl _).trans ((A_eq m c 10).trans (V_main_arg10 m c))),
      (((hr c).2 main_arg11 (Pipeline.mem_restRefs_of main_arg11 (by decide) (by decide))).trans (W_main_arg11 m (dats m) c)),
      ((hr c).1 12).trans (((dats m 0 c).arrAt_in 12 rfl _).trans ((A_eq m c 12).trans (V_main_arg12 m c)))⟩)
    (run_main m ρ)

end Cert.EdgeNet

end
-- ==== Proof.LibGather.lean ====
/-
  A row gather read at an index.

  `x[idx]` of a table `x` at an integer vector `idx` of length `E` lowers to `stablehlo.gather` with the indices
  reshaped to `[E, 1]` (the index vector on axis 1), the table's first axis collapsed and named by the start index
  map, and slice sizes of one row. The result's row `e` is the table's row at the start index `idx[e, 0]` read as a
  signed integer and clamped into `[0, N − 1]`, as StableHLO clamps every start index so that the slice fits.

  Two shapes: a table of scalars `[N]` (result `[E]`), and a table of rows `[N, C]` with the whole row as the slice
  (result `[E, C]`: entry `(e, c)` is the table's `(row, c)`).
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The row a start index word names in a table of `N` rows: the word read signed, clamped into `[0, N − 1]`. -/
def clampRow (N : Nat) (hN : 0 < N) {w : Nat} (v : BitVec w) : Fin N := ⟨min v.toInt.toNat (N - 1), by omega⟩

/-! ## A table of scalars -/

/-- The dimension numbers of `x[idx]` for `x : [N]`, the indices as `[E, 1]`, the result `[E]`. -/
abbrev scalarDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table at the clamped start index `idx[e, 0]`. -/
theorem gather_scalar_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (scalarDims N E wf) x idx j = x (ix1 (clampRow N hN (idx (ix2 (j 0) (0 : Fin 1))))) := by
  unfold Host.gather
  congr 1
  funext a
  obtain rfl : a = 0 := Subsingleton.elim _ _
  refine Fin.ext ?_
  show (scalarDims N E wf).start j idx 0 + (scalarDims N E wf).batchCoord j 0 + (scalarDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (scalarDims N E wf).startIndexMap from List.mem_singleton.mpr rfl)]
  have hsi : (scalarDims N E wf).siIdx j ⟨List.idxOf (0 : Fin 1) (scalarDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A table of rows -/

/-- The dimension numbers of `x[idx]` for `x : [N, C]`, the indices as `[E, 1]`, the result `[E, C]`: whole rows. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- On the table's row axis the operand index is the clamped start index `idx[e, 0]`. -/
theorem rowDims_operandIdx_zero {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (0 : Fin 2)).val = (clampRow N hN (idx (ix2 (j 0) (0 : Fin 1)))).val := by
  show (rowDims N C E wf).start j idx (0 : Fin 2) + (rowDims N C E wf).batchCoord j (0 : Fin 2)
    + (rowDims N C E wf).offCoord j (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx j ⟨List.idxOf (0 : Fin 2) (rowDims N C E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the table's column axis the operand index is the result's column. -/
theorem rowDims_operandIdx_one {N C E w : Nat}
    (wf : GatherDims.WF ⟨2, ![N, C]⟩ ⟨2, ![E, 1]⟩ ⟨2, ![E, C]⟩ [1] [0] [] [0] [] 1 ![1, C])
    (idx : IVec ⟨2, ![E, 1]⟩ w) (j : (⟨2, ![E, C]⟩ : Shape).Idx) :
    ((rowDims N C E wf).operandIdx j idx (1 : Fin 2)).val = (j 1).val := by
  show (rowDims N C E wf).start j idx (1 : Fin 2) + (rowDims N C E wf).batchCoord j (1 : Fin 2)
    + (rowDims N C E wf).offCoord j (1 : Fin 2) = _
  have hnot : ¬ (1 : Fin 2) ∈ (rowDims N C E wf).startIndexMap := by
    show ¬ (1 : Fin 2) ∈ ([0] : List (Fin 2)); decide
  have hkept : (1 : Fin 2) ∈ (rowDims N C E wf).sKept :=
    (GatherDims.mem_sKept _ _).mpr ⟨by show ¬ (1 : Fin 2) ∈ ([0] : List (Fin 2)); decide, List.not_mem_nil⟩
  have h0 : (rowDims N C E wf).start j idx (1 : Fin 2) = 0 := by
    unfold GatherDims.start; rw [dif_neg hnot]
  rw [h0, GatherDims.batchCoord_eq_zero _ _ _ List.not_mem_nil]
  simp only [Nat.zero_add, Nat.add_zero]
  unfold GatherDims.offCoord
  rw [dif_pos hkept]
  rfl

/-- Entry `(e, c)` of the gather is the table's entry `c` of the row at the clamped start index `idx[e, 0]`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowDims N C E wf) x idx j = x (ix2 (clampRow N hN (idx (ix2 (j 0) (0 : Fin 1)))) (j 1)) := by
  unfold Host.gather
  congr 1
  funext a
  refine Fin.ext ?_
  match a with
  | ⟨0, _⟩ => exact rowDims_operandIdx_zero hN wf idx j
  | ⟨1, _⟩ => exact rowDims_operandIdx_one wf idx j

end Idealize.ShloMosaic.RowGather

end
-- ==== Proof.RefValue.lean ====
import proofs.«424817_j3289944949007_3_alg».proof.Proof.KSpec
import proofs.«424817_j3289944949007_3_alg».proof.Proof.LibGather
import proofs.«424817_j3289944949007_3_alg».proof.Proof.RefRead

noncomputable section

namespace Cert.EdgeNet

open Idealize.ShloMosaic Idealize.ShloMosaic.ValueIdx Cert.ReferenceIdeal

/-- A rank-2 index with the given coordinates is `ix2` of them. -/
theorem ix2_of_coords {n0 n1 : Nat} (f : (⟨2, ![n0, n1]⟩ : Shape).Idx) (a : Fin n0) (b : Fin n1)
    (h0 : f 0 = a) (h1 : f 1 = b) : f = ix2 a b := by
  funext d
  match d with
  | ⟨0, _⟩ => exact h0
  | ⟨1, _⟩ => exact h1

/-- A rank-1 index with the given coordinate is `ix1` of it. -/
theorem ix1_of_coord {n : Nat} (f : (⟨1, ![n]⟩ : Shape).Idx) (a : Fin n) (h0 : f 0 = a) : f = ix1 a := by
  funext d
  match d with
  | ⟨0, _⟩ => exact h0

/-! ## The index words -/

/-- A word whose signed reading is not negative is not below zero, so the wrap-around select returns the word. -/
theorem select_of_nonneg (w y : BitVec 32) (h : 0 ≤ w.toInt) :
    Scalar.select (IntOp.cmpi .slt w 0#32) y w = w := by
  have hs : w.slt 0#32 = false := by
    rw [Bool.eq_false_iff]
    intro hs
    rw [BitVec.slt_iff_toInt_lt] at hs
    have h0 : (0#32 : BitVec 32).toInt = 0 := by decide
    omega
  have hc : IntOp.cmpi .slt w 0#32 = 0#1 := by
    show BitVec.ofBool (w.slt 0#32) = 0#1
    rw [hs]; rfl
  rw [hc]
  exact select_zero _ _

/-- Row 0 of the edge list, flattened, at `e`. -/
theorem v1_at (x1 : IVec S2x3200000 32) (e : Fin 3200000) :
    Read.val_main_v1 (F := Ideal) x1 (ix1 e) = x1 (ix2 (0 : Fin 2) e) := by
  rw [Read.val_main_v1_apply, Read.val_main_v0_apply]
  refine congrArg x1 (ix2_of_coords _ _ _ rfl (Fin.ext ?_))
  show e.val % 3200000 = e.val
  exact Nat.mod_eq_of_lt e.isLt

/-- Row 1 of the edge list, flattened, at `e`. -/
theorem v3_at (x1 : IVec S2x3200000 32) (e : Fin 3200000) :
    Read.val_main_v3 (F := Ideal) x1 (ix1 e) = x1 (ix2 (1 : Fin 2) e) := by
  rw [Read.val_main_v3_apply, Read.val_main_v2_apply]
  refine congrArg x1 (ix2_of_coords _ _ _ rfl (Fin.ext ?_))
  show e.val % 3200000 = e.val
  exact Nat.mod_eq_of_lt e.isLt

/-- The start index of the first gather is the source node's word itself. -/
theorem v9_at (x1 : IVec S2x3200000 32) (h : InRange x1) (e : Fin 3200000) :
    Read.val_main_v9 (F := Ideal) x1 (ix2 e (0 : Fin 1)) = x1 (ix2 (0 : Fin 2) e) := by
  rw [Read.val_main_v9_apply, ix1_of_coord (Read.idx_main_v9 (ix2 e (0 : Fin 1))) e rfl,
    Read.val_main_v8_apply, Read.val_main_v5_apply, Read.val_main_v4_apply, Read.val_main_c_apply, v1_at]
  exact select_of_nonneg _ _ (h _).1

/-- The start index of the second gather is the target node's word itself. -/
theorem v16_at (x1 : IVec S2x3200000 32) (h : InRange x1) (e : Fin 3200000) :
    Read.val_main_v16 (F := Ideal) x1 (ix2 e (0 : Fin 1)) = x1 (ix2 (1 : Fin 2) e) := by
  rw [Read.val_main_v16_apply, ix1_of_coord (Read.idx_main_v16 (ix2 e (0 : Fin 1))) e rfl,
    Read.val_main_v15_apply, Read.val_main_v12_apply, Read.val_main_v11_apply, Read.val_main_c_1_apply, v3_at]
  exact select_of_nonneg _ _ (h _).1

/-! ## The gathered rows and the input row -/

/-- The source node's features. -/
theorem v10_at (x0 : FVec Ideal S100000x8 .f32) (x1 : IVec S2x3200000 32) (h : InRange x1)
    (e : Fin 3200000) (k : Fin 8) :
    Read.val_main_v10 (F := Ideal) x0 x1 (ix2 e k) = x0 (ix2 (nodeRow (x1 (ix2 (0 : Fin 2) e))) k) := by
  show Host.gather (RowGather.rowDims 100000 8 3200000 Gen.gather_S100000x8_S3200000x1_S3200000x8_1_0_n_n_0_1_18_wf)
    x0 (Read.val_main_v9 (F := Ideal) x1) (ix2 e k) = _
  rw [RowGather.gather_row_apply (by decide : 0 < 100000)]
  show x0 (ix2 (RowGather.clampRow 100000 _ (Read.val_main_v9 (F := Ideal) x1 (ix2 e (0 : Fin 1)))) k) = _
  rw [v9_at x1 h e]
  rfl

/-- The target node's features. -/
theorem v17_at (x0 : FVec Ideal S100000x8 .f32) (x1 : IVec S2x3200000 32) (h : InRange x1)
    (e : Fin 3200000) (k : Fin 8) :
    Read.val_main_v17 (F := Ideal) x0 x1 (ix2 e k) = x0 (ix2 (nodeRow (x1 (ix2 (1 : Fin 2) e))) k) := by
  show Host.gather (RowGather.rowDims 100000 8 3200000 Gen.gather_S100000x8_S3200000x1_S3200000x8_1_0_n_n_0_1_18_wf)
    x0 (Read.val_main_v16 (F := Ideal) x1) (ix2 e k) = _
  rw [RowGather.gather_row_apply (by decide : 0 < 100000)]
  show x0 (ix2 (RowGather.clampRow 100000 _ (Read.val_main_v16 (F := Ideal) x1 (ix2 e (0 : Fin 1)))) k) = _
  rw [v16_at x1 h e]
  rfl

/-- Three pieces of widths 8, 8 and 4 joined along the second axis, read at `(e, k)`: the piece whose span holds `k`. -/
theorem concat3_apply {α : Type} (y0 y1 : S3200000x8.Idx → α) (y2 : S3200000x4.Idx → α)
    (hc : Shape.Concatenates [S3200000x8, S3200000x8, S3200000x4] S3200000x20 1) (e : Fin 3200000) (k : Fin 20) :
    concatenate S3200000x20 1 [⟨S3200000x8, y0⟩, ⟨S3200000x8, y1⟩, ⟨S3200000x4, y2⟩] hc (ix2 e k)
      = if h : k.val < 8 then y0 (ix2 e ⟨k.val, h⟩)
        else if h2 : k.val < 16 then y1 (ix2 e ⟨k.val - 8, by omega⟩)
        else y2 (ix2 e ⟨k.val - 16, by omega⟩) := by
  by_cases h8 : k.val < 8
  · rw [dif_pos h8]
    exact concatenate_apply_piece (1 : Fin S3200000x20.rank)
      [⟨S3200000x8, y0⟩, ⟨S3200000x8, y1⟩, ⟨S3200000x4, y2⟩] hc (ix2 e k) 0 (by show (0 : Nat) < 3; decide) S3200000x8 y0 rfl rfl 0 rfl
      (ix2 e ⟨k.val, h8⟩)
      (fun b hb => by
        match b with
        | ⟨0, _⟩ => rfl
        | ⟨1, _⟩ => exact absurd (Fin.ext rfl) hb)
      (by show 0 + k.val = k.val; omega)
  · rw [dif_neg h8]
    by_cases h16 : k.val < 16
    · rw [dif_pos h16]
      exact concatenate_apply_piece (1 : Fin S3200000x20.rank)
        [⟨S3200000x8, y0⟩, ⟨S3200000x8, y1⟩, ⟨S3200000x4, y2⟩] hc (ix2 e k) 1 (by show (1 : Nat) < 3; decide) S3200000x8 y1 rfl rfl 8 rfl
        (ix2 e ⟨k.val - 8, by omega⟩)
        (fun b hb => by
          match b with
          | ⟨0, _⟩ => rfl
          | ⟨1, _⟩ => exact absurd (Fin.ext rfl) hb)
        (by show 8 + (k.val - 8) = k.val; omega)
    · rw [dif_neg h16]
      exact concatenate_apply_piece (1 : Fin S3200000x20.rank)
        [⟨S3200000x8, y0⟩, ⟨S3200000x8, y1⟩, ⟨S3200000x4, y2⟩] hc (ix2 e k) 2 (by show (2 : Nat) < 3; decide) S3200000x4 y2 rfl rfl 16 rfl
        (ix2 e ⟨k.val - 16, by have := k.isLt; omega⟩)
        (fun b hb => by
          match b with
          | ⟨0, _⟩ => rfl
          | ⟨1, _⟩ => exact absurd (Fin.ext rfl) hb)
        (by show 16 + (k.val - 16) = k.val; omega)

/-- The concatenated input row of edge `e`. -/
theorem v18_at (x0 : FVec Ideal S100000x8 .f32) (x1 : IVec S2x3200000 32) (x2 : FVec Ideal S3200000x4 .f32)
    (h : InRange x1) (e : Fin 3200000) (k : Fin 20) :
    Read.val_main_v18 (F := Ideal) x0 x1 x2 (ix2 e k) = argRow x0 x1 x2 e k := by
  unfold Read.val_main_v18
  rw [concat3_apply]
  unfold argRow edgeRow
  by_cases h8 : k.val < 8
  · rw [dif_pos h8, dif_pos h8]
    exact v10_at x0 x1 h e _
  · rw [dif_neg h8, dif_neg h8]
    by_cases h16 : k.val < 16
    · rw [dif_pos h16, dif_pos h16]
      exact v17_at x0 x1 h e _
    · rw [dif_neg h16, dif_neg h16]

/-! ## The first block: dense layer, rectifier, layer normalisation

Each stage is stated over an arbitrary row `v` that the stage's operand reads as; the rows are put together at the end. -/

section Block1

variable (x0 : FVec Ideal S100000x8 .f32) (x1 : IVec S2x3200000 32) (x2 : FVec Ideal S3200000x4 .f32)
  (x3 : FVec Ideal S20x16 .f32) (x4 x5 x6 : FVec Ideal S16 .f32) (e : Fin 3200000)

/-- The first dense layer at `(e, j)`. -/
theorem v22_at (v : Fin 20 → EReal) (hv : ∀ k, Read.val_main_v18 (F := Ideal) x0 x1 x2 (ix2 e k) = v k) (j : Fin 16) :
    Read.val_main_v22 (F := Ideal) x0 x1 x2 x3 x4 (ix2 e j)
      = dense (fun k j => x3 (ix2 k j)) (fun j => x4 (ix1 j)) v j := by
  rw [Read.val_main_v22_apply, Read.val_main_v19_apply, Read.val_main_v21_apply, Read.val_main_v20_apply]
  simp only [Ideal.addf_def]
  unfold dense
  congr 1
  · refine Finset.sum_congr rfl fun k _ => ?_
    rw [ix2_of_coords (Read.lidx_main_v19 (ix2 e j) k) e k rfl rfl, hv k,
      ix2_of_coords (Read.ridx_main_v19 (ix2 e j) k) k j rfl rfl]
  · exact congrArg x4 (ix1_of_coord _ j rfl)

/-- The rectified first layer at `(e, j)`. -/
theorem v23_at (v : Fin 16 → EReal) (hv : ∀ j, Read.val_main_v22 (F := Ideal) x0 x1 x2 x3 x4 (ix2 e j) = v j) (j : Fin 16) :
    Read.val_main_v23 (F := Ideal) x0 x1 x2 x3 x4 (ix2 e j) = relu v j := by
  rw [Read.val_main_v23_apply, Read.val_main_call0_v0_apply, Read.val_main_call0_cst_apply, hv j]
  simp only [Ideal.maximumf_def, Ideal.ofBits_def, Ideal.ofBits_zero_f32]
  rfl

/-- The row mean of the rectified first layer. -/
theorem v27_at (r : Fin 16 → EReal) (hr : ∀ j, Read.val_main_v23 (F := Ideal) x0 x1 x2 x3 x4 (ix2 e j) = r j) :
    Read.val_main_v27 (F := Ideal) x0 x1 x2 x3 x4 (ix2 e (0 : Fin 1)) = mean16 r := by
  rw [Read.val_main_v27_apply, Read.val_main_v25_apply, Read.val_main_v24_apply, Read.val_main_v26_apply,
    Read.val_main_cst_3_apply, Read.val_main_cst_apply]
  simp only [Ideal.hostDivf_def, Ideal.ofBits_def, Ideal.ofBits_zero_f32, zero_add]
  unfold mean16 c16
  congr 1
  refine Finset.sum_congr rfl fun k _ => ?_
  rw [ix2_of_coords (Read.idx_main_v24 (Read.idx_main_v25 (ix2 e (0 : Fin 1))) k) e k rfl rfl, hr k]

/-- The deviation from the row mean, as the variance's operand reads it. -/
theorem v29_at (r : Fin 16 → EReal) (hr : ∀ j, Read.val_main_v23 (F := Ideal) x0 x1 x2 x3 x4 (ix2 e j) = r j) (j : Fin 16) :
    Read.val_main_v29 (F := Ideal) x0 x1 x2 x3 x4 (ix2 e j) = r j - mean16 r := by
  rw [Read.val_main_v29_apply, Read.val_main_v28_apply,
    ix2_of_coords (Read.idx_main_v28 (ix2 e j)) e (0 : Fin 1) rfl rfl, v27_at x0 x1 x2 x3 x4 e r hr, hr j]
  simp only [Ideal.subf_def]

/-- The row mean of the squared deviations. -/
theorem v34_at (r : Fin 16 → EReal) (hr : ∀ j, Read.val_main_v23 (F := Ideal) x0 x1 x2 x3 x4 (ix2 e j) = r j) :
    Read.val_main_v34 (F := Ideal) x0 x1 x2 x3 x4 (ix2 e (0 : Fin 1))
      = mean16 (fun i => (r i - mean16 r) * (r i - mean16 r)) := by
  rw [Read.val_main_v34_apply, Read.val_main_v32_apply, Read.val_main_v31_apply, Read.val_main_v33_apply,
    Read.val_main_cst_5_apply, Read.val_main_cst_4_apply]
  simp only [Ideal.hostDivf_def, Ideal.ofBits_def, Ideal.ofBits_zero_f32, zero_add]
  unfold mean16 c16
  congr 1
  refine Finset.sum_congr rfl fun k _ => ?_
  rw [ix2_of_coords (Read.idx_main_v31 (Read.idx_main_v32 (ix2 e (0 : Fin 1))) k) e k rfl rfl,
    Read.val_main_v30_apply, v29_at x0 x1 x2 x3 x4 e r hr k]
  simp only [Ideal.mulf_def]
  rfl

/-- The reciprocal square root of the variance plus epsilon. -/
theorem v39_at (r : Fin 16 → EReal) (hr : ∀ j, Read.val_main_v23 (F := Ideal) x0 x1 x2 x3 x4 (ix2 e j) = r j) :
    Read.val_main_v39 (F := Ideal) x0 x1 x2 x3 x4 (ix2 e (0 : Fin 1))
      = Ideal.rsqrt (mean16 (fun i => (r i - mean16 r) * (r i - mean16 r)) + eps) := by
  rw [Read.val_main_v39_apply, Read.val_main_v38_apply, Read.val_main_v37_apply, Read.val_main_cst_6_apply,
    v34_at x0 x1 x2 x3 x4 e r hr]
  simp only [Ideal.hostUnary_rsqrt_def, Ideal.addf_def, Ideal.ofBits_def]
  rfl

/-- The first layer normalisation at `(e, j)`. -/
theorem v47_at (r : Fin 16 → EReal) (hr : ∀ j, Read.val_main_v23 (F := Ideal) x0 x1 x2 x3 x4 (ix2 e j) = r j) (j : Fin 16) :
    Read.val_main_v47 (F := Ideal) x0 x1 x2 x3 x4 x5 x6 (ix2 e j)
      = layerNorm (fun j => x5 (ix1 j)) (fun j => x6 (ix1 j)) r j := by
  rw [Read.val_main_v47_apply, Read.val_main_v44_apply, Read.val_main_v41_apply, Read.val_main_v36_apply,
    Read.val_main_v35_apply, Read.val_main_v40_apply, Read.val_main_v43_apply, Read.val_main_v42_apply,
    Read.val_main_v46_apply, Read.val_main_v45_apply,
    ix2_of_coords (Read.idx_main_v35 (ix2 e j)) e (0 : Fin 1) rfl rfl,
    ix2_of_coords (Read.idx_main_v40 (ix2 e j)) e (0 : Fin 1) rfl rfl,
    v27_at x0 x1 x2 x3 x4 e r hr, v39_at x0 x1 x2 x3 x4 e r hr, hr j,
    ix1_of_coord (Read.idx_main_v42 (Read.idx_main_v43 (ix2 e j))) j rfl,
    ix1_of_coord (Read.idx_main_v45 (Read.idx_main_v46 (ix2 e j))) j rfl]
  simp only [Ideal.addf_def, Ideal.mulf_def, Ideal.subf_def]
  rfl

end Block1

/-! ## The second block -/

section Block2

variable (x0 : FVec Ideal S100000x8 .f32) (x1 : IVec S2x3200000 32) (x2 : FVec Ideal S3200000x4 .f32)
  (x3 : FVec Ideal S20x16 .f32) (x4 x5 x6 : FVec Ideal S16 .f32) (x7 : FVec Ideal S16x16 .f32)
  (x8 x9 x10 : FVec Ideal S16 .f32) (e : Fin 3200000)

/-- The second dense layer at `(e, j)`. -/
theorem v51_at (v : Fin 16 → EReal)
    (hv : ∀ k, Read.val_main_v47 (F := Ideal) x0 x1 x2 x3 x4 x5 x6 (ix2 e k) = v k) (j : Fin 16) :
    Read.val_main_v51 (F := Ideal) x0 x1 x2 x3 x4 x5 x6 x7 x8 (ix2 e j)
      = dense (fun k j => x7 (ix2 k j)) (fun j => x8 (ix1 j)) v j := by
  rw [Read.val_main_v51_apply, Read.val_main_v48_apply, Read.val_main_v50_apply, Read.val_main_v49_apply]
  simp only [Ideal.addf_def]
  unfold dense
  congr 1
  · refine Finset.sum_congr rfl fun k _ => ?_
    rw [ix2_of_coords (Read.lidx_main_v48 (ix2 e j) k) e k rfl rfl, hv k,
      ix2_of_coords (Read.ridx_main_v48 (ix2 e j) k) k j rfl rfl]
  · exact congrArg x8 (ix1_of_coord _ j rfl)

/-- The rectified second layer at `(e, j)`. -/
theorem v52_at (v : Fin 16 → EReal)
    (hv : ∀ j, Read.val_main_v51 (F := Ideal) x0 x1 x2 x3 x4 x5 x6 x7 x8 (ix2 e j) = v j) (j : Fin 16) :
    Read.val_main_v52 (F := Ideal) x0 x1 x2 x3 x4 x5 x6 x7 x8 (ix2 e j) = relu v j := by
  rw [Read.val_main_v52_apply, Read.val_main_call1_v0_apply, Read.val_main_call1_cst_apply, hv j]
  simp only [Ideal.maximumf_def, Ideal.ofBits_def, Ideal.ofBits_zero_f32]
  rfl

/-- The row mean of the rectified second layer. -/
theorem v56_at (r : Fin 16 → EReal)
    (hr : ∀ j, Read.val_main_v52 (F := Ideal) x0 x1 x2 x3 x4 x5 x6 x7 x8 (ix2 e j) = r j) :
    Read.val_main_v56 (F := Ideal) x0 x1 x2 x3 x4 x5 x6 x7 x8 (ix2 e (0 : Fin 1)) = mean16 r := by
  rw [Read.val_main_v56_apply, Read.val_main_v54_apply, Read.val_main_v53_apply, Read.val_main_v55_apply,
    Read.val_main_cst_8_apply, Read.val_main_cst_7_apply]
  simp only [Ideal.hostDivf_def, Ideal.ofBits_def, Ideal.ofBits_zero_f32, zero_add]
  unfold mean16 c16
  congr 1
  refine Finset.sum_congr rfl fun k _ => ?_
  rw [ix2_of_coords (Read.idx_main_v53 (Read.idx_main_v54 (ix2 e (0 : Fin 1))) k) e k rfl rfl, hr k]

/-- The deviation from the row mean, as the variance's operand reads it. -/
theorem v58_at (r : Fin 16 → EReal)
    (hr : ∀ j, Read.val_main_v52 (F := Ideal) x0 x1 x2 x3 x4 x5 x6 x7 x8 (ix2 e j) = r j) (j : Fin 16) :
    Read.val_main_v58 (F := Ideal) x0 x1 x2 x3 x4 x5 x6 x7 x8 (ix2 e j) = r j - mean16 r := by
  rw [Read.val_main_v58_apply, Read.val_main_v57_apply,
    ix2_of_coords (Read.idx_main_v57 (ix2 e j)) e (0 : Fin 1) rfl rfl, v56_at x0 x1 x2 x3 x4 x5 x6 x7 x8 e r hr, hr j]
  simp only [Ideal.subf_def]

/-- The row mean of the squared deviations. -/
theorem v63_at (r : Fin 16 → EReal)
    (hr : ∀ j, Read.val_main_v52 (F := Ideal) x0 x1 x2 x3 x4 x5 x6 x7 x8 (ix2 e j) = r j) :
    Read.val_main_v63 (F := Ideal) x0 x1 x2 x3 x4 x5 x6 x7 x8 (ix2 e (0 : Fin 1))
      = mean16 (fun i => (r i - mean16 r) * (r i - mean16 r)) := by
  rw [Read.val_main_v63_apply, Read.val_main_v61_apply, Read.val_main_v60_apply, Read.val_main_v62_apply,
    Read.val_main_cst_10_apply, Read.val_main_cst_9_apply]
  simp only [Ideal.hostDivf_def, Ideal.ofBits_def, Ideal.ofBits_zero_f32, zero_add]
  unfold mean16 c16
  congr 1
  refine Finset.sum_congr rfl fun k _ => ?_
  rw [ix2_of_coords (Read.idx_main_v60 (Read.idx_main_v61 (ix2 e (0 : Fin 1))) k) e k rfl rfl,
    Read.val_main_v59_apply, v58_at x0 x1 x2 x3 x4 x5 x6 x7 x8 e r hr k]
  simp only [Ideal.mulf_def]
  rfl

/-- The reciprocal square root of the variance plus epsilon. -/
theorem v68_at (r : Fin 16 → EReal)
    (hr : ∀ j, Read.val_main_v52 (F := Ideal) x0 x1 x2 x3 x4 x5 x6 x7 x8 (ix2 e j) = r j) :
    Read.val_main_v68 (F := Ideal) x0 x1 x2 x3 x4 x5 x6 x7 x8 (ix2 e (0 : Fin 1))
      = Ideal.rsqrt (mean16 (fun i => (r i - mean16 r) * (r i - mean16 r)) + eps) := by
  rw [Read.val_main_v68_apply, Read.val_main_v67_apply, Read.val_main_v66_apply, Read.val_main_cst_11_apply,
    v63_at x0 x1 x2 x3 x4 x5 x6 x7 x8 e r hr]
  simp only [Ideal.hostUnary_rsqrt_def, Ideal.addf_def, Ideal.ofBits_def]
  rfl

/-- The second layer normalisation at `(e, j)`. -/
theorem v76_at (r : Fin 16 → EReal)
    (hr : ∀ j, Read.val_main_v52 (F := Ideal) x0 x1 x2 x3 x4 x5 x6 x7 x8 (ix2 e j) = r j) (j : Fin 16) :
    Read.val_main_v76 (F := Ideal) x0 x1 x2 x3 x4 x5 x6 x7 x8 x9 x10 (ix2 e j)
      = layerNorm (fun j => x9 (ix1 j)) (fun j => x10 (ix1 j)) r j := by
  rw [Read.val_main_v76_apply, Read.val_main_v73_apply, Read.val_main_v70_apply, Read.val_main_v65_apply,
    Read.val_main_v64_apply, Read.val_main_v69_apply, Read.val_main_v72_apply, Read.val_main_v71_apply,
    Read.val_main_v75_apply, Read.val_main_v74_apply,
    ix2_of_coords (Read.idx_main_v64 (ix2 e j)) e (0 : Fin 1) rfl rfl,
    ix2_of_coords (Read.idx_main_v69 (ix2 e j)) e (0 : Fin 1) rfl rfl,
    v56_at x0 x1 x2 x3 x4 x5 x6 x7 x8 e r hr, v68_at x0 x1 x2 x3 x4 x5 x6 x7 x8 e r hr, hr j,
    ix1_of_coord (Read.idx_main_v71 (Read.idx_main_v72 (ix2 e j))) j rfl,
    ix1_of_coord (Read.idx_main_v74 (Read.idx_main_v75 (ix2 e j))) j rfl]
  simp only [Ideal.addf_def, Ideal.mulf_def, Ideal.subf_def]
  rfl

end Block2

/-! ## The last dense layer -/

/-- The last dense layer at `(e, o)`. -/
theorem v80_at (x0 : FVec Ideal S100000x8 .f32) (x1 : IVec S2x3200000 32) (x2 : FVec Ideal S3200000x4 .f32)
    (x3 : FVec Ideal S20x16 .f32) (x4 x5 x6 : FVec Ideal S16 .f32) (x7 : FVec Ideal S16x16 .f32)
    (x8 x9 x10 : FVec Ideal S16 .f32) (x11 : FVec Ideal S16x4 .f32) (x12 : FVec Ideal S4 .f32)
    (e : Fin 3200000) (v : Fin 16 → EReal)
    (hv : ∀ k, Read.val_main_v76 (F := Ideal) x0 x1 x2 x3 x4 x5 x6 x7 x8 x9 x10 (ix2 e k) = v k) (o : Fin 4) :
    Read.val_main_v80 (F := Ideal) x0 x1 x2 x3 x4 x5 x6 x7 x8 x9 x10 x11 x12 (ix2 e o)
      = dense (fun k j => x11 (ix2 k j)) (fun j => x12 (ix1 j)) v o := by
  rw [Read.val_main_v80_apply, Read.val_main_v77_apply, Read.val_main_v79_apply, Read.val_main_v78_apply]
  simp only [Ideal.addf_def]
  unfold dense
  congr 1
  · refine Finset.sum_congr rfl fun k _ => ?_
    rw [ix2_of_coords (Read.lidx_main_v77 (ix2 e o) k) e k rfl rfl, hv k,
      ix2_of_coords (Read.ridx_main_v77 (ix2 e o) k) k o rfl rfl]
  · exact congrArg x12 (ix1_of_coord _ o rfl)

/-- The reference's result, entry `(e, o)`: the network's output `o` on edge `e`'s input row. -/
theorem ref_value (x0 : FVec Ideal S100000x8 .f32) (x1 : IVec S2x3200000 32) (x2 : FVec Ideal S3200000x4 .f32)
    (x3 : FVec Ideal S20x16 .f32) (x4 x5 x6 : FVec Ideal S16 .f32) (x7 : FVec Ideal S16x16 .f32)
    (x8 x9 x10 : FVec Ideal S16 .f32) (x11 : FVec Ideal S16x4 .f32) (x12 : FVec Ideal S4 .f32)
    (h : InRange x1) (e : Fin 3200000) (o : Fin 4) :
    Read.val_main_v80 (F := Ideal) x0 x1 x2 x3 x4 x5 x6 x7 x8 x9 x10 x11 x12 (ix2 e o)
      = net (paramsRM x3 x4 x5 x6 x7 x8 x9 x10 x11 x12) (argRow x0 x1 x2 e) o := by
  have h22 := v22_at x0 x1 x2 x3 x4 e _ (v18_at x0 x1 x2 h e)
  have h23 := v23_at x0 x1 x2 x3 x4 e _ h22
  have h47 := v47_at x0 x1 x2 x3 x4 x5 x6 e _ h23
  have h51 := v51_at x0 x1 x2 x3 x4 x5 x6 x7 x8 e _ h47
  have h52 := v52_at x0 x1 x2 x3 x4 x5 x6 x7 x8 e _ h51
  have h76 := v76_at x0 x1 x2 x3 x4 x5 x6 x7 x8 x9 x10 e _ h52
  exact v80_at x0 x1 x2 x3 x4 x5 x6 x7 x8 x9 x10 x11 x12 e _ h76 o

end Cert.EdgeNet

end
-- ==== Proof.RefRun.lean ====
import proofs.«424817_j3289944949007_3_alg».proof.Proof.RefOps
import proofs.«424817_j3289944949007_3_alg».proof.Proof.RefRead
import Idealize.ShloMosaic.Lib.StableHlo.Run
import Idealize.ShloMosaic.Lib.Pipeline.Frame

noncomputable section

namespace Cert.ReferenceIdeal.RunStaged

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## The operations in eleven consecutive stretches

@main's 99 operations, cut where few values are live: after each gather, before the concatenate, after each
rectifier, and inside each normalization after the centred square and after the centred value. -/

/-- Operations 1 to 13: the first index vector, wrapped into range, and the rows it gathers. -/
def c1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v1 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v1 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg0 main_v9 main_v10 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) ]

/-- Operations 14 to 22: the second index vector, wrapped into range, and the rows it gathers. -/
def c2 : List (HloOp τ sig (Elt F)) :=
  [ nullary main_c_1 (constantI S_ 32 0#32),
    unary main_c_1 main_v11 (broadcastInDim S3200000 ![] bcast_S_S3200000 : (⟨S_, .i32⟩ : BufTy).Contents (Elt F) → (⟨S3200000, .i32⟩ : BufTy).Contents (Elt F)),
    binary main_v3 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v3 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v3 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v15 main_v16 (broadcastInDim S3200000x1 ![0] bcast_S3200000_S3200000x1_0 : (⟨S3200000, .i32⟩ : BufTy).Contents (Elt F) → (⟨S3200000x1, .i32⟩ : BufTy).Contents (Elt F)),
    binary main_arg0 main_v16 main_v17 ((fun x i => Host.gather gather_S100000x8_S3200000x1_S3200000x8_1_0_n_n_0_1_18 x i) : (⟨S100000x8, .f32⟩ : BufTy).Contents (Elt F) → (⟨S3200000x1, .i32⟩ : BufTy).Contents (Elt F) → (⟨S3200000x8, .f32⟩ : BufTy).Contents (Elt F)) ]

/-- Operations 23 to 30: the concatenation, the first affine layer and its rectifier. -/
def c3 : List (HloOp τ sig (Elt F)) :=
  [ nary ![main_v10, main_v17, main_arg2] main_v18 (fun u => concatenate S3200000x20 1 [⟨S3200000x8, u 0⟩, ⟨S3200000x8, u 1⟩, ⟨S3200000x4, u 2⟩] concatenates_S3200000x8_S3200000x8_S3200000x4_S3200000x20_d1),
    binary main_v18 main_arg3 main_v19 ((fun l r => Host.dotGeneral dot_S3200000x20_S20x16_S3200000x16_1_0_0_1_n_n none l r) : (⟨S3200000x20, .f32⟩ : BufTy).Contents (Elt F) → (⟨S20x16, .f32⟩ : BufTy).Contents (Elt F) → (⟨S3200000x16, .f32⟩ : BufTy).Contents (Elt F)),
    unary main_arg4 main_v20 (broadcastInDim S1x16 ![1] bcast_S16_S1x16_1 : (⟨S16, .f32⟩ : BufTy).Contents (Elt F) → (⟨S1x16, .f32⟩ : BufTy).Contents (Elt F)),
    unary main_v20 main_v21 (broadcastInDim S3200000x16 ![0, 1] bcast_S1x16_S3200000x16_0_1 : (⟨S1x16, .f32⟩ : BufTy).Contents (Elt F) → (⟨S3200000x16, .f32⟩ : BufTy).Contents (Elt F)),
    binary main_v19 main_v21 main_v22 (addf : (⟨S3200000x16, .f32⟩ : BufTy).Contents (Elt F) → (⟨S3200000x16, .f32⟩ : BufTy).Contents (Elt F) → (⟨S3200000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3200000x16, .f32⟩) main_call0_v0) (broadcastInDim S3200000x16 ![] bcast_S_S3200000x16),
    TRef.binary (TRef.of (T := ⟨S3200000x16, .f32⟩) main_v22) (TRef.of (T := ⟨S3200000x16, .f32⟩) main_call0_v0) (TRef.of (T := ⟨S3200000x16, .f32⟩) main_v23) maximumf ]

/-- Operations 31 to 39: the first normalization's mean and centred square. -/
def c4 : List (HloOp τ sig (Elt F)) :=
  [ nullary main_cst (constant S_ .f32 0x00000000#32),
    binary main_v23 main_cst main_v24 ((fun x v => Host.reduceAdd x v reducesTo_S3200000x16_S3200000_d1 h_S_) : (⟨S3200000x16, .f32⟩ : BufTy).Contents (Elt F) → (⟨S_, .f32⟩ : BufTy).Contents (Elt F) → (⟨S3200000, .f32⟩ : BufTy).Contents (Elt F)),
    unary main_v24 main_v25 (broadcastInDim S3200000x1 ![0] bcast_S3200000_S3200000x1_0 : (⟨S3200000, .f32⟩ : BufTy).Contents (Elt F) → (⟨S3200000x1, .f32⟩ : BufTy).Contents (Elt F)),
    nullary main_cst_3 (constant S_ .f32 0x41800000#32),
    unary main_cst_3 main_v26 (broadcastInDim S3200000x1 ![] bcast_S_S3200000x1 : (⟨S_, .f32⟩ : BufTy).Contents (Elt F) → (⟨S3200000x1, .f32⟩ : BufTy).Contents (Elt F)),
    binary main_v25 main_v26 main_v27 (Host.divf : (⟨S3200000x1, .f32⟩ : BufTy).Contents (Elt F) → (⟨S3200000x1, .f32⟩ : BufTy).Contents (Elt F) → (⟨S3200000x1, .f32⟩ : BufTy).Contents (Elt F)),
    unary main_v27 main_v28 (broadcastInDim S3200000x16 ![0, 1] bcast_S3200000x1_S3200000x16_0_1 : (⟨S3200000x1, .f32⟩ : BufTy).Contents (Elt F) → (⟨S3200000x16, .f32⟩ : BufTy).Contents (Elt F)),
    binary main_v23 main_v28 main_v29 (subf : (⟨S3200000x16, .f32⟩ : BufTy).Contents (Elt F) → (⟨S3200000x16, .f32⟩ : BufTy).Contents (Elt F) → (⟨S3200000x16, .f32⟩ : BufTy).Contents (Elt F)),
    binary main_v29 main_v29 main_v30 (mulf : (⟨S3200000x16, .f32⟩ : BufTy).Contents (Elt F) → (⟨S3200000x16, .f32⟩ : BufTy).Contents (Elt F) → (⟨S3200000x16, .f32⟩ : BufTy).Contents (Elt F)) ]

/-- Operations 40 to 47: the first normalization's variance and centred value. -/
def c5 : List (HloOp τ sig (Elt F)) :=
  [ nullary main_cst_4 (constant S_ .f32 0x00000000#32),
    binary main_v30 main_cst_4 main_v31 ((fun x v => Host.reduceAdd x v reducesTo_S3200000x16_S3200000_d1 h_S_) : (⟨S3200000x16, .f32⟩ : BufTy).Contents (Elt F) → (⟨S_, .f32⟩ : BufTy).Contents (Elt F) → (⟨S3200000, .f32⟩ : BufTy).Contents (Elt F)),
    unary main_v31 main_v32 (broadcastInDim S3200000x1 ![0] bcast_S3200000_S3200000x1_0 : (⟨S3200000, .f32⟩ : BufTy).Contents (Elt F) → (⟨S3200000x1, .f32⟩ : BufTy).Contents (Elt F)),
    nullary main_cst_5 (constant S_ .f32 0x41800000#32),
    unary main_cst_5 main_v33 (broadcastInDim S3200000x1 ![] bcast_S_S3200000x1 : (⟨S_, .f32⟩ : BufTy).Contents (Elt F) → (⟨S3200000x1, .f32⟩ : BufTy).Contents (Elt F)),
    binary main_v32 main_v33 main_v34 (Host.divf : (⟨S3200000x1, .f32⟩ : BufTy).Contents (Elt F) → (⟨S3200000x1, .f32⟩ : BufTy).Contents (Elt F) → (⟨S3200000x1, .f32⟩ : BufTy).Contents (Elt F)),
    unary main_v27 main_v35 (broadcastInDim S3200000x16 ![0, 1] bcast_S3200000x1_S3200000x16_0_1 : (⟨S3200000x1, .f32⟩ : BufTy).Contents (Elt F) → (⟨S3200000x16, .f32⟩ : BufTy).Contents (Elt F)),
    binary main_v23 main_v35 main_v36 (subf : (⟨S3200000x16, .f32⟩ : BufTy).Contents (Elt F) → (⟨S3200000x16, .f32⟩ : BufTy).Contents (Elt F) → (⟨S3200000x16, .f32⟩ : BufTy).Contents (Elt F)) ]

/-- Operations 48 to 59: the first normalization's scaling by the inverse deviation, gain and bias. -/
def c6 : List (HloOp τ sig (Elt F)) :=
  [ nullary main_cst_6 (constant S_ .f32 0x3727C5AC#32),
    unary main_cst_6 main_v37 (broadcastInDim S3200000x1 ![] bcast_S_S3200000x1 : (⟨S_, .f32⟩ : BufTy).Contents (Elt F) → (⟨S3200000x1, .f32⟩ : BufTy).Contents (Elt F)),
    binary main_v34 main_v37 main_v38 (addf : (⟨S3200000x1, .f32⟩ : BufTy).Contents (Elt F) → (⟨S3200000x1, .f32⟩ : BufTy).Contents (Elt F) → (⟨S3200000x1, .f32⟩ : BufTy).Contents (Elt F)),
    unary main_v38 main_v39 (Host.rsqrt : (⟨S3200000x1, .f32⟩ : BufTy).Contents (Elt F) → (⟨S3200000x1, .f32⟩ : BufTy).Contents (Elt F)),
    unary main_v39 main_v40 (broadcastInDim S3200000x16 ![0, 1] bcast_S3200000x1_S3200000x16_0_1 : (⟨S3200000x1, .f32⟩ : BufTy).Contents (Elt F) → (⟨S3200000x16, .f32⟩ : BufTy).Contents (Elt F)),
    binary main_v36 main_v40 main_v41 (mulf : (⟨S3200000x16, .f32⟩ : BufTy).Contents (Elt F) → (⟨S3200000x16, .f32⟩ : BufTy).Contents (Elt F) → (⟨S3200000x16, .f32⟩ : BufTy).Contents (Elt F)),
    unary main_arg5 main_v42 (broadcastInDim S1x16 ![1] bcast_S16_S1x16_1 : (⟨S16, .f32⟩ : BufTy).Contents (Elt F) → (⟨S1x16, .f32⟩ : BufTy).Contents (Elt F)),
    unary main_v42 main_v43 (broadcastInDim S3200000x16 ![0, 1] bcast_S1x16_S3200000x16_0_1 : (⟨S1x16, .f32⟩ : BufTy).Contents (Elt F) → (⟨S3200000x16, .f32⟩ : BufTy).Contents (Elt F)),
    binary main_v41 main_v43 main_v44 (mulf : (⟨S3200000x16, .f32⟩ : BufTy).Contents (Elt F) → (⟨S3200000x16, .f32⟩ : BufTy).Contents (Elt F) → (⟨S3200000x16, .f32⟩ : BufTy).Contents (Elt F)),
    unary main_arg6 main_v45 (broadcastInDim S1x16 ![1] bcast_S16_S1x16_1 : (⟨S16, .f32⟩ : BufTy).Contents (Elt F) → (⟨S1x16, .f32⟩ : BufTy).Contents (Elt F)),
    unary main_v45 main_v46 (broadcastInDim S3200000x16 ![0, 1] bcast_S1x16_S3200000x16_0_1 : (⟨S1x16, .f32⟩ : BufTy).Contents (Elt F) → (⟨S3200000x16, .f32⟩ : BufTy).Contents (Elt F)),
    binary main_v44 main_v46 main_v47 (addf : (⟨S3200000x16, .f32⟩ : BufTy).Contents (Elt F) → (⟨S3200000x16, .f32⟩ : BufTy).Contents (Elt F) → (⟨S3200000x16, .f32⟩ : BufTy).Contents (Elt F)) ]

/-- Operations 60 to 66: the second affine layer and its rectifier. -/
def c7 : List (HloOp τ sig (Elt F)) :=
  [ binary main_v47 main_arg7 main_v48 ((fun l r => Host.dotGeneral dot_S3200000x16_S16x16_S3200000x16_1_0_0_1_n_n none l r) : (⟨S3200000x16, .f32⟩ : BufTy).Contents (Elt F) → (⟨S16x16, .f32⟩ : BufTy).Contents (Elt F) → (⟨S3200000x16, .f32⟩ : BufTy).Contents (Elt F)),
    unary main_arg8 main_v49 (broadcastInDim S1x16 ![1] bcast_S16_S1x16_1 : (⟨S16, .f32⟩ : BufTy).Contents (Elt F) → (⟨S1x16, .f32⟩ : BufTy).Contents (Elt F)),
    unary main_v49 main_v50 (broadcastInDim S3200000x16 ![0, 1] bcast_S1x16_S3200000x16_0_1 : (⟨S1x16, .f32⟩ : BufTy).Contents (Elt F) → (⟨S3200000x16, .f32⟩ : BufTy).Contents (Elt F)),
    binary main_v48 main_v50 main_v51 (addf : (⟨S3200000x16, .f32⟩ : BufTy).Contents (Elt F) → (⟨S3200000x16, .f32⟩ : BufTy).Contents (Elt F) → (⟨S3200000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S3200000x16, .f32⟩) main_call1_v0) (broadcastInDim S3200000x16 ![] bcast_S_S3200000x16),
    TRef.binary (TRef.of (T := ⟨S3200000x16, .f32⟩) main_v51) (TRef.of (T := ⟨S3200000x16, .f32⟩) main_call1_v0) (TRef.of (T := ⟨S3200000x16, .f32⟩) main_v52) maximumf ]

/-- Operations 67 to 75: the second normalization's mean and centred square. -/
def c8 : List (HloOp τ sig (Elt F)) :=
  [ nullary main_cst_7 (constant S_ .f32 0x00000000#32),
    binary main_v52 main_cst_7 main_v53 ((fun x v => Host.reduceAdd x v reducesTo_S3200000x16_S3200000_d1 h_S_) : (⟨S3200000x16, .f32⟩ : BufTy).Contents (Elt F) → (⟨S_, .f32⟩ : BufTy).Contents (Elt F) → (⟨S3200000, .f32⟩ : BufTy).Contents (Elt F)),
    unary main_v53 main_v54 (broadcastInDim S3200000x1 ![0] bcast_S3200000_S3200000x1_0 : (⟨S3200000, .f32⟩ : BufTy).Contents (Elt F) → (⟨S3200000x1, .f32⟩ : BufTy).Contents (Elt F)),
    nullary main_cst_8 (constant S_ .f32 0x41800000#32),
    unary main_cst_8 main_v55 (broadcastInDim S3200000x1 ![] bcast_S_S3200000x1 : (⟨S_, .f32⟩ : BufTy).Contents (Elt F) → (⟨S3200000x1, .f32⟩ : BufTy).Contents (Elt F)),
    binary main_v54 main_v55 main_v56 (Host.divf : (⟨S3200000x1, .f32⟩ : BufTy).Contents (Elt F) → (⟨S3200000x1, .f32⟩ : BufTy).Contents (Elt F) → (⟨S3200000x1, .f32⟩ : BufTy).Contents (Elt F)),
    unary main_v56 main_v57 (broadcastInDim S3200000x16 ![0, 1] bcast_S3200000x1_S3200000x16_0_1 : (⟨S3200000x1, .f32⟩ : BufTy).Contents (Elt F) → (⟨S3200000x16, .f32⟩ : BufTy).Contents (Elt F)),
    binary main_v52 main_v57 main_v58 (subf : (⟨S3200000x16, .f32⟩ : BufTy).Contents (Elt F) → (⟨S3200000x16, .f32⟩ : BufTy).Contents (Elt F) → (⟨S3200000x16, .f32⟩ : BufTy).Contents (Elt F)),
    binary main_v58 main_v58 main_v59 (mulf : (⟨S3200000x16, .f32⟩ : BufTy).Contents (Elt F) → (⟨S3200000x16, .f32⟩ : BufTy).Contents (Elt F) → (⟨S3200000x16, .f32⟩ : BufTy).Contents (Elt F)) ]

/-- Operations 76 to 83: the second normalization's variance and centred value. -/
def c9 : List (HloOp τ sig (Elt F)) :=
  [ nullary main_cst_9 (constant S_ .f32 0x00000000#32),
    binary main_v59 main_cst_9 main_v60 ((fun x v => Host.reduceAdd x v reducesTo_S3200000x16_S3200000_d1 h_S_) : (⟨S3200000x16, .f32⟩ : BufTy).Contents (Elt F) → (⟨S_, .f32⟩ : BufTy).Contents (Elt F) → (⟨S3200000, .f32⟩ : BufTy).Contents (Elt F)),
    unary main_v60 main_v61 (broadcastInDim S3200000x1 ![0] bcast_S3200000_S3200000x1_0 : (⟨S3200000, .f32⟩ : BufTy).Contents (Elt F) → (⟨S3200000x1, .f32⟩ : BufTy).Contents (Elt F)),
    nullary main_cst_10 (constant S_ .f32 0x41800000#32),
    unary main_cst_10 main_v62 (broadcastInDim S3200000x1 ![] bcast_S_S3200000x1 : (⟨S_, .f32⟩ : BufTy).Contents (Elt F) → (⟨S3200000x1, .f32⟩ : BufTy).Contents (Elt F)),
    binary main_v61 main_v62 main_v63 (Host.divf : (⟨S3200000x1, .f32⟩ : BufTy).Contents (Elt F) → (⟨S3200000x1, .f32⟩ : BufTy).Contents (Elt F) → (⟨S3200000x1, .f32⟩ : BufTy).Contents (Elt F)),
    unary main_v56 main_v64 (broadcastInDim S3200000x16 ![0, 1] bcast_S3200000x1_S3200000x16_0_1 : (⟨S3200000x1, .f32⟩ : BufTy).Contents (Elt F) → (⟨S3200000x16, .f32⟩ : BufTy).Contents (Elt F)),
    binary main_v52 main_v64 main_v65 (subf : (⟨S3200000x16, .f32⟩ : BufTy).Contents (Elt F) → (⟨S3200000x16, .f32⟩ : BufTy).Contents (Elt F) → (⟨S3200000x16, .f32⟩ : BufTy).Contents (Elt F)) ]

/-- Operations 84 to 95: the second normalization's scaling by the inverse deviation, gain and bias. -/
def c10 : List (HloOp τ sig (Elt F)) :=
  [ nullary main_cst_11 (constant S_ .f32 0x3727C5AC#32),
    unary main_cst_11 main_v66 (broadcastInDim S3200000x1 ![] bcast_S_S3200000x1 : (⟨S_, .f32⟩ : BufTy).Contents (Elt F) → (⟨S3200000x1, .f32⟩ : BufTy).Contents (Elt F)),
    binary main_v63 main_v66 main_v67 (addf : (⟨S3200000x1, .f32⟩ : BufTy).Contents (Elt F) → (⟨S3200000x1, .f32⟩ : BufTy).Contents (Elt F) → (⟨S3200000x1, .f32⟩ : BufTy).Contents (Elt F)),
    unary main_v67 main_v68 (Host.rsqrt : (⟨S3200000x1, .f32⟩ : BufTy).Contents (Elt F) → (⟨S3200000x1, .f32⟩ : BufTy).Contents (Elt F)),
    unary main_v68 main_v69 (broadcastInDim S3200000x16 ![0, 1] bcast_S3200000x1_S3200000x16_0_1 : (⟨S3200000x1, .f32⟩ : BufTy).Contents (Elt F) → (⟨S3200000x16, .f32⟩ : BufTy).Contents (Elt F)),
    binary main_v65 main_v69 main_v70 (mulf : (⟨S3200000x16, .f32⟩ : BufTy).Contents (Elt F) → (⟨S3200000x16, .f32⟩ : BufTy).Contents (Elt F) → (⟨S3200000x16, .f32⟩ : BufTy).Contents (Elt F)),
    unary main_arg9 main_v71 (broadcastInDim S1x16 ![1] bcast_S16_S1x16_1 : (⟨S16, .f32⟩ : BufTy).Contents (Elt F) → (⟨S1x16, .f32⟩ : BufTy).Contents (Elt F)),
    unary main_v71 main_v72 (broadcastInDim S3200000x16 ![0, 1] bcast_S1x16_S3200000x16_0_1 : (⟨S1x16, .f32⟩ : BufTy).Contents (Elt F) → (⟨S3200000x16, .f32⟩ : BufTy).Contents (Elt F)),
    binary main_v70 main_v72 main_v73 (mulf : (⟨S3200000x16, .f32⟩ : BufTy).Contents (Elt F) → (⟨S3200000x16, .f32⟩ : BufTy).Contents (Elt F) → (⟨S3200000x16, .f32⟩ : BufTy).Contents (Elt F)),
    unary main_arg10 main_v74 (broadcastInDim S1x16 ![1] bcast_S16_S1x16_1 : (⟨S16, .f32⟩ : BufTy).Contents (Elt F) → (⟨S1x16, .f32⟩ : BufTy).Contents (Elt F)),
    unary main_v74 main_v75 (broadcastInDim S3200000x16 ![0, 1] bcast_S1x16_S3200000x16_0_1 : (⟨S1x16, .f32⟩ : BufTy).Contents (Elt F) → (⟨S3200000x16, .f32⟩ : BufTy).Contents (Elt F)),
    binary main_v73 main_v75 main_v76 (addf : (⟨S3200000x16, .f32⟩ : BufTy).Contents (Elt F) → (⟨S3200000x16, .f32⟩ : BufTy).Contents (Elt F) → (⟨S3200000x16, .f32⟩ : BufTy).Contents (Elt F)) ]

/-- Operations 96 to 99: the last affine layer. -/
def c11 : List (HloOp τ sig (Elt F)) :=
  [ binary main_v76 main_arg11 main_v77 ((fun l r => Host.dotGeneral dot_S3200000x16_S16x4_S3200000x4_1_0_0_1_n_n none l r) : (⟨S3200000x16, .f32⟩ : BufTy).Contents (Elt F) → (⟨S16x4, .f32⟩ : BufTy).Contents (Elt F) → (⟨S3200000x4, .f32⟩ : BufTy).Contents (Elt F)),
    unary main_arg12 main_v78 (broadcastInDim S1x4 ![1] bcast_S4_S1x4_1 : (⟨S4, .f32⟩ : BufTy).Contents (Elt F) → (⟨S1x4, .f32⟩ : BufTy).Contents (Elt F)),
    unary main_v78 main_v79 (broadcastInDim S3200000x4 ![0, 1] bcast_S1x4_S3200000x4_0_1 : (⟨S1x4, .f32⟩ : BufTy).Contents (Elt F) → (⟨S3200000x4, .f32⟩ : BufTy).Contents (Elt F)),
    binary main_v77 main_v79 main_v80 (addf : (⟨S3200000x4, .f32⟩ : BufTy).Contents (Elt F) → (⟨S3200000x4, .f32⟩ : BufTy).Contents (Elt F) → (⟨S3200000x4, .f32⟩ : BufTy).Contents (Elt F)) ]

/-- The operations are the eleven stretches in a row. -/
theorem ops_cut : (ops : List (HloOp τ sig (Elt F)))
    = c1 ++ (c2 ++ (c3 ++ (c4 ++ (c5 ++ (c6 ++ (c7 ++ (c8 ++ (c9 ++ (c10 ++ c11))))))))) := rfl

/-! ## What each stretch writes, and that it leaves every other buffer alone -/

/-- Every operation of a literal stretch writes one buffer, and that buffer is in the given list. -/
local macro "stretch_writes" : tactic =>
  `(tactic| (
    simp only [List.Forall, nullary_writes, unary_writes, binary_writes, ternary_writes, reshape_writes, nary_writes,
      Finset.singleton_subset_iff, List.mem_toFinset]
    (repeat' apply And.intro) <;> exact List.mem_map_of_mem (by decide)))

abbrev c1_W : List (Ref sig .tc) :=
  [main_v0, main_v1, main_v2, main_v3, main_c, main_v4, main_v5, main_c_0, main_v6, main_v7, main_v8, main_v9, main_v10]
abbrev c2_W : List (Ref sig .tc) :=
  [main_c_1, main_v11, main_v12, main_c_2, main_v13, main_v14, main_v15, main_v16, main_v17]
abbrev c3_W : List (Ref sig .tc) :=
  [main_v18, main_v19, main_v20, main_v21, main_v22, main_call0_cst, main_call0_v0, main_v23]
abbrev c4_W : List (Ref sig .tc) :=
  [main_cst, main_v24, main_v25, main_cst_3, main_v26, main_v27, main_v28, main_v29, main_v30]
abbrev c5_W : List (Ref sig .tc) :=
  [main_cst_4, main_v31, main_v32, main_cst_5, main_v33, main_v34, main_v35, main_v36]
abbrev c6_W : List (Ref sig .tc) :=
  [main_cst_6, main_v37, main_v38, main_v39, main_v40, main_v41, main_v42, main_v43, main_v44, main_v45, main_v46, main_v47]
abbrev c7_W : List (Ref sig .tc) :=
  [main_v48, main_v49, main_v50, main_v51, main_call1_cst, main_call1_v0, main_v52]
abbrev c8_W : List (Ref sig .tc) :=
  [main_cst_7, main_v53, main_v54, main_cst_8, main_v55, main_v56, main_v57, main_v58, main_v59]
abbrev c9_W : List (Ref sig .tc) :=
  [main_cst_9, main_v60, main_v61, main_cst_10, main_v62, main_v63, main_v64, main_v65]
abbrev c10_W : List (Ref sig .tc) :=
  [main_cst_11, main_v66, main_v67, main_v68, main_v69, main_v70, main_v71, main_v72, main_v73, main_v74, main_v75, main_v76]
abbrev c11_W : List (Ref sig .tc) :=
  [main_v77, main_v78, main_v79, main_v80]

theorem c1_writes : (c1 : List (HloOp τ sig (Elt F))).Forall fun op => op.writes ⊆ (c1_W.map (Proc.devRef (τ := τ) .tc)).toFinset := by
  unfold c1; stretch_writes
theorem c2_writes : (c2 : List (HloOp τ sig (Elt F))).Forall fun op => op.writes ⊆ (c2_W.map (Proc.devRef (τ := τ) .tc)).toFinset := by
  unfold c2; stretch_writes
theorem c3_writes : (c3 : List (HloOp τ sig (Elt F))).Forall fun op => op.writes ⊆ (c3_W.map (Proc.devRef (τ := τ) .tc)).toFinset := by
  unfold c3; stretch_writes
theorem c4_writes : (c4 : List (HloOp τ sig (Elt F))).Forall fun op => op.writes ⊆ (c4_W.map (Proc.devRef (τ := τ) .tc)).toFinset := by
  unfold c4; stretch_writes
theorem c5_writes : (c5 : List (HloOp τ sig (Elt F))).Forall fun op => op.writes ⊆ (c5_W.map (Proc.devRef (τ := τ) .tc)).toFinset := by
  unfold c5; stretch_writes
theorem c6_writes : (c6 : List (HloOp τ sig (Elt F))).Forall fun op => op.writes ⊆ (c6_W.map (Proc.devRef (τ := τ) .tc)).toFinset := by
  unfold c6; stretch_writes
theorem c7_writes : (c7 : List (HloOp τ sig (Elt F))).Forall fun op => op.writes ⊆ (c7_W.map (Proc.devRef (τ := τ) .tc)).toFinset := by
  unfold c7; stretch_writes
theorem c8_writes : (c8 : List (HloOp τ sig (Elt F))).Forall fun op => op.writes ⊆ (c8_W.map (Proc.devRef (τ := τ) .tc)).toFinset := by
  unfold c8; stretch_writes
theorem c9_writes : (c9 : List (HloOp τ sig (Elt F))).Forall fun op => op.writes ⊆ (c9_W.map (Proc.devRef (τ := τ) .tc)).toFinset := by
  unfold c9; stretch_writes
theorem c10_writes : (c10 : List (HloOp τ sig (Elt F))).Forall fun op => op.writes ⊆ (c10_W.map (Proc.devRef (τ := τ) .tc)).toFinset := by
  unfold c10; stretch_writes
theorem c11_writes : (c11 : List (HloOp τ sig (Elt F))).Forall fun op => op.writes ⊆ (c11_W.map (Proc.devRef (τ := τ) .tc)).toFinset := by
  unfold c11; stretch_writes

section Stretches

variable (W : Valuation τ sig (Elt F))

/-- A buffer that a stretch does not write keeps its contents through it. -/
theorem c1_keep (r : Ref sig .tc) (h : r ∉ c1_W) : after c1 W (Proc.devRef .tc r) = W (Proc.devRef .tc r) :=
  after_of_writes_sub c1 W c1_writes h
theorem c2_keep (r : Ref sig .tc) (h : r ∉ c2_W) : after c2 W (Proc.devRef .tc r) = W (Proc.devRef .tc r) :=
  after_of_writes_sub c2 W c2_writes h
theorem c3_keep (r : Ref sig .tc) (h : r ∉ c3_W) : after c3 W (Proc.devRef .tc r) = W (Proc.devRef .tc r) :=
  after_of_writes_sub c3 W c3_writes h
theorem c4_keep (r : Ref sig .tc) (h : r ∉ c4_W) : after c4 W (Proc.devRef .tc r) = W (Proc.devRef .tc r) :=
  after_of_writes_sub c4 W c4_writes h
theorem c5_keep (r : Ref sig .tc) (h : r ∉ c5_W) : after c5 W (Proc.devRef .tc r) = W (Proc.devRef .tc r) :=
  after_of_writes_sub c5 W c5_writes h
theorem c6_keep (r : Ref sig .tc) (h : r ∉ c6_W) : after c6 W (Proc.devRef .tc r) = W (Proc.devRef .tc r) :=
  after_of_writes_sub c6 W c6_writes h
theorem c7_keep (r : Ref sig .tc) (h : r ∉ c7_W) : after c7 W (Proc.devRef .tc r) = W (Proc.devRef .tc r) :=
  after_of_writes_sub c7 W c7_writes h
theorem c8_keep (r : Ref sig .tc) (h : r ∉ c8_W) : after c8 W (Proc.devRef .tc r) = W (Proc.devRef .tc r) :=
  after_of_writes_sub c8 W c8_writes h
theorem c9_keep (r : Ref sig .tc) (h : r ∉ c9_W) : after c9 W (Proc.devRef .tc r) = W (Proc.devRef .tc r) :=
  after_of_writes_sub c9 W c9_writes h
theorem c10_keep (r : Ref sig .tc) (h : r ∉ c10_W) : after c10 W (Proc.devRef .tc r) = W (Proc.devRef .tc r) :=
  after_of_writes_sub c10 W c10_writes h
theorem c11_keep (r : Ref sig .tc) (h : r ∉ c11_W) : after c11 W (Proc.devRef .tc r) = W (Proc.devRef .tc r) :=
  after_of_writes_sub c11 W c11_writes h

/-! ## One stretch at a time, from ANY contents

Each lemma is about a stretch run from arbitrary contents `W`: if the buffers the stretch reads hold the stages
`Read.val_…` of some argument values `a0 … a12`, the buffers it hands on hold the later stages of the same values. -/

variable {a0 : (⟨S100000x8, .f32⟩ : BufTy).Contents (Elt F)} {a1 : (⟨S2x3200000, .i32⟩ : BufTy).Contents (Elt F)}
  {a2 : (⟨S3200000x4, .f32⟩ : BufTy).Contents (Elt F)} {a3 : (⟨S20x16, .f32⟩ : BufTy).Contents (Elt F)}
  {a4 a5 a6 : (⟨S16, .f32⟩ : BufTy).Contents (Elt F)} {a7 : (⟨S16x16, .f32⟩ : BufTy).Contents (Elt F)}
  {a8 a9 a10 : (⟨S16, .f32⟩ : BufTy).Contents (Elt F)} {a11 : (⟨S16x4, .f32⟩ : BufTy).Contents (Elt F)}
  {a12 : (⟨S4, .f32⟩ : BufTy).Contents (Elt F)}

theorem stretch1 (h0 : W (Proc.devRef .tc main_arg0) = a0) (h1 : W (Proc.devRef .tc main_arg1) = a1) :
    after c1 W (Proc.devRef .tc main_v10) = Read.val_main_v10 (F := F) a0 a1
    ∧ after c1 W (Proc.devRef .tc main_v3) = Read.val_main_v3 (F := F) a1 := by
  unfold c1
  refine ⟨?_, ?_⟩
  · after_results_simp; rw [h0, h1]; rfl
  · after_results_simp; rw [h1]; rfl

theorem stretch2 (h0 : W (Proc.devRef .tc main_arg0) = a0) (e3 : W (Proc.devRef .tc main_v3) = Read.val_main_v3 (F := F) a1) :
    after c2 W (Proc.devRef .tc main_v17) = Read.val_main_v17 (F := F) a0 a1 := by
  unfold c2
  after_results_simp; rw [e3, h0]; rfl

/-- The concatenate reads its three operands through a literal family of references: each is read off before the
    operands' contents are put in. -/
theorem stretch3 (e10 : W (Proc.devRef .tc main_v10) = Read.val_main_v10 (F := F) a0 a1)
    (e17 : W (Proc.devRef .tc main_v17) = Read.val_main_v17 (F := F) a0 a1)
    (h2 : W (Proc.devRef .tc main_arg2) = a2) (h3 : W (Proc.devRef .tc main_arg3) = a3) (h4 : W (Proc.devRef .tc main_arg4) = a4) :
    after c3 W (Proc.devRef .tc main_v23) = Read.val_main_v23 (F := F) a0 a1 a2 a3 a4 := by
  unfold c3
  after_results_simp
  dsimp only [Matrix.cons_val]
  rw [e10, e17, h2, h3, h4]; rfl

theorem stretch4 (e23 : W (Proc.devRef .tc main_v23) = Read.val_main_v23 (F := F) a0 a1 a2 a3 a4) :
    after c4 W (Proc.devRef .tc main_v30) = Read.val_main_v30 (F := F) a0 a1 a2 a3 a4
    ∧ after c4 W (Proc.devRef .tc main_v27) = Read.val_main_v27 (F := F) a0 a1 a2 a3 a4 := by
  unfold c4
  refine ⟨?_, ?_⟩
  · after_results_simp; rw [e23]; rfl
  · after_results_simp; rw [e23]; rfl

theorem stretch5 (e30 : W (Proc.devRef .tc main_v30) = Read.val_main_v30 (F := F) a0 a1 a2 a3 a4)
    (e27 : W (Proc.devRef .tc main_v27) = Read.val_main_v27 (F := F) a0 a1 a2 a3 a4)
    (e23 : W (Proc.devRef .tc main_v23) = Read.val_main_v23 (F := F) a0 a1 a2 a3 a4) :
    after c5 W (Proc.devRef .tc main_v34) = Read.val_main_v34 (F := F) a0 a1 a2 a3 a4
    ∧ after c5 W (Proc.devRef .tc main_v36) = Read.val_main_v36 (F := F) a0 a1 a2 a3 a4 := by
  unfold c5
  refine ⟨?_, ?_⟩
  · after_results_simp; rw [e30]; rfl
  · after_results_simp; rw [e23, e27]; rfl

theorem stretch6 (e34 : W (Proc.devRef .tc main_v34) = Read.val_main_v34 (F := F) a0 a1 a2 a3 a4)
    (e36 : W (Proc.devRef .tc main_v36) = Read.val_main_v36 (F := F) a0 a1 a2 a3 a4)
    (h5 : W (Proc.devRef .tc main_arg5) = a5) (h6 : W (Proc.devRef .tc main_arg6) = a6) :
    after c6 W (Proc.devRef .tc main_v47) = Read.val_main_v47 (F := F) a0 a1 a2 a3 a4 a5 a6 := by
  unfold c6
  after_results_simp; rw [e36, e34, h5, h6]; rfl

theorem stretch7 (e47 : W (Proc.devRef .tc main_v47) = Read.val_main_v47 (F := F) a0 a1 a2 a3 a4 a5 a6)
    (h7 : W (Proc.devRef .tc main_arg7) = a7) (h8 : W (Proc.devRef .tc main_arg8) = a8) :
    after c7 W (Proc.devRef .tc main_v52) = Read.val_main_v52 (F := F) a0 a1 a2 a3 a4 a5 a6 a7 a8 := by
  unfold c7
  after_results_simp; rw [e47, h7, h8]; rfl

theorem stretch8 (e52 : W (Proc.devRef .tc main_v52) = Read.val_main_v52 (F := F) a0 a1 a2 a3 a4 a5 a6 a7 a8) :
    after c8 W (Proc.devRef .tc main_v59) = Read.val_main_v59 (F := F) a0 a1 a2 a3 a4 a5 a6 a7 a8
    ∧ after c8 W (Proc.devRef .tc main_v56) = Read.val_main_v56 (F := F) a0 a1 a2 a3 a4 a5 a6 a7 a8 := by
  unfold c8
  refine ⟨?_, ?_⟩
  · after_results_simp; rw [e52]; rfl
  · after_results_simp; rw [e52]; rfl

theorem stretch9 (e59 : W (Proc.devRef .tc main_v59) = Read.val_main_v59 (F := F) a0 a1 a2 a3 a4 a5 a6 a7 a8)
    (e56 : W (Proc.devRef .tc main_v56) = Read.val_main_v56 (F := F) a0 a1 a2 a3 a4 a5 a6 a7 a8)
    (e52 : W (Proc.devRef .tc main_v52) = Read.val_main_v52 (F := F) a0 a1 a2 a3 a4 a5 a6 a7 a8) :
    after c9 W (Proc.devRef .tc main_v63) = Read.val_main_v63 (F := F) a0 a1 a2 a3 a4 a5 a6 a7 a8
    ∧ after c9 W (Proc.devRef .tc main_v65) = Read.val_main_v65 (F := F) a0 a1 a2 a3 a4 a5 a6 a7 a8 := by
  unfold c9
  refine ⟨?_, ?_⟩
  · after_results_simp; rw [e59]; rfl
  · after_results_simp; rw [e52, e56]; rfl

theorem stretch10 (e63 : W (Proc.devRef .tc main_v63) = Read.val_main_v63 (F := F) a0 a1 a2 a3 a4 a5 a6 a7 a8)
    (e65 : W (Proc.devRef .tc main_v65) = Read.val_main_v65 (F := F) a0 a1 a2 a3 a4 a5 a6 a7 a8)
    (h9 : W (Proc.devRef .tc main_arg9) = a9) (h10 : W (Proc.devRef .tc main_arg10) = a10) :
    after c10 W (Proc.devRef .tc main_v76) = Read.val_main_v76 (F := F) a0 a1 a2 a3 a4 a5 a6 a7 a8 a9 a10 := by
  unfold c10
  after_results_simp; rw [e65, e63, h9, h10]; rfl

theorem stretch11 (e76 : W (Proc.devRef .tc main_v76) = Read.val_main_v76 (F := F) a0 a1 a2 a3 a4 a5 a6 a7 a8 a9 a10)
    (h11 : W (Proc.devRef .tc main_arg11) = a11) (h12 : W (Proc.devRef .tc main_arg12) = a12) :
    after c11 W (Proc.devRef .tc main_v80) = Read.val_main_v80 (F := F) a0 a1 a2 a3 a4 a5 a6 a7 a8 a9 a10 a11 a12 := by
  unfold c11
  after_results_simp; rw [e76, h11, h12]; rfl

end Stretches

/-! ## The contents after the first k stretches, from launch contents `V` -/

section Staged

variable (V : Valuation τ sig (Elt F))

def W1 : Valuation τ sig (Elt F) := after c1 V
def W2 : Valuation τ sig (Elt F) := after c2 (W1 V)
def W3 : Valuation τ sig (Elt F) := after c3 (W2 V)
def W4 : Valuation τ sig (Elt F) := after c4 (W3 V)
def W5 : Valuation τ sig (Elt F) := after c5 (W4 V)
def W6 : Valuation τ sig (Elt F) := after c6 (W5 V)
def W7 : Valuation τ sig (Elt F) := after c7 (W6 V)
def W8 : Valuation τ sig (Elt F) := after c8 (W7 V)
def W9 : Valuation τ sig (Elt F) := after c9 (W8 V)
def W10 : Valuation τ sig (Elt F) := after c10 (W9 V)
def W11 : Valuation τ sig (Elt F) := after c11 (W10 V)

/-- Running all the operations is running the eleven stretches one after the other. -/
theorem after_ops : after ops V = W11 V := by
  rw [ops_cut]
  simp only [StableHlo.after_append]
  rfl

/-- A buffer none of the first k stretches writes still holds its launch contents after them. -/
theorem W1_keep (r : Ref sig .tc) (h : r ∉ c1_W) : W1 V (Proc.devRef .tc r) = V (Proc.devRef .tc r) :=
  c1_keep V r h
theorem W2_keep (r : Ref sig .tc) (h : r ∉ c2_W ∧ r ∉ c1_W) : W2 V (Proc.devRef .tc r) = V (Proc.devRef .tc r) :=
  (c2_keep (W1 V) r h.1).trans (W1_keep V r h.2)
theorem W3_keep (r : Ref sig .tc) (h : r ∉ c3_W ∧ r ∉ c2_W ∧ r ∉ c1_W) : W3 V (Proc.devRef .tc r) = V (Proc.devRef .tc r) :=
  (c3_keep (W2 V) r h.1).trans (W2_keep V r h.2)
theorem W4_keep (r : Ref sig .tc) (h : r ∉ c4_W ∧ r ∉ c3_W ∧ r ∉ c2_W ∧ r ∉ c1_W) :
    W4 V (Proc.devRef .tc r) = V (Proc.devRef .tc r) :=
  (c4_keep (W3 V) r h.1).trans (W3_keep V r h.2)
theorem W5_keep (r : Ref sig .tc) (h : r ∉ c5_W ∧ r ∉ c4_W ∧ r ∉ c3_W ∧ r ∉ c2_W ∧ r ∉ c1_W) :
    W5 V (Proc.devRef .tc r) = V (Proc.devRef .tc r) :=
  (c5_keep (W4 V) r h.1).trans (W4_keep V r h.2)
theorem W6_keep (r : Ref sig .tc) (h : r ∉ c6_W ∧ r ∉ c5_W ∧ r ∉ c4_W ∧ r ∉ c3_W ∧ r ∉ c2_W ∧ r ∉ c1_W) :
    W6 V (Proc.devRef .tc r) = V (Proc.devRef .tc r) :=
  (c6_keep (W5 V) r h.1).trans (W5_keep V r h.2)
theorem W7_keep (r : Ref sig .tc) (h : r ∉ c7_W ∧ r ∉ c6_W ∧ r ∉ c5_W ∧ r ∉ c4_W ∧ r ∉ c3_W ∧ r ∉ c2_W ∧ r ∉ c1_W) :
    W7 V (Proc.devRef .tc r) = V (Proc.devRef .tc r) :=
  (c7_keep (W6 V) r h.1).trans (W6_keep V r h.2)
theorem W8_keep (r : Ref sig .tc)
    (h : r ∉ c8_W ∧ r ∉ c7_W ∧ r ∉ c6_W ∧ r ∉ c5_W ∧ r ∉ c4_W ∧ r ∉ c3_W ∧ r ∉ c2_W ∧ r ∉ c1_W) :
    W8 V (Proc.devRef .tc r) = V (Proc.devRef .tc r) :=
  (c8_keep (W7 V) r h.1).trans (W7_keep V r h.2)
theorem W9_keep (r : Ref sig .tc)
    (h : r ∉ c9_W ∧ r ∉ c8_W ∧ r ∉ c7_W ∧ r ∉ c6_W ∧ r ∉ c5_W ∧ r ∉ c4_W ∧ r ∉ c3_W ∧ r ∉ c2_W ∧ r ∉ c1_W) :
    W9 V (Proc.devRef .tc r) = V (Proc.devRef .tc r) :=
  (c9_keep (W8 V) r h.1).trans (W8_keep V r h.2)
theorem W10_keep (r : Ref sig .tc)
    (h : r ∉ c10_W ∧ r ∉ c9_W ∧ r ∉ c8_W ∧ r ∉ c7_W ∧ r ∉ c6_W ∧ r ∉ c5_W ∧ r ∉ c4_W ∧ r ∉ c3_W ∧ r ∉ c2_W ∧ r ∉ c1_W) :
    W10 V (Proc.devRef .tc r) = V (Proc.devRef .tc r) :=
  (c10_keep (W9 V) r h.1).trans (W9_keep V r h.2)
theorem W11_keep (r : Ref sig .tc)
    (h : r ∉ c11_W ∧ r ∉ c10_W ∧ r ∉ c9_W ∧ r ∉ c8_W ∧ r ∉ c7_W ∧ r ∉ c6_W ∧ r ∉ c5_W ∧ r ∉ c4_W ∧ r ∉ c3_W ∧ r ∉ c2_W ∧ r ∉ c1_W) :
    W11 V (Proc.devRef .tc r) = V (Proc.devRef .tc r) :=
  (c11_keep (W10 V) r h.1).trans (W10_keep V r h.2)

/-! ### The stages, stretch by stretch

Each fact is the stretch lemma at the contents the stretches before it leave; what a stretch reads from an earlier one
than its neighbour is first carried through the stretches between. The argument values are the launch contents. -/

/-- The launch contents of the thirteen arguments. -/
abbrev arg0 : (⟨S100000x8, .f32⟩ : BufTy).Contents (Elt F) := V (Proc.devRef .tc main_arg0)
abbrev arg1 : (⟨S2x3200000, .i32⟩ : BufTy).Contents (Elt F) := V (Proc.devRef .tc main_arg1)
abbrev arg2 : (⟨S3200000x4, .f32⟩ : BufTy).Contents (Elt F) := V (Proc.devRef .tc main_arg2)
abbrev arg3 : (⟨S20x16, .f32⟩ : BufTy).Contents (Elt F) := V (Proc.devRef .tc main_arg3)
abbrev arg4 : (⟨S16, .f32⟩ : BufTy).Contents (Elt F) := V (Proc.devRef .tc main_arg4)
abbrev arg5 : (⟨S16, .f32⟩ : BufTy).Contents (Elt F) := V (Proc.devRef .tc main_arg5)
abbrev arg6 : (⟨S16, .f32⟩ : BufTy).Contents (Elt F) := V (Proc.devRef .tc main_arg6)
abbrev arg7 : (⟨S16x16, .f32⟩ : BufTy).Contents (Elt F) := V (Proc.devRef .tc main_arg7)
abbrev arg8 : (⟨S16, .f32⟩ : BufTy).Contents (Elt F) := V (Proc.devRef .tc main_arg8)
abbrev arg9 : (⟨S16, .f32⟩ : BufTy).Contents (Elt F) := V (Proc.devRef .tc main_arg9)
abbrev arg10 : (⟨S16, .f32⟩ : BufTy).Contents (Elt F) := V (Proc.devRef .tc main_arg10)
abbrev arg11 : (⟨S16x4, .f32⟩ : BufTy).Contents (Elt F) := V (Proc.devRef .tc main_arg11)
abbrev arg12 : (⟨S4, .f32⟩ : BufTy).Contents (Elt F) := V (Proc.devRef .tc main_arg12)

theorem W1_v10 : W1 V (Proc.devRef .tc main_v10) = Read.val_main_v10 (F := F) (arg0 V) (arg1 V) := (stretch1 V rfl rfl).1
theorem W1_v3 : W1 V (Proc.devRef .tc main_v3) = Read.val_main_v3 (F := F) (arg1 V) := (stretch1 (a0 := arg0 V) V rfl rfl).2

theorem W2_v17 : W2 V (Proc.devRef .tc main_v17) = Read.val_main_v17 (F := F) (arg0 V) (arg1 V) :=
  stretch2 (W1 V) (W1_keep V main_arg0 (by decide)) (W1_v3 V)
theorem W2_v10 : W2 V (Proc.devRef .tc main_v10) = Read.val_main_v10 (F := F) (arg0 V) (arg1 V) :=
  (c2_keep (W1 V) main_v10 (by decide)).trans (W1_v10 V)

theorem W3_v23 : W3 V (Proc.devRef .tc main_v23) = Read.val_main_v23 (F := F) (arg0 V) (arg1 V) (arg2 V) (arg3 V) (arg4 V) :=
  stretch3 (W2 V) (W2_v10 V) (W2_v17 V) (W2_keep V main_arg2 (by decide)) (W2_keep V main_arg3 (by decide))
    (W2_keep V main_arg4 (by decide))

theorem W4_v30 : W4 V (Proc.devRef .tc main_v30) = Read.val_main_v30 (F := F) (arg0 V) (arg1 V) (arg2 V) (arg3 V) (arg4 V) := (stretch4 (W3 V) (W3_v23 V)).1
theorem W4_v27 : W4 V (Proc.devRef .tc main_v27) = Read.val_main_v27 (F := F) (arg0 V) (arg1 V) (arg2 V) (arg3 V) (arg4 V) := (stretch4 (W3 V) (W3_v23 V)).2
theorem W4_v23 : W4 V (Proc.devRef .tc main_v23) = Read.val_main_v23 (F := F) (arg0 V) (arg1 V) (arg2 V) (arg3 V) (arg4 V) :=
  (c4_keep (W3 V) main_v23 (by decide)).trans (W3_v23 V)

theorem W5_v34 : W5 V (Proc.devRef .tc main_v34) = Read.val_main_v34 (F := F) (arg0 V) (arg1 V) (arg2 V) (arg3 V) (arg4 V) :=
  (stretch5 (W4 V) (W4_v30 V) (W4_v27 V) (W4_v23 V)).1
theorem W5_v36 : W5 V (Proc.devRef .tc main_v36) = Read.val_main_v36 (F := F) (arg0 V) (arg1 V) (arg2 V) (arg3 V) (arg4 V) :=
  (stretch5 (W4 V) (W4_v30 V) (W4_v27 V) (W4_v23 V)).2

theorem W6_v47 : W6 V (Proc.devRef .tc main_v47) = Read.val_main_v47 (F := F) (arg0 V) (arg1 V) (arg2 V) (arg3 V) (arg4 V) (arg5 V) (arg6 V) :=
  stretch6 (W5 V) (W5_v34 V) (W5_v36 V) (W5_keep V main_arg5 (by decide)) (W5_keep V main_arg6 (by decide))

theorem W7_v52 : W7 V (Proc.devRef .tc main_v52) = Read.val_main_v52 (F := F) (arg0 V) (arg1 V) (arg2 V) (arg3 V) (arg4 V) (arg5 V) (arg6 V) (arg7 V) (arg8 V) :=
  stretch7 (W6 V) (W6_v47 V) (W6_keep V main_arg7 (by decide)) (W6_keep V main_arg8 (by decide))

theorem W8_v59 : W8 V (Proc.devRef .tc main_v59) = Read.val_main_v59 (F := F) (arg0 V) (arg1 V) (arg2 V) (arg3 V) (arg4 V) (arg5 V) (arg6 V) (arg7 V) (arg8 V) :=
  (stretch8 (W7 V) (W7_v52 V)).1
theorem W8_v56 : W8 V (Proc.devRef .tc main_v56) = Read.val_main_v56 (F := F) (arg0 V) (arg1 V) (arg2 V) (arg3 V) (arg4 V) (arg5 V) (arg6 V) (arg7 V) (arg8 V) :=
  (stretch8 (W7 V) (W7_v52 V)).2
theorem W8_v52 : W8 V (Proc.devRef .tc main_v52) = Read.val_main_v52 (F := F) (arg0 V) (arg1 V) (arg2 V) (arg3 V) (arg4 V) (arg5 V) (arg6 V) (arg7 V) (arg8 V) :=
  (c8_keep (W7 V) main_v52 (by decide)).trans (W7_v52 V)

theorem W9_v63 : W9 V (Proc.devRef .tc main_v63) = Read.val_main_v63 (F := F) (arg0 V) (arg1 V) (arg2 V) (arg3 V) (arg4 V) (arg5 V) (arg6 V) (arg7 V) (arg8 V) :=
  (stretch9 (W8 V) (W8_v59 V) (W8_v56 V) (W8_v52 V)).1
theorem W9_v65 : W9 V (Proc.devRef .tc main_v65) = Read.val_main_v65 (F := F) (arg0 V) (arg1 V) (arg2 V) (arg3 V) (arg4 V) (arg5 V) (arg6 V) (arg7 V) (arg8 V) :=
  (stretch9 (W8 V) (W8_v59 V) (W8_v56 V) (W8_v52 V)).2

theorem W10_v76 : W10 V (Proc.devRef .tc main_v76) = Read.val_main_v76 (F := F) (arg0 V) (arg1 V) (arg2 V) (arg3 V) (arg4 V) (arg5 V) (arg6 V) (arg7 V) (arg8 V) (arg9 V) (arg10 V) :=
  stretch10 (W9 V) (W9_v63 V) (W9_v65 V) (W9_keep V main_arg9 (by decide)) (W9_keep V main_arg10 (by decide))

/-- After all the operations the result buffer holds the last stage of the launch contents of the arguments. -/
theorem W11_v80 : W11 V (Proc.devRef .tc main_v80)
    = Read.val_main_v80 (F := F) (arg0 V) (arg1 V) (arg2 V) (arg3 V) (arg4 V) (arg5 V) (arg6 V) (arg7 V) (arg8 V) (arg9 V) (arg10 V) (arg11 V) (arg12 V) :=
  stretch11 (W10 V) (W10_v76 V) (W10_keep V main_arg11 (by decide)) (W10_keep V main_arg12 (by decide))

end Staged

set_option maxRecDepth 8192 in
/-- No operation allocates a buffer without writing it: each determines what it writes. -/
theorem ops_fresh : (ops : List (HloOp τ sig (Elt F))).Forall fun op => op.fresh = ∅ :=
  ⟨rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl,
   rfl, rfl, rfl, rfl, rfl, rfl, rfl, rfl, rfl, rfl, rfl⟩

/-- The reference's run: every weakly fair execution of its @main terminates with the result buffer at the last
    stage of the operations read one at a time, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Read.val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_)
    (run_seq scopedRefs_eq scopedSems_eq defs main (fun _ => ops) main_eq (fun _ => ops_sub) m ρ
      (fun _ => List.forall_iff_forall_mem.1 ops_fresh))
  have hk : ∀ b : Ref sig .tc, r.2.mem ((c.tc : Thread nD τ).loc b) = W11 (launchContents m c) (Proc.devRef .tc b) :=
    fun b => (h c b).trans (congrFun (after_ops (launchContents m c)) (Proc.devRef .tc b))
  exact ⟨(hk main_v80).trans (W11_v80 _),
    (hk main_arg0).trans (W11_keep _ main_arg0 (by decide)), (hk main_arg1).trans (W11_keep _ main_arg1 (by decide)),
    (hk main_arg2).trans (W11_keep _ main_arg2 (by decide)), (hk main_arg3).trans (W11_keep _ main_arg3 (by decide)),
    (hk main_arg4).trans (W11_keep _ main_arg4 (by decide)), (hk main_arg5).trans (W11_keep _ main_arg5 (by decide)),
    (hk main_arg6).trans (W11_keep _ main_arg6 (by decide)), (hk main_arg7).trans (W11_keep _ main_arg7 (by decide)),
    (hk main_arg8).trans (W11_keep _ main_arg8 (by decide)), (hk main_arg9).trans (W11_keep _ main_arg9 (by decide)),
    (hk main_arg10).trans (W11_keep _ main_arg10 (by decide)), (hk main_arg11).trans (W11_keep _ main_arg11 (by decide)),
    (hk main_arg12).trans (W11_keep _ main_arg12 (by decide))⟩

end Cert.ReferenceIdeal.RunStaged

end
-- ==== Proof.lean ====
/-
  The proof of `Cert.Claim`: an edge network of a graph (for every edge: the feature rows of its two end nodes and
  the edge's own features, through a three-layer perceptron with a rectifier and a layer normalisation after each of
  the first two layers) as a Pallas kernel against its jnp reference, equal over the extended reals.

  The kernel program gathers the node features feature-major (one edge per column), pads the columns to a multiple
  of 32768, runs the network on 98 blocks of 32768 columns with the weights transposed, transposes the result back and
  drops the padding. The reference keeps one edge per row. Entry `(e, o)` of both results is the network's output `o`
  on edge `e`'s input row (`Cert.EdgeNet.resultOf`, Proof/Result.lean):
    * the kernel's side: the body's stores are the network down every column of the operand blocks (Proof/Body.lean);
      the 98 blocks tile the padded output array (Proof/Blocks.lean); the operands are the gathered, transposed and
      padded arguments, read at a column of a real edge (Proof/HostIn.lean, Proof/HostW.lean); the closing transpose and
      slice (Proof/Tail.lean); together Proof/KernelValue.lean;
    * the reference's side: its operations read one at a time (Proof/RefRead.lean, Proof/RefRun.lean) are that
      function (Proof/RefValue.lean).
  Both sides name a node by the index word of the edge list read as a signed integer and clamped into the node
  table. They agree because the precondition states that every entry of the edge list is a node, `0 ≤ · < 100000`
  (Proof/PreRange.lean): outside that range the reference wraps a negative index around the table where the kernel
  clamps it to row 0. No other law is needed than the commutativity of the product under the dense layers' sums
  (the kernel multiplies weight by input, the reference input by weight); finiteness of the float inputs is never used.
  The three frames: the kernel's two are generated whole; the reference's is its run with the result dropped.
  The ideal pass rewrote nothing, so `preserves` is `True`.
-/
import proofs.«424817_j3289944949007_3_alg».proof.Defs
import proofs.«424817_j3289944949007_3_alg».proof.Proof.Gen.Kernel
import proofs.«424817_j3289944949007_3_alg».proof.Proof.Gen.Kernel.Skeleton
import proofs.«424817_j3289944949007_3_alg».proof.Proof.Gen.Kernel.Launch
import proofs.«424817_j3289944949007_3_alg».proof.Proof.Gen.Kernel.Points
import proofs.«424817_j3289944949007_3_alg».proof.Proof.Gen.Kernel.Frame
import proofs.«424817_j3289944949007_3_alg».proof.Proof.Gen.KernelIdeal
import proofs.«424817_j3289944949007_3_alg».proof.Proof.Gen.KernelIdeal.Skeleton
import proofs.«424817_j3289944949007_3_alg».proof.Proof.Gen.KernelIdeal.Launch
import proofs.«424817_j3289944949007_3_alg».proof.Proof.Gen.KernelIdeal.Points
import proofs.«424817_j3289944949007_3_alg».proof.Proof.Gen.KernelIdeal.Frame
import proofs.«424817_j3289944949007_3_alg».proof.Proof.Gen.ReferenceIdeal
import proofs.«424817_j3289944949007_3_alg».proof.Proof.Gen.Pre_finite_inputs
import proofs.«424817_j3289944949007_3_alg».proof.Proof.PreRange
import proofs.«424817_j3289944949007_3_alg».proof.Proof.KernelValue
import proofs.«424817_j3289944949007_3_alg».proof.Proof.RefValue
import proofs.«424817_j3289944949007_3_alg».proof.Proof.RefRun
import Idealize.ShloMosaic.Adequacy
import Idealize.ShloMosaic.Init

noncomputable section

namespace Cert.Proof

open Idealize.ShloMosaic Idealize.ShloMosaic.ValueIdx Idealize.SL.Sem Cert.EdgeNet

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunStaged.run (F := Ideal) m ρ)

theorem preserves : Cert.preserves_Kernel_KernelIdeal := trivial

/-- Both programs end with the result at `resultOf` of the arguments: the kernel's run where every entry of the
    edge list is a node (which the precondition states), the reference's run read one operation at a time. -/
theorem algebraic : Cert.algebraic_KernelIdeal_ReferenceIdeal := by
  intro m ρ m' ρ' hpre hagree
  have hr : ∀ c : Dev Cert.KernelIdeal.nD,
      InRange (m ((c.tc : Thread Cert.KernelIdeal.nD Cert.KernelIdeal.τ).loc Cert.KernelIdeal.main_arg1)) :=
    fun c => inRange_of_pre _ _ _ _ _ _ _ _ _ _ _ _ _ (hpre c)
  refine ⟨fun c => resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.EdgeNet.kernel_run m ρ hr, ?_⟩
  refine (θ_run Cert.ReferenceIdeal.defs _ _).mono (fun _ h c => ⟨(h c).1.trans ?_, (h c).2⟩)
    (Cert.ReferenceIdeal.RunStaged.run (F := Ideal) m' ρ')
  obtain ⟨a0, a1, a2, a3, a4, a5, a6, a7, a8, a9, a10, a11, a12⟩ := hagree c
  rw [a0, a1, a2, a3, a4, a5, a6, a7, a8, a9, a10, a11, a12]
  funext i
  obtain ⟨e, o, rfl⟩ : ∃ (e : Fin 3200000) (o : Fin 4), i = ix2 e o := ⟨i 0, i 1, eq_ix2 i⟩
  exact ref_value _ _ _ _ _ _ _ _ _ _ _ _ _ (hr c) e o

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
